-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x1024x1024 .f32) (main_arg1 : IVec S8x1024 32) (main_arg2 : IVec S8x1024 32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_c_0 : IVec S_ 32 := constantI S_ 32 0#32
  let main_v4 : IVec S8x1024 32 := broadcastInDim S8x1024 ![] bcast_S_S8x1024 main_c_0
  let main_v5 : IVec S8x1024 1 := cmpi .sge main_arg2 main_v4
  let main_c_1 : IVec S_ 1 := constantI S_ 1 1#1
  let main_v6 : IVec S_ 1 := (fun x v => Host.reduce IntOp.andi x v reducesTo_S8x1024_S_d0_1 h_S_) main_v5 main_c_1
  let main_v7 : IVec S_ 1 := andi main_v3 main_v6
  main_v7
-- ==== Kernel.lean ====
abbrev S8x1024x1024 : Shape := ⟨3, ![8, 1024, 1024]⟩
abbrev S8x1024 : Shape := ⟨2, ![8, 1024]⟩
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S8x4x16 : Shape := ⟨3, ![8, 4, 16]⟩
abbrev S1x1024 : Shape := ⟨2, ![1, 1024]⟩
abbrev S1x4x16 : Shape := ⟨3, ![1, 4, 16]⟩
abbrev S1024x16 : Shape := ⟨2, ![1024, 16]⟩
abbrev S1024x4 : Shape := ⟨2, ![1024, 4]⟩
abbrev S16x1024 : Shape := ⟨2, ![16, 1024]⟩
abbrev S16x4 : Shape := ⟨2, ![16, 4]⟩
abbrev S4x16 : Shape := ⟨2, ![4, 16]⟩
abbrev S_ : Shape := ⟨0, ![]⟩
abbrev S1x16 : Shape := ⟨2, ![1, 16]⟩
abbrev S16 : Shape := ⟨1, ![16]⟩

abbrev nBuf : Space → Nat
  | .hbm => 74
  | .vmem => 22
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i32⟩
  | .hbm, ⟨2, _⟩ => ⟨S8x1024, .i32⟩
  | .hbm, ⟨3, _⟩ => ⟨S8192x1024, .f32⟩
  | .hbm, ⟨4, _⟩ => ⟨S8192, .i32⟩
  | .hbm, ⟨5, _⟩ => ⟨S8192, .i32⟩
  | .hbm, ⟨6, _⟩ => ⟨S8192x1024, .bf16⟩
  | .hbm, ⟨7, _⟩ => ⟨S8192x1, .i32⟩
  | .hbm, ⟨8, _⟩ => ⟨S1x8192, .i32⟩
  | .hbm, ⟨9, _⟩ => ⟨S8192x1, .i32⟩
  | .hbm, ⟨10, _⟩ => ⟨S1x8192, .i32⟩
  | .hbm, ⟨11, _⟩ => ⟨S8x4x16, .f32⟩
  | .hbm, ⟨12, _⟩ => ⟨S_, .f32⟩
  | .hbm, ⟨13, _⟩ => ⟨S4x16, .f32⟩
  | .hbm, ⟨14, _⟩ => ⟨S1x16, .f32⟩
  | .hbm, ⟨15, _⟩ => ⟨S16, .f32⟩
  | .hbm, ⟨16, _⟩ => ⟨S1x16, .f32⟩
  | .hbm, ⟨17, _⟩ => ⟨S16, .f32⟩
  | .hbm, ⟨18, _⟩ => ⟨S1x16, .f32⟩
  | .hbm, ⟨19, _⟩ => ⟨S16, .f32⟩
  | .hbm, ⟨20, _⟩ => ⟨S1x16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .i1⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .i1⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .i32⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S_, .i32⟩
  | .hbm, ⟨59, _⟩ => ⟨S8192, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S16, .i32⟩
  | .hbm, ⟨65, _⟩ => ⟨S_, .i32⟩
  | .hbm, ⟨66, _⟩ => ⟨S_, .i32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S16, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .i32⟩
  | .local _ .vmem, ⟨13, _⟩ => ⟨S1024x1, .i32⟩
  | .local _ .vmem, ⟨14, _⟩ => ⟨S1x1024, .i32⟩
  | .local _ .vmem, ⟨15, _⟩ => ⟨S1x1024, .i32⟩
  | .local _ .vmem, ⟨16, _⟩ => ⟨S1x4x16, .f32⟩
  | .local _ .vmem, ⟨17, _⟩ => ⟨S1x4x16, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_c_6 : Ref sig .tc := ⟨.hbm, 46, rfl⟩
abbrev main_call2_v0 : Ref sig .tc := ⟨.hbm, 47, rfl⟩
abbrev main_call2_v1 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_40 : BitVec 32 := 0#32
  let v82 : BitVec 1 := Scalar.cmpi .ne v81 c0_i32_40
  v82

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x4x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S8x1024x1024_S8192x1024 : S8x1024x1024.ShapeCasts S8192x1024
  shapeCasts_S8x1024_S8192 : S8x1024.ShapeCasts S8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x1024_d0_w32 : S1024x1024.Iotas .tc 32 [0]
  iota_S1024x1024_d1_w32 : S1024x1024.Iotas .tc 32 [1]
  natLt_1_32 : 1 < 32
  iota_S1024x16_d1_w32 : S1024x16.Iotas .tc 32 [1]
  broadcasts_S1024x1_S1024x16 : S1024x1.Broadcasts S1024x16
  concatenates_S1024x1_S1024x1_S1024x1_S1024x1_S1024x4_d1 : Shape.Concatenates [S1024x1, S1024x1, S1024x1, S1024x1] S1024x4 1
  transposes_S1024x16_p1_0_S16x1024 : S1024x16.Transposes [1, 0] S16x1024
  transposes_S16x4_p1_0_S4x16 : S16x4.Transposes [1, 0] S4x16
  inb_S1x4x16_S1x4x16_0_0_0 : ∀ a, (![0, 0, 0] : Fin 3 → Nat) a + S1x4x16.size a ≤ S1x4x16.size a
  h_S1x4x16 : 0 < S1x4x16.numel
  shapeCasts_S1x4x16_S4x16 : S1x4x16.ShapeCasts S4x16
  shapeCasts_S4x16_S1x4x16 : S4x16.ShapeCasts S1x4x16
  reducesTo_S8x4x16_S4x16_d0 : S8x4x16.ReducesTo [0] S4x16
  h_S_ : 0 < S_.numel
  slices_S4x16_S1x16_0_0 : S4x16.Slices ![0, 0] S1x16
  shapeCasts_S1x16_S16 : S1x16.ShapeCasts S16
  slices_S4x16_S1x16_1_0 : S4x16.Slices ![1, 0] S1x16
  slices_S4x16_S1x16_2_0 : S4x16.Slices ![2, 0] S1x16
  slices_S4x16_S1x16_3_0 : S4x16.Slices ![3, 0] S1x16
  bcast_S_S16 : S_.BroadcastsInDim S16 (![] : Fin 0 → Fin S16.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S16_S_d0 : S16.ReducesTo [0] S_
  dot_S1024x1024_S1024x1024_S1024x1024_1_1_0_0_n_n_wf : DotDims.WF S1024x1024 S1024x1024 S1024x1024 [1] [1] [0] [0] [] []
  dot_S16x1024_S1024x4_S16x4_1_0_0_1_n_n_wf : DotDims.WF S16x1024 S1024x4 S16x4 [1] [0] [0] [1] [] []
  scatter_S16_S8192x1_S8192_n_0_0_1_wf : ScatterDims.WF S16 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .i32 = 32 ∨ (Rect.block (s := S8192x1) S1024x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .i32 = 32 ∨ (Rect.block (s := S1x8192) S1x1024.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x4x16.size a ≤ S8x4x16.size a
  hwx1_6 : ∀ i : grid1.Coords, EltTy.bits .f32 = 32 ∨ (Rect.block (s := S8x4x16) S1x4x16.size (cc1_transform_6 i) (hinb1_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S16x1024_S1024x4_S16x4_1_0_0_1_n_n : DotDims S16x1024 S1024x4 S16x4 where
  lhsContracting := [1]
  rhsContracting := [0]
  lhsNonContracting := [0]
  rhsNonContracting := [1]
  lhsBatch := []
  rhsBatch := []
  wf := dot_S16x1024_S1024x4_S16x4_1_0_0_1_n_n_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x4x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩
abbrev S16 : Shape := ⟨1, ![16]⟩

abbrev nBuf : Space → Nat
  | .hbm => 127
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i32⟩
  | .hbm, ⟨2, _⟩ => ⟨S8x1024, .i32⟩
  | .hbm, ⟨3, _⟩ => ⟨S8192x1024, .f32⟩
  | .hbm, ⟨4, _⟩ => ⟨S8192, .i32⟩
  | .hbm, ⟨5, _⟩ => ⟨S8192, .i32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1024x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S8192x8192, .i1⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S8192x8192, .i1⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S16, .f32⟩
  | .hbm, ⟨62, _⟩ => ⟨S8192x1, .i32⟩
  | .hbm, ⟨63, _⟩ => ⟨S16, .f32⟩
  | .hbm, ⟨64, _⟩ => ⟨S8192x8192, .i32⟩
  | .hbm, ⟨65, _⟩ => ⟨S_, .i32⟩
  | .hbm, ⟨66, _⟩ => ⟨S8192, .i32⟩
  | .hbm, ⟨67, _⟩ => ⟨S8192, .f32⟩
  | .hbm, ⟨68, _⟩ => ⟨S_, .f32⟩
  | .hbm, ⟨69, _⟩ => ⟨S16, .f32⟩
  | .hbm, ⟨70, _⟩ => ⟨S8192x1, .i32⟩
  | .hbm, ⟨71, _⟩ => ⟨S16, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S16, .f32⟩
  | .hbm, ⟨76, _⟩ => ⟨S8192x1, .i32⟩
  | .hbm, ⟨77, _⟩ => ⟨S16, .f32⟩
  | .hbm, ⟨78, _⟩ => ⟨S8192x8192, .i32⟩
  | .hbm, ⟨79, _⟩ => ⟨S_, .i32⟩
  | .hbm, ⟨80, _⟩ => ⟨S8192, .i32⟩
  | .hbm, ⟨81, _⟩ => ⟨S8192, .f32⟩
  | .hbm, ⟨82, _⟩ => ⟨S_, .f32⟩
  | .hbm, ⟨83, _⟩ => ⟨S16, .f32⟩
  | .hbm, ⟨84, _⟩ => ⟨S8192x1, .i32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .i1⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S_, .f32⟩
  | .hbm, ⟨95, _⟩ => ⟨S16, .f32⟩
  | .hbm, ⟨96, _⟩ => ⟨S16, .f32⟩
  | .hbm, ⟨97, _⟩ => ⟨S_, .f32⟩
  | .hbm, ⟨98, _⟩ => ⟨S16, .f32⟩
  | .hbm, ⟨99, _⟩ => ⟨S16, .i1⟩
  | .hbm, ⟨100, _⟩ => ⟨S_, .f32⟩
  | .hbm, ⟨101, _⟩ => ⟨S16, .f32⟩
  | .hbm, ⟨102, _⟩ => ⟨S16, .f32⟩
  | .hbm, ⟨103, _⟩ => ⟨S16, .f32⟩
  | .hbm, ⟨104, _⟩ => ⟨S_, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S_, .f32⟩
  | .hbm, ⟨109, _⟩ => ⟨S8192, .f32⟩
  | .hbm, ⟨110, _⟩ => ⟨S_, .f32⟩
  | .hbm, ⟨111, _⟩ => ⟨S16, .f32⟩
  | .hbm, ⟨112, _⟩ => ⟨S8192x1, .i32⟩
  | .hbm, ⟨113, _⟩ => ⟨S16, .f32⟩
  | .hbm, ⟨114, _⟩ => ⟨S_, .f32⟩
  | .hbm, ⟨115, _⟩ => ⟨S16, .f32⟩
  | .hbm, ⟨116, _⟩ => ⟨S16, .i1⟩
  | .hbm, ⟨117, _⟩ => ⟨S16, .i32⟩
  | .hbm, ⟨118, _⟩ => ⟨S_, .i32⟩
  | .hbm, ⟨119, _⟩ => ⟨S_, .i32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S16, .f32⟩
  | .hbm, ⟨124, _⟩ => ⟨S_, .f32⟩
  | .hbm, ⟨125, _⟩ => ⟨S_, .f32⟩
  | .hbm, ⟨126, _⟩ => ⟨S_, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_call3_v0 : Ref sig .tc := ⟨.hbm, 94, rfl⟩
abbrev main_call3_v1 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_call4_v0 : Ref sig .tc := ⟨.hbm, 105, rfl⟩
abbrev main_call4_v1 : Ref sig .tc := ⟨.hbm, 106, rfl⟩
abbrev main_v71 : Ref sig .tc := ⟨.hbm, 107, rfl⟩
abbrev main_cst_19 : Ref sig .tc := ⟨.hbm, 108, rfl⟩
abbrev main_v72 : Ref sig .tc := ⟨.hbm, 109, rfl⟩
abbrev main_cst_20 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_21 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_22 : Ref sig .tc := ⟨.hbm, 118, rfl⟩
abbrev main_v79 : Ref sig .tc := ⟨.hbm, 119, rfl⟩
abbrev main_v80 : Ref sig .tc := ⟨.hbm, 120, rfl⟩
abbrev main_cst_23 : Ref sig .tc := ⟨.hbm, 121, rfl⟩
abbrev main_v81 : Ref sig .tc := ⟨.hbm, 122, rfl⟩
abbrev main_v82 : Ref sig .tc := ⟨.hbm, 123, rfl⟩
abbrev main_cst_24 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  shapeCasts_S8x1024x1024_S8192x1024 : S8x1024x1024.ShapeCasts S8192x1024
  shapeCasts_S8x1024_S8192 : S8x1024.ShapeCasts S8192
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S16 : S_.BroadcastsInDim S16 (![] : Fin 0 → Fin S16.rank)
  natLt_1_32 : 1 < 32
  bcast_S_S8192 : S_.BroadcastsInDim S8192 (![] : Fin 0 → Fin S8192.rank)
  reducesTo_S16_S_d0 : S16.ReducesTo [0] S_
  dot_S8192x1024_S1024x8192_S8192x8192_1_0_0_1_n_n_wf : DotDims.WF S8192x1024 S1024x8192 S8192x8192 [1] [0] [0] [1] [] []
  scatter_S16_S8192x1_S8192_n_0_0_1_wf : ScatterDims.WF S16 S8192x1 S8192 [] [0] [0] 1

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf

class Facts : Prop extends Facts₀ where

variable [Facts]
-- ==== Proof.Spec.lean ====
/-
  What the two kernels of the program compute, as whole-array functions of the arrays they are handed, written
  over the body's own arithmetic terms (the skeleton's payloads), at any float instance.

  * the normalising kernel: row block `i` of the result is the body's value on row block `i` of the input;
  * the pairwise kernel: for row block `i` the four per-row accumulators start from zero at column block 0,
    take one step per column block, and after column block 7 are contracted against the one-hot of the row
    block's cluster ids into the 4 × 16 slab `i` of the result.
-/
import proofs.«400463_j51427938402771_2_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Row `y` of block `i` among 8192 rows cut into 8 blocks of 1024. -/
abbrev blkRow (i : Fin 8) (y : Fin 1024) : Fin 8192 := ⟨i.val * 1024 + y.val, by omega⟩

/-- The block a row lies in, and the row's place inside it. -/
abbrev blkOf (r : Fin 8192) : Fin 8 := ⟨r.val / 1024, by have := r.isLt; omega⟩
abbrev offOf (r : Fin 8192) : Fin 1024 := ⟨r.val % 1024, Nat.mod_lt _ (by decide)⟩

/-- Rows `[1024 i, 1024 i + 1024)` of an 8192 × 1024 array. -/
def rowBlk {e : EltTy} (a : Vec F S8192x1024 e) (i : Fin 8) : Vec F S1024x1024 e :=
  fun y => a (ix2 (blkRow i (y 0)) (y 1))

/-- Rows `[1024 i, 1024 i + 1024)` of an 8192 × 1 column. -/
def colBlk {e : EltTy} (a : Vec F S8192x1 e) (i : Fin 8) : Vec F S1024x1 e :=
  fun y => a (ix2 (blkRow i (y 0)) (y 1))

/-- Columns `[1024 j, 1024 j + 1024)` of a 1 × 8192 row. -/
def lineBlk {e : EltTy} (a : Vec F S1x8192 e) (j : Fin 8) : Vec F S1x1024 e :=
  fun y => a (ix2 (y 0) (blkRow j (y 1)))

/-- The normalising kernel's result: each row block is the body's value on the same row block of the input. -/
def normArr (x : Vec F S8192x1024 .f32) : Vec F S8192x1024 .bf16 :=
  fun idx => k0_pay1 (rowBlk x (blkOf (idx 0))) (ix2 (offOf (idx 0)) (idx 1))

/-- The four per-row accumulators of the pairwise kernel (sum and count of the positive pairs, sum and count of
    the negative pairs), each a 1024 × 1 column. -/
structure Scr (F : FTy → Type) where
  posSum : Vec F S1024x1 .f32
  posCnt : Vec F S1024x1 .f32
  negSum : Vec F S1024x1 .f32
  negCnt : Vec F S1024x1 .f32

/-- The accumulators as the first column block resets them. -/
def scrZero : Scr F := ⟨k1_pay3 (F := F), k1_pay4 (F := F), k1_pay5 (F := F), k1_pay6 (F := F)⟩

/-- One grid point's step: the similarity tile of the two row blocks, the two masks, and each accumulator plus
    its tile's row sums. -/
def scrStep (co : grid1.Coords) (nI nJ : Vec F S1024x1024 .bf16) (lr : Vec F S1024x1 .i32) (lc : Vec F S1x1024 .i32)
    (cr : Vec F S1024x1 .i32) (cc : Vec F S1x1024 .i32) (p : Scr F) : Scr F :=
  ⟨k1_pay13 (k1_pay7 nI nJ) (k1_pay10 co lr lc cr cc) (k1_pay12 (F := F)) p.posSum,
   k1_pay14 (k1_pay10 co lr lc cr cc) p.posCnt,
   k1_pay15 (k1_pay7 nI nJ) (k1_pay11 lr lc cr cc) p.negSum,
   k1_pay1 p.negCnt (k1_pay16 (k1_pay11 lr lc cr cc))⟩

/-- Grid point number `t` of the 8 × 8 grid (taken modulo 64 so that it is total). -/
def pt (t : ℕ) : Fin grid1.N := ⟨t % 64, Nat.mod_lt _ (by decide)⟩

/-- The row block and the column block of grid point `t`. -/
def rowOf (t : ℕ) : Fin 8 := ⟨(t / 8) % 8, Nat.mod_lt _ (by decide)⟩
def colOf (t : ℕ) : Fin 8 := ⟨t % 8, Nat.mod_lt _ (by decide)⟩

section Pairwise

variable (n : Vec F S8192x1024 .bf16) (l4 : Vec F S8192x1 .i32) (l5 : Vec F S1x8192 .i32)
  (c6 : Vec F S8192x1 .i32) (c7 : Vec F S1x8192 .i32)

/-- The step of grid point `t` on the blocks that point is handed. -/
def stepAt (t : ℕ) (p : Scr F) : Scr F :=
  scrStep (grid1.coords (pt t)) (rowBlk n (rowOf t)) (rowBlk n (colOf t)) (colBlk l4 (rowOf t)) (lineBlk l5 (colOf t))
    (colBlk c6 (rowOf t)) (lineBlk c7 (colOf t)) p

/-- The accumulators after grid point `t`: reset at each first column block, stepped at every point. -/
def scrAfter : ℕ → Scr F
  | 0 => stepAt n l4 l5 c6 c7 0 scrZero
  | t + 1 => stepAt n l4 l5 c6 c7 (t + 1) (if (t + 1) % 8 = 0 then scrZero else scrAfter t)

/-- Slab `i` of the result: the accumulators after the row block's last column block, contracted against the
    one-hot of the row block's cluster ids. -/
def statsBlk (i : Fin 8) : FVec F S1x4x16 .f32 :=
  k1_pay2 (colBlk c6 i) (scrAfter n l4 l5 c6 c7 (i.val * 8 + 7)).posSum (scrAfter n l4 l5 c6 c7 (i.val * 8 + 7)).posCnt
    (scrAfter n l4 l5 c6 c7 (i.val * 8 + 7)).negSum (scrAfter n l4 l5 c6 c7 (i.val * 8 + 7)).negCnt

/-- The pairwise kernel's result, an 8 × 4 × 16 array. -/
def statsArr : Vec F S8x4x16 .f32 :=
  fun idx => statsBlk n l4 l5 c6 c7 (idx 0) (ix3 (0 : Fin 1) (idx 1) (idx 2))

end Pairwise

end Cert.KernelIdeal.Spec

end
-- ==== Proof.Fold.lean ====
/-
  The contents of every unscoped buffer of a TensorCore at each boundary of the kernel program's @main, as a fold
  from the launch memory: a stretch of host operations applies its operations in order; the normalising kernel
  replaces the buffer of its result by the row-normalised features; the pairwise kernel replaces the buffer of its
  result by the 8 × 4 × 16 array of per-row-block cluster statistics; nothing else changes.
-/
import proofs.«400463_j51427938402771_2_alg».proof.Proof.Gen.KernelIdeal.Launch
import proofs.«400463_j51427938402771_2_alg».proof.Proof.Spec

noncomputable section

namespace Cert.KernelIdeal.Fold

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the three reshapes of the arguments. -/
abbrev W1 (c : Dev nD) : Valuation τ sig (Elt F) := StableHlo.after hostOps0 (W0 m c)
/-- What the normalising kernel leaves in its result's buffer. -/
def out0 (c : Dev nD) : Buf (Elt F) ((c : Thread nD τ).loc main_v3) := Spec.normArr (W1 m c main_v0)
/-- After the normalising kernel. -/
abbrev W2 (c : Dev nD) : Valuation τ sig (Elt F) := Function.update (W1 m c) main_v3 (out0 m c)
/-- After the four reshapes of the labels and the cluster ids into a column and a row each. -/
abbrev W3 (c : Dev nD) : Valuation τ sig (Elt F) := StableHlo.after hostOps1 (W2 m c)
/-- What the pairwise kernel leaves in its result's buffer. -/
def out1 (c : Dev nD) : Buf (Elt F) ((c : Thread nD τ).loc main_v8) :=
  Spec.statsArr (W3 m c main_v3) (W3 m c main_v4) (W3 m c main_v5) (W3 m c main_v6) (W3 m c main_v7)
/-- After the pairwise kernel. -/
abbrev W4 (c : Dev nD) : Valuation τ sig (Elt F) := Function.update (W3 m c) main_v8 (out1 m c)
/-- After each of the seven stretches of host operations that follow it. -/
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
abbrev W8 (c : Dev nD) : Valuation τ sig (Elt F) := StableHlo.after hostOps2_3 (W7 m c)
abbrev W9 (c : Dev nD) : Valuation τ sig (Elt F) := StableHlo.after hostOps2_4 (W8 m c)
abbrev W10 (c : Dev nD) : Valuation τ sig (Elt F) := StableHlo.after hostOps2_5 (W9 m c)
/-- The contents at the return. -/
abbrev W11 (c : Dev nD) : Valuation τ sig (Elt F) := StableHlo.after hostOps2_6 (W10 m c)

end Cert.KernelIdeal.Fold

end
-- ==== Proof.Reg0.lean ====
/-
  The normalising kernel of the program (the first of its two pipelined calls), at the contents `V` the
  TensorCore's buffers hold when the call is entered.

  The call walks the 8 row blocks of an 8192 × 1024 array: at point `t` it is handed rows
  `[1024 t, 1024 t + 1024)` of the input, stores ONE value over the whole 1024 × 1024 output block — each row
  divided by `max(‖row‖₂, 1e-12)`, rounded to bf16 — and the block is written back to the same rows of the
  output array. So

  * the body, on an input block `x`, leaves the output buffer at the payload of `x` (one store that covers it);
  * the input array is never written;
  * the 8 written blocks tile the output array, which therefore ends holding, in row `r`, the payload of the
    row block `r / 1024` of the input at row `r % 1024`: `Spec.normArr` of the input array.
-/
import proofs.«400463_j51427938402771_2_alg».proof.Proof.Gen.KernelIdeal.Launch
import proofs.«400463_j51427938402771_2_alg».proof.Proof.Gen.KernelIdeal.Skeleton
import proofs.«400463_j51427938402771_2_alg».proof.Proof.Gen.KernelIdeal.Points
import proofs.«400463_j51427938402771_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data over `V`'s array whose
    body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output buffer -/

/-- The one rectangle the body reads and writes: the whole 1024 × 1024 block. -/
abbrev r0_0 : Rect S1024x1024 := Rect.unit (s := S1024x1024) ![0, 0] S1024x1024.size inb_S1024x1024_S1024x1024_0_0

/-- The output buffer after the body: its one store, of the payload of the loaded block. -/
def out0_1 (x0 : Vec F S1024x1024 .f32) : Vec F S1024x1024 .bf16 :=
  View.canon [⟨r0_0, k0_pay1 (View.ld x0 r0_0)⟩]

/-- The store's rectangle is the whole buffer. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg0 : Memref sig .tc .vmem S1024x1024 .f32) (harg0 : arg0.IsWhole)
    (arg1 : Memref sig .tc .vmem S1024x1024 .bf16) (harg1 : arg1.IsWhole)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the call on core `c`: the arrays as the call finds them; after the body at point `t` the
    input's buffer at its block and the output's at `out0_1` of that block; the invariant says the scoped rest and
    the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the call -/

/-- The input array is never written. -/
theorem arr0_in (c : Dev nD) : (dat0 V c).arrAt 0 cfg0.N = V c main_v0 :=
  ((dat0 V c).arrAt_in 0 rfl cfg0.N).trans (A_eq0 V c 0)

/-! ## The output array after the call -/

theorem hz0 : (![0, 0] : Fin 2 → Nat) = fun _ => 0 := funext fun a => by fin_cases a <;> rfl

/-- The body's value depends only on the block it is handed and the place it is read at. -/
theorem pay_congr {x x' : Vec F S1024x1024 .f32} {j j' : S1024x1024.Idx} (hx : x = x') (hj : j = j') :
    k0_pay1 x j = k0_pay1 x' j' := by subst hx hj; rfl

/-- The printed index maps, decided over the grid: at point `t` both windows are on row block `t`, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `Spec.normArr` of the input array. -/
theorem flushed1_eq (c : Dev nD) (t : Fin cfg0.N) :
    (dat0 V c).flushed 1 t = ((cfg0.win 1).blk t).view.read (Elt F) (Spec.normArr (V c main_v0)) := by
  show (cfg0.win 1).cut (grid0.coords t) ((dat0 V c).after 1 t) = _
  rw [after0_1]
  unfold out0_1
  rw [View.canon_unit_zero hz0]
  simp only [View.ld_unit_zero (S := S1024x1024) hz0]
  obtain ⟨e0, e1, e2, e3⟩ := idx_facts0 t
  funext j
  show k0_pay1 (iblk0 V c 0 t) j = Spec.normArr (V c main_v0) (((cfg0.win 1).blk t).view.emb j)
  unfold Spec.normArr
  have ht : t.val < 8 := t.isLt
  have hj0 : (j 0).val < 1024 := (j 0).isLt
  have hj1 : (j 1).val < 1024 := (j 1).isLt
  refine pay_congr ?_ ?_
  · funext y
    have hy0 : (y 0).val < 1024 := (y 0).isLt
    have hy1 : (y 1).val < 1024 := (y 1).isLt
    show V c main_v0 (((cfg0.win 0).blk t).view.emb y) = V c main_v0 _
    refine congrArg _ ?_
    funext a; apply Fin.ext
    match a with
    | ⟨0, _⟩ =>
      show win0_0.index t (0 : Fin 2) * 1024 + 1 * (y 0).val = (win0_1.index t (0 : Fin 2) * 1024 + 1 * (j 0).val) / 1024 * 1024 + (y 0).val
      omega
    | ⟨1, _⟩ =>
      show win0_0.index t (1 : Fin 2) * 1024 + 1 * (y 1).val = (y 1).val
      omega
  · funext a; apply Fin.ext
    match a with
    | ⟨0, _⟩ =>
      show (j 0).val = (win0_1.index t (0 : Fin 2) * 1024 + 1 * (j 0).val) % 1024
      omega
    | ⟨1, _⟩ =>
      show (j 1).val = win0_1.index t (1 : Fin 2) * 1024 + 1 * (j 1).val
      omega

/-- An index of the array is in point `t`'s block iff each coordinate is in the block's range on its axis. -/
theorem mem_blk1 (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v3).slice (win0_1.rect t)).set ↔ _
  rw [View.set_slice_whole, Rect.mem_set_unit]
  exact Iff.rfl

/-- Every row of the array lies in the block of the point numbered by its row block. -/
theorem cover1 (i : S8192x1024.Idx) : ∃ t : Fin cfg0.N, (cfg0.win 1).flush t = true ∧ i ∈ ((cfg0.win 1).blk t).view.set := by
  have hi0 : (i 0).val < 8192 := (i 0).isLt
  have hi1 : (i 1).val < 1024 := (i 1).isLt
  refine ⟨⟨(i 0).val / 1024, by rw [show cfg0.N = 8 from N_0]; omega⟩, flush0_1 _, ?_⟩
  rw [mem_blk1]
  obtain ⟨e0, e1, e2, e3⟩ := idx_facts0 ⟨(i 0).val / 1024, by rw [show cfg0.N = 8 from N_0]; omega⟩
  intro a
  match a with
  | ⟨0, _⟩ =>
    show win0_1.index _ (0 : Fin 2) * 1024 ≤ (i 0).val ∧ (i 0).val < win0_1.index _ (0 : Fin 2) * 1024 + 1024
    rw [e2]; show (i 0).val / 1024 * 1024 ≤ (i 0).val ∧ (i 0).val < (i 0).val / 1024 * 1024 + 1024
    omega
  | ⟨1, _⟩ =>
    show win0_1.index _ (1 : Fin 2) * 1024 ≤ (i 1).val ∧ (i 1).val < win0_1.index _ (1 : Fin 2) * 1024 + 1024
    rw [e3]; omega

/-- The 8 written blocks tile the output array: it ends holding `Spec.normArr` of the input array. -/
theorem arr0_out (c : Dev nD) : (dat0 V c).arrAt 1 cfg0.N = Spec.normArr (V c main_v0) :=
  (dat0 V c).arrAt_eq_of_cover 1 (Spec.normArr (V c main_v0)) (fun t _ => flushed1_eq V c t) cover1

end Cert.KernelIdeal.R0

end
-- ==== Proof.Reg1Dat.lean ====
/-
  The pairwise kernel of the program (the second of its two pipelined calls): its proof data, at the contents `V`
  the TensorCore's buffers hold when the call is entered.

  The call walks the 8 × 8 grid of (row block i, column block j) of the 8192 normalised rows, point t = 8 i + j.
  At a point it is handed row block i and row block j of the normalised array (two windows on ONE array, each
  holding half of it), the row and column copies of the labels and of the cluster ids; it carries four per-row
  accumulator columns (1024 × 1) in scratch buffers across the points — reset at column block 0, each plus its
  tile's row sums at every point — and at column block 7 contracts the one-hot of the row block's cluster ids with
  the four accumulators into the 4 × 16 slab i of the result, written back at that point only.

  Stated here: the shares, the windows' blocks, what the accumulators hold after each point
  (`Spec.scrAfter` of the five input arrays), what the result's buffer holds after a point of column block 7, and
  the invariant between points.
-/
import proofs.«400463_j51427938402771_2_alg».proof.Proof.Gen.KernelIdeal.Launch
import proofs.«400463_j51427938402771_2_alg».proof.Proof.Gen.KernelIdeal.Skeleton
import proofs.«400463_j51427938402771_2_alg».proof.Proof.Gen.KernelIdeal.Points
import proofs.«400463_j51427938402771_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The shares of the input arrays -/

/-- The two windows on the normalised array hold half of it each; every other input array is held whole. -/
def q1 : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input arrays at their literal types. -/
abbrev aN (c : Dev nD) : Vec F S8192x1024 .bf16 := V c main_v3
abbrev aL4 (c : Dev nD) : Vec F S8192x1 .i32 := V c main_v4
abbrev aL5 (c : Dev nD) : Vec F S1x8192 .i32 := V c main_v5
abbrev aC6 (c : Dev nD) : Vec F S8192x1 .i32 := V c main_v6
abbrev aC7 (c : Dev nD) : Vec F S1x8192 .i32 := V c main_v7

/-- The accumulators after point `n`. -/
abbrev scr (c : Dev nD) (n : ℕ) : Spec.Scr F := Spec.scrAfter (aN V c) (aL4 V c) (aL5 V c) (aC6 V c) (aC7 V c) n

/-- The result's staging buffer after the body at a point of column block 7: the contraction of the one-hot of the
    row block's cluster ids with the accumulators after that point. -/
def outAt (c : Dev nD) (n : ℕ) : Vec F S1x4x16 .f32 :=
  k1_pay2 (Spec.colBlk (aC6 V c) (Spec.rowOf n)) (scr V c n).posSum (scr V c n).posCnt (scr V c n).negSum (scr V c n).negCnt

/-! ## The invariant between points -/

/-- The four scratch operands as memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1 .f32 := Memref.whole cc1_scratch2
abbrev scM3 : Memref sig .tc .vmem S1024x1 .f32 := Memref.whole cc1_scratch3

/-- The scoped buffers of the core that are neither a staging buffer of this call nor its scratch: the other
    call's four staging buffers, each whole at some contents. -/
def otherRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The four accumulators at any contents. -/
def scrAny (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ (∃ d, owns (c : Thread nD τ) scM3 fullShare d))

/-- The four accumulators at the columns `p`. -/
def scrAtP (c : Dev nD) (p : Spec.Scr F) : sProp 𝕄 :=
  iprop(owns (c : Thread nD τ) scM0 fullShare p.posSum ∗ owns (c : Thread nD τ) scM1 fullShare p.posCnt
    ∗ owns (c : Thread nD τ) scM2 fullShare p.negSum ∗ owns (c : Thread nD τ) scM3 fullShare p.negCnt)

/-- The invariant before point `n`: the other call's staging buffers and the generator register untouched; the
    accumulators at anything before the first point, afterwards at what the point before left. -/
def PhiS (c : Dev nD) : ℕ → sProp 𝕄
  | 0 => iprop(otherRest c ∗ (∃ r, prngReg c r) ∗ scrAny c)
  | n + 1 => iprop(otherRest c ∗ (∃ r, prngReg c r) ∗ scrAtP c (scr V c n))

/-! ## The pipeline's proof data -/

/-- The proof data of the call on core `c`: the arrays as the call finds them; after the body at point `t` each
    input's buffer at its block, the result's at `outAt` (consulted at column block 7 only); the invariant `PhiS`;
    nothing owed; the normalised array's two windows at half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t.val
  Φ t := PhiS V c t.val
  q := q1
  owed _ := 0

/-- The proof data's arrays are the entry contents. -/
theorem A1 (c : Dev nD) (w : Fin 7) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t.val := by dsimp only [dat1]

/-- The invariant at a point's start and end, restated at the point's number. -/
theorem Phi1_castSucc (c : Dev nD) (t : Fin cfg1.N) : (dat1 V c).Φ t.castSucc = PhiS V c t.val := by
  dsimp only [dat1]; simp only [Fin.coe_castSucc]
theorem Phi1_succ (c : Dev nD) (t : Fin cfg1.N) : (dat1 V c).Φ t.succ = PhiS V c (t.val + 1) := by
  dsimp only [dat1]; simp only [Fin.val_succ]

end Cert.KernelIdeal.R1

end
-- ==== Proof.Reg1Arr.lean ====
/-
  The arrays after the pairwise kernel of the program (the second of its two pipelined calls), at the contents
  `V` the TensorCore's buffers hold when the call is entered.

  The call walks the 8 × 8 grid of (row block i, column block j), point t = 8 i + j. Its six input windows are
  never written back, so their arrays stay as the call found them. The result's window is on slab `t / 8` of the
  8 × 4 × 16 result array and is written back exactly at the points of column block 7, where the staging buffer
  holds the contraction of the one-hot of row block `t / 8`'s cluster ids with the four accumulators after point
  `t = 8 (t / 8) + 7`: slab `t / 8` of `Spec.statsArr`. The eight written slabs tile the result array, which
  therefore ends holding `Spec.statsArr` of the five input arrays.
-/
import proofs.«400463_j51427938402771_2_alg».proof.Proof.Reg1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## The arrays after the call -/

/-- The input arrays are never written. -/
theorem arr1_in (c : Dev nD) (w : Fin 7) (hw : w ≠ 6) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, h => exact absurd rfl h
  exact ((dat1 V c).arrAt_in w hin cfg1.N).trans (A1 V c w)

/-- The printed index map of the result's window, decided over the grid: at point `t` it is on slab `t / 8`. -/
theorem idx_facts6 : ∀ t : Fin cfg1.N, win1_6.index t (0 : Fin 3) = t.val / 8 ∧ win1_6.index t (1 : Fin 3) = 0
    ∧ win1_6.index t (2 : Fin 3) = 0 :=
  (by decide +kernel : ∀ t : Fin grid1.N, _)

/-- At the last column block of row block `i` the result's staging buffer holds slab `i` of the statistics. -/
theorem outAt_eq (c : Dev nD) (n : ℕ) (i : Fin 8) (j j' : S1x4x16.Idx) (hi : Spec.rowOf n = i) (hn : n = i.val * 8 + 7) (hj : j = j') :
    outAt V c n j = Spec.statsBlk (V c main_v3) (V c main_v4) (V c main_v5) (V c main_v6) (V c main_v7) i j' := by
  subst hi hj
  unfold outAt Spec.statsBlk
  rw [← hn]

/-- What a point of column block 7 writes back is its block of `Spec.statsArr` of the input arrays. -/
theorem flushed6_eq (c : Dev nD) (t : Fin cfg1.N) (hf : (cfg1.win 6).flush t = true) :
    (dat1 V c).flushed 6 t = ((cfg1.win 6).blk t).view.read (Elt F)
      (Spec.statsArr (V c main_v3) (V c main_v4) (V c main_v5) (V c main_v6) (V c main_v7)) := by
  show (cfg1.win 6).cut (grid1.coords t) ((dat1 V c).after 6 t) = _
  rw [after1_6]
  have h7 : t.val % 8 = 7 := (flush1_6 t).mp hf
  have ht : t.val < 64 := lt_of_lt_of_eq t.isLt N_1
  obtain ⟨e0, e1, e2⟩ := idx_facts6 t
  funext j
  have hj0 : (j 0).val < 1 := (j 0).isLt
  show outAt V c t.val j = Spec.statsArr (V c main_v3) (V c main_v4) (V c main_v5) (V c main_v6) (V c main_v7) (((cfg1.win 6).blk t).view.emb j)
  unfold Spec.statsArr
  refine outAt_eq V c _ _ _ _ ?_ ?_ ?_
  · apply Fin.ext
    show (t.val / 8) % 8 = win1_6.index t (0 : Fin 3) * 1 + 1 * (j 0).val
    omega
  · show t.val = (win1_6.index t (0 : Fin 3) * 1 + 1 * (j 0).val) * 8 + 7
    omega
  · funext a; apply Fin.ext
    match a with
    | ⟨0, _⟩ => show (j 0).val = 0; omega
    | ⟨1, _⟩ => show (j 1).val = win1_6.index t (1 : Fin 3) * 4 + 1 * (j 1).val; omega
    | ⟨2, _⟩ => show (j 2).val = win1_6.index t (2 : Fin 3) * 16 + 1 * (j 2).val; omega

/-- An index of the result array is in point `t`'s block iff each coordinate is in the block's range on its axis. -/
theorem mem_blk6 (t : Fin cfg1.N) (i : S8x4x16.Idx) :
    i ∈ ((cfg1.win 6).blk t).view.set ↔ ∀ a : Fin 3, win1_6.index t a * S1x4x16.size a ≤ (i a).val ∧ (i a).val < win1_6.index t a * S1x4x16.size a + S1x4x16.size a := by
  show i ∈ ((View.whole main_v8).slice (win1_6.rect t)).set ↔ _
  rw [View.set_slice_whole, Rect.mem_set_unit]
  exact Iff.rfl

/-- Slab `i` of the result array is the block written back at the last column block of row block `i`. -/
theorem cover6 (i : S8x4x16.Idx) : ∃ t : Fin cfg1.N, (cfg1.win 6).flush t = true ∧ i ∈ ((cfg1.win 6).blk t).view.set := by
  have hi0 : (i 0).val < 8 := (i 0).isLt
  have hi1 : (i 1).val < 4 := (i 1).isLt
  have hi2 : (i 2).val < 16 := (i 2).isLt
  have hlt : (i 0).val * 8 + 7 < cfg1.N := by rw [show cfg1.N = 64 from N_1]; omega
  refine ⟨⟨(i 0).val * 8 + 7, hlt⟩, (flush1_6 _).mpr (by show ((i 0).val * 8 + 7) % 8 = 7; omega), ?_⟩
  rw [mem_blk6]
  obtain ⟨e0, e1, e2⟩ := idx_facts6 ⟨(i 0).val * 8 + 7, hlt⟩
  intro a
  match a with
  | ⟨0, _⟩ =>
    show win1_6.index _ (0 : Fin 3) * 1 ≤ (i 0).val ∧ (i 0).val < win1_6.index _ (0 : Fin 3) * 1 + 1
    rw [e0]; show ((i 0).val * 8 + 7) / 8 * 1 ≤ (i 0).val ∧ (i 0).val < ((i 0).val * 8 + 7) / 8 * 1 + 1
    omega
  | ⟨1, _⟩ =>
    show win1_6.index _ (1 : Fin 3) * 4 ≤ (i 1).val ∧ (i 1).val < win1_6.index _ (1 : Fin 3) * 4 + 4
    rw [e1]; omega
  | ⟨2, _⟩ =>
    show win1_6.index _ (2 : Fin 3) * 16 ≤ (i 2).val ∧ (i 2).val < win1_6.index _ (2 : Fin 3) * 16 + 16
    rw [e2]; omega

/-- The eight written slabs tile the result array: it ends holding the statistics of the five input arrays. -/
theorem arr1_out (c : Dev nD) : (dat1 V c).arrAt 6 cfg1.N = Spec.statsArr (V c main_v3) (V c main_v4) (V c main_v5) (V c main_v6) (V c main_v7) :=
  (dat1 V c).arrAt_eq_of_cover 6 (Spec.statsArr (V c main_v3) (V c main_v4) (V c main_v5) (V c main_v6) (V c main_v7))
    (fun t hf => flushed6_eq V c t hf) cover6

end Cert.KernelIdeal.R1

end
-- ==== Proof.Reg1Cond.lean ====
/-
  The pairwise kernel's two branch conditions in closed form over the 64 grid points, and where its windows are
  idle.

  Point t = 8 i + j is (row block i, column block j). The first conditional (the reset of the accumulators) is
  taken exactly at column block 0, the second (the contraction into the result's slab) exactly at column block 7.
  The six input windows are live at every point; the result's window is idle, and not written back, at every point
  that is not of column block 7, and live at the points of column block 7. Hence what the body leaves in each
  window's current staging buffer: an input's at its block; the result's as it was found off column block 7, and at
  the contraction at column block 7.
-/
import proofs.«400463_j51427938402771_2_alg».proof.Proof.Reg1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The body's branch conditions -/

/-- The first conditional's condition (column block 0), from the grid coordinates. -/
abbrev cond1_0 (i : grid1.Coords) : Prop := (Scalar.cmpi .ne (Scalar.extui (Scalar.cmpi .eq (BitVec.ofNat 32 (i 1).val) 0#32)) 0#32) = 1#1
/-- It holds at the points of column block 0 only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (column block 7), from the grid coordinates. -/
abbrev cond1_1 (i : grid1.Coords) : Prop := k1_cond2 i = 1#1
/-- It holds at the points of column block 7 only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The six input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off column block 7 the result's window is idle: nothing is stored into it. -/
theorem idleAt1_6 : ∀ t : Fin cfg1.N, ¬cond1_1 (grid1.coords t) → cfg1.idle 6 (grid1.coords t) = true := by decide +kernel
/-- At column block 7 the result's window is live: the slab is stored into it. -/
theorem liveAt1_6 : ∀ t : Fin cfg1.N, cond1_1 (grid1.coords t) → cfg1.idle 6 (grid1.coords t) = false := by decide +kernel
/-- Off column block 7 the result's block is not written back. -/
theorem noFlush1_6 : ∀ t : Fin cfg1.N, ¬cond1_1 (grid1.coords t) → (cfg1.win 6).flush t = false := by decide +kernel

/-! ## What the body leaves in each window's current staging buffer -/

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer is left at what the body found in it. -/
theorem leaves1_0 (c : Dev nD) (t : Fin cfg1.N) :
    (dat1 V c).leavesExact 0 t = owns (c : Thread nD τ) (st1_0 t) fullShare ((dat1 V c).after 0 t) := by
  unfold Dat.leavesExact; rw [liveAt1_0 t]
theorem leaves1_1 (c : Dev nD) (t : Fin cfg1.N) :
    (dat1 V c).leavesExact 1 t = owns (c : Thread nD τ) (st1_1 t) fullShare ((dat1 V c).after 1 t) := by
  unfold Dat.leavesExact; rw [liveAt1_1 t]
theorem leaves1_2 (c : Dev nD) (t : Fin cfg1.N) :
    (dat1 V c).leavesExact 2 t = owns (c : Thread nD τ) (st1_2 t) fullShare ((dat1 V c).after 2 t) := by
  unfold Dat.leavesExact; rw [liveAt1_2 t]
theorem leaves1_3 (c : Dev nD) (t : Fin cfg1.N) :
    (dat1 V c).leavesExact 3 t = owns (c : Thread nD τ) (st1_3 t) fullShare ((dat1 V c).after 3 t) := by
  unfold Dat.leavesExact; rw [liveAt1_3 t]
theorem leaves1_4 (c : Dev nD) (t : Fin cfg1.N) :
    (dat1 V c).leavesExact 4 t = owns (c : Thread nD τ) (st1_4 t) fullShare ((dat1 V c).after 4 t) := by
  unfold Dat.leavesExact; rw [liveAt1_4 t]
theorem leaves1_5 (c : Dev nD) (t : Fin cfg1.N) :
    (dat1 V c).leavesExact 5 t = owns (c : Thread nD τ) (st1_5 t) fullShare ((dat1 V c).after 5 t) := by
  unfold Dat.leavesExact; rw [liveAt1_5 t]
/-- Off column block 7 the result's buffer is left as it was found. -/
theorem leaves1_6_idle (c : Dev nD) (t : Fin cfg1.N) (h : ¬cond1_1 (grid1.coords t)) :
    (dat1 V c).leavesExact 6 t = iprop(∃ d, owns (c : Thread nD τ) (st1_6 t) fullShare ((dat1 V c).before 6 t d)) :=
  (dat1 V c).leavesExact_idle 6 t (idleAt1_6 t h) (noFlush1_6 t h)
/-- At column block 7 the result's buffer is left at the contraction. -/
theorem leaves1_6_live (c : Dev nD) (t : Fin cfg1.N) (h : cond1_1 (grid1.coords t)) :
    (dat1 V c).leavesExact 6 t = owns (c : Thread nD τ) (st1_6 t) fullShare ((dat1 V c).after 6 t) := by
  unfold Dat.leavesExact; rw [liveAt1_6 t h]

end Cert.KernelIdeal.R1

end
-- ==== Proof.Reg1Kern.lean ====
/-
  The pairwise kernel's body as a program on its memrefs, in its three control cases.

  The body first (column block 0 only) stores zero columns into the four accumulators; then loads the two row
  blocks, the labels' and the cluster ids' row and column copies, forms the similarity tile and the two masks, and
  stores into each accumulator its old contents plus the tile's row sums; last (column block 7 only) it loads the
  row block's cluster ids and the four accumulators and stores the contraction of the ids' one-hot with the
  accumulators into the result's buffer. Every store is through the whole buffer, so each buffer ends holding the
  payload of its last store, in which every load reads the payload of the store before it.
-/
import proofs.«400463_j51427938402771_2_alg».proof.Proof.Gen.KernelIdeal.Launch
import proofs.«400463_j51427938402771_2_alg».proof.Proof.Gen.KernelIdeal.Skeleton
import proofs.«400463_j51427938402771_2_alg».proof.Proof.Gen.KernelIdeal.Points
import proofs.«400463_j51427938402771_2_alg».proof.Proof.Reg1Cond
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A list of stores whose last one is through the whole buffer covers the buffer. -/
theorem cover_head {S : Shape} {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set := by
  subst h
  exact ⟨_, List.mem_cons.mpr (Or.inl rfl), by show y ∈ (Rect.whole S).set; rw [Rect.set_whole]; exact Finset.mem_univ y⟩

/-! ## The body's triple, per control case -/

set_option maxHeartbeats 4000000 in
/-- Column block 0 (and not 7): the accumulators, at anything, are reset and take the tile's row sums; the result's
    buffer is not touched. -/
theorem kernelA (c : Dev nD) (E : Set ℕ) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x4x16 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)
    (hc0 : cond1_0 i) (hc1 : ¬cond1_1 i) (x0 x1 : Vec F S1024x1024 .bf16) (x2 : Vec F S1024x1 .i32) (x3 : Vec F S1x1024 .i32) (x4 : Vec F S1024x1 .i32) (x5 : Vec F S1x1024 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg9 fullShare (Spec.scrStep i x0 x1 x2 x3 x4 x5 Spec.scrZero).posSum
            ∗ owns (c : Thread nD τ) arg10 fullShare (Spec.scrStep i x0 x1 x2 x3 x4 x5 Spec.scrZero).posCnt
            ∗ owns (c : Thread nD τ) arg11 fullShare (Spec.scrStep i x0 x1 x2 x3 x4 x5 Spec.scrZero).negSum
            ∗ owns (c : Thread nD τ) arg12 fullShare (Spec.scrStep i x0 x1 x2 x3 x4 x5 Spec.scrZero).negCnt) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, S0⟩, ⟨%d1, %g1, -, S1⟩, ⟨%d2, %g2, -, S2⟩, ⟨%d3, %g3, -, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [S0]
  · iexists _; isplitr
    swap; · iexact S0
    ipureintro
    (try sl_unfold_words)
    rw [View.read_writes_eq_canon _ _ _ (cover_head (S := S1024x1) hz2 _ _ _), View.canon_cons_unit_zero (S := S1024x1) hz2]
    show _ = k1_pay13 (k1_pay7 x0 x1) (k1_pay10 i x2 x3 x4 x5) (k1_pay12 (F := F)) (k1_pay3 (F := F))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S1]
  · iexists _; isplitr
    swap; · iexact S1
    ipureintro
    (try sl_unfold_words)
    rw [View.read_writes_eq_canon _ _ _ (cover_head (S := S1024x1) hz2 _ _ _), View.canon_cons_unit_zero (S := S1024x1) hz2]
    show _ = k1_pay14 (k1_pay10 i x2 x3 x4 x5) (k1_pay4 (F := F))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S2]
  · iexists _; isplitr
    swap; · iexact S2
    ipureintro
    (try sl_unfold_words)
    rw [View.read_writes_eq_canon _ _ _ (cover_head (S := S1024x1) hz2 _ _ _), View.canon_cons_unit_zero (S := S1024x1) hz2]
    show _ = k1_pay15 (k1_pay7 x0 x1) (k1_pay11 x2 x3 x4 x5) (k1_pay5 (F := F))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  · iexists _; isplitr
    swap; · iexact S3
    ipureintro
    (try sl_unfold_words)
    rw [View.read_writes_eq_canon _ _ _ (cover_head (S := S1024x1) hz2 _ _ _), View.canon_cons_unit_zero (S := S1024x1) hz2]
    show _ = k1_pay1 (k1_pay6 (F := F)) (k1_pay16 (k1_pay11 x2 x3 x4 x5))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]

set_option maxHeartbeats 4000000 in
/-- Column blocks 1 to 6: the accumulators, at the columns `p`, take the tile's row sums; the result's buffer is not
    touched. -/
theorem kernelB (c : Dev nD) (E : Set ℕ) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x4x16 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)
    (hc0 : ¬cond1_0 i) (hc1 : ¬cond1_1 i) (x0 x1 : Vec F S1024x1024 .bf16) (x2 : Vec F S1024x1 .i32) (x3 : Vec F S1x1024 .i32) (x4 : Vec F S1024x1 .i32) (x5 : Vec F S1x1024 .i32) (p : Spec.Scr F) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg9 fullShare p.posSum ∗ owns (c : Thread nD τ) arg10 fullShare p.posCnt
        ∗ owns (c : Thread nD τ) arg11 fullShare p.negSum ∗ owns (c : Thread nD τ) arg12 fullShare p.negCnt
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg9 fullShare (Spec.scrStep i x0 x1 x2 x3 x4 x5 p).posSum
            ∗ owns (c : Thread nD τ) arg10 fullShare (Spec.scrStep i x0 x1 x2 x3 x4 x5 p).posCnt
            ∗ owns (c : Thread nD τ) arg11 fullShare (Spec.scrStep i x0 x1 x2 x3 x4 x5 p).negSum
            ∗ owns (c : Thread nD τ) arg12 fullShare (Spec.scrStep i x0 x1 x2 x3 x4 x5 p).negCnt) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hg0; obtain rfl := harg10.eq_unread hg1; obtain rfl := harg11.eq_unread hg2; obtain rfl := harg12.eq_unread hg3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [S0]
  · iexists _; isplitr
    swap; · iexact S0
    ipureintro
    (try sl_unfold_words)
    rw [View.read_writes_eq_canon _ _ _ (cover_head (S := S1024x1) hz2 _ _ _), View.canon_cons_unit_zero (S := S1024x1) hz2]
    show _ = k1_pay13 (k1_pay7 x0 x1) (k1_pay10 i x2 x3 x4 x5) (k1_pay12 (F := F)) p.posSum
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S1]
  · iexists _; isplitr
    swap; · iexact S1
    ipureintro
    (try sl_unfold_words)
    rw [View.read_writes_eq_canon _ _ _ (cover_head (S := S1024x1) hz2 _ _ _), View.canon_cons_unit_zero (S := S1024x1) hz2]
    show _ = k1_pay14 (k1_pay10 i x2 x3 x4 x5) p.posCnt
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S2]
  · iexists _; isplitr
    swap; · iexact S2
    ipureintro
    (try sl_unfold_words)
    rw [View.read_writes_eq_canon _ _ _ (cover_head (S := S1024x1) hz2 _ _ _), View.canon_cons_unit_zero (S := S1024x1) hz2]
    show _ = k1_pay15 (k1_pay7 x0 x1) (k1_pay11 x2 x3 x4 x5) p.negSum
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  · iexists _; isplitr
    swap; · iexact S3
    ipureintro
    (try sl_unfold_words)
    rw [View.read_writes_eq_canon _ _ _ (cover_head (S := S1024x1) hz2 _ _ _), View.canon_cons_unit_zero (S := S1024x1) hz2]
    show _ = k1_pay1 p.negCnt (k1_pay16 (k1_pay11 x2 x3 x4 x5))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]

set_option maxHeartbeats 4000000 in
/-- Column block 7 (and not 0): the accumulators, at the columns `p`, take the tile's row sums, and the result's buffer,
    at anything, takes the contraction of the one-hot of the row block's cluster ids with the new accumulators. -/
theorem kernelC (c : Dev nD) (E : Set ℕ) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x4x16 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)
    (hc0 : ¬cond1_0 i) (hc1 : cond1_1 i) (x0 x1 : Vec F S1024x1024 .bf16) (x2 : Vec F S1024x1 .i32) (x3 : Vec F S1x1024 .i32) (x4 : Vec F S1024x1 .i32) (x5 : Vec F S1x1024 .i32) (p : Spec.Scr F) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ owns (c : Thread nD τ) arg9 fullShare p.posSum ∗ owns (c : Thread nD τ) arg10 fullShare p.posCnt
        ∗ owns (c : Thread nD τ) arg11 fullShare p.negSum ∗ owns (c : Thread nD τ) arg12 fullShare p.negCnt
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay2 x4 (Spec.scrStep i x0 x1 x2 x3 x4 x5 p).posSum (Spec.scrStep i x0 x1 x2 x3 x4 x5 p).posCnt
                (Spec.scrStep i x0 x1 x2 x3 x4 x5 p).negSum (Spec.scrStep i x0 x1 x2 x3 x4 x5 p).negCnt)
            ∗ owns (c : Thread nD τ) arg9 fullShare (Spec.scrStep i x0 x1 x2 x3 x4 x5 p).posSum
            ∗ owns (c : Thread nD τ) arg10 fullShare (Spec.scrStep i x0 x1 x2 x3 x4 x5 p).posCnt
            ∗ owns (c : Thread nD τ) arg11 fullShare (Spec.scrStep i x0 x1 x2 x3 x4 x5 p).negSum
            ∗ owns (c : Thread nD τ) arg12 fullShare (Spec.scrStep i x0 x1 x2 x3 x4 x5 p).negCnt) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hg0; obtain rfl := harg10.eq_unread hg1; obtain rfl := harg11.eq_unread hg2; obtain rfl := harg12.eq_unread hg3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    (try sl_unfold_words)
    rw [View.read_writes_eq_canon _ _ _ (cover_head (S := S1x4x16) hz3 _ _ _), View.canon_cons_unit_zero (S := S1x4x16) hz3]
    show _ = k1_pay2 x4 (k1_pay13 (k1_pay7 x0 x1) (k1_pay10 i x2 x3 x4 x5) (k1_pay12 (F := F)) p.posSum) (k1_pay14 (k1_pay10 i x2 x3 x4 x5) p.posCnt)
      (k1_pay15 (k1_pay7 x0 x1) (k1_pay11 x2 x3 x4 x5) p.negSum) (k1_pay1 p.negCnt (k1_pay16 (k1_pay11 x2 x3 x4 x5)))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S0]
  · iexists _; isplitr
    swap; · iexact S0
    ipureintro
    (try sl_unfold_words)
    rw [View.read_writes_eq_canon _ _ _ (cover_head (S := S1024x1) hz2 _ _ _), View.canon_cons_unit_zero (S := S1024x1) hz2]
    show _ = k1_pay13 (k1_pay7 x0 x1) (k1_pay10 i x2 x3 x4 x5) (k1_pay12 (F := F)) p.posSum
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S1]
  · iexists _; isplitr
    swap; · iexact S1
    ipureintro
    (try sl_unfold_words)
    rw [View.read_writes_eq_canon _ _ _ (cover_head (S := S1024x1) hz2 _ _ _), View.canon_cons_unit_zero (S := S1024x1) hz2]
    show _ = k1_pay14 (k1_pay10 i x2 x3 x4 x5) p.posCnt
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  isplitl [S2]
  · iexists _; isplitr
    swap; · iexact S2
    ipureintro
    (try sl_unfold_words)
    rw [View.read_writes_eq_canon _ _ _ (cover_head (S := S1024x1) hz2 _ _ _), View.canon_cons_unit_zero (S := S1024x1) hz2]
    show _ = k1_pay15 (k1_pay7 x0 x1) (k1_pay11 x2 x3 x4 x5) p.negSum
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]
  · iexists _; isplitr
    swap; · iexact S3
    ipureintro
    (try sl_unfold_words)
    rw [View.read_writes_eq_canon _ _ _ (cover_head (S := S1024x1) hz2 _ _ _), View.canon_cons_unit_zero (S := S1024x1) hz2]
    show _ = k1_pay1 p.negCnt (k1_pay16 (k1_pay11 x2 x3 x4 x5))
    simp only [View.readAt_eq_ld, Memref.IsWhole.read_unread, View.ld_unit_zero (S := S1024x1024) hz2, View.ld_unit_zero (S := S1024x1) hz2, View.ld_unit_zero (S := S1x1024) hz2, View.readCov_unit_zero (S := S1024x1) _ hz2]

end Cert.KernelIdeal.R1

end
-- ==== Proof.Reg1Before.lean ====
/-
  The pairwise kernel of the program (the second of its two pipelined calls): what the body finds in the input
  windows' staging buffers at a point, as blocks of the input arrays, and the accumulators' recursion there.

  * Each of the six input windows is uncut and never idle, and the body leaves its buffer as found; so at every
    point the window's current buffer holds the window's block there — fetched at that point, or (the three
    row-block windows, fetched only at column block 0) kept from the last fetch, the block index not having moved.
  * At point t = 8 i + j the row-block windows are on block i = t / 8 of their arrays (rows [1024 i, 1024 i + 1024))
    and the column-block windows on block j = t % 8.
  * The accumulators after point t are the point's step on those six blocks, applied to the zero columns at column
    block 0 and to the accumulators after point t - 1 at every other column block.
-/
import proofs.«400463_j51427938402771_2_alg».proof.Proof.Reg1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A1]; try rfl) t d).trans
    (by unfold Dat.fetched Dat.blockOf iblk1; rw [A1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A1]; try rfl) t d).trans
    (by unfold Dat.fetched Dat.blockOf iblk1; rw [A1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A1]; try rfl) t d).trans
    (by unfold Dat.fetched Dat.blockOf iblk1; rw [A1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A1]; try rfl) t d).trans
    (by unfold Dat.fetched Dat.blockOf iblk1; rw [A1]; try rfl)

/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A1]; try rfl) t d).trans
    (by unfold Dat.fetched Dat.blockOf iblk1; rw [A1]; try rfl)

/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A1]; try rfl) t d).trans
    (by unfold Dat.fetched Dat.blockOf iblk1; rw [A1]; try rfl)

/-! ## The six blocks as blocks of the input arrays -/

/-- A point's number is below 64. -/
theorem tlt (t : Fin cfg1.N) : t.val < 64 := lt_of_lt_of_eq t.isLt (show cfg1.N = 64 from N_1)

/-- The printed index maps, decided over the grid: the row-block windows are on block `t / 8`, the column-block
    windows on block `t % 8`, each on block 0 of its other axis. -/
theorem idx1_0 : ∀ t : Fin cfg1.N, win1_0.index t (0 : Fin 2) = t.val / 8 ∧ win1_0.index t (1 : Fin 2) = 0 :=
  (by decide +kernel : ∀ t : Fin grid1.N, _)
theorem idx1_1 : ∀ t : Fin cfg1.N, win1_1.index t (0 : Fin 2) = t.val % 8 ∧ win1_1.index t (1 : Fin 2) = 0 :=
  (by decide +kernel : ∀ t : Fin grid1.N, _)
theorem idx1_2 : ∀ t : Fin cfg1.N, win1_2.index t (0 : Fin 2) = t.val / 8 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = t.val % 8 :=
  (by decide +kernel : ∀ t : Fin grid1.N, _)
theorem idx1_4 : ∀ t : Fin cfg1.N, win1_4.index t (0 : Fin 2) = t.val / 8 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = t.val % 8 :=
  (by decide +kernel : ∀ t : Fin grid1.N, _)

/-- Window 0's block at point `t` is row block `t / 8` of the normalised array. -/
theorem iblk1_0 (c : Dev nD) (t : Fin cfg1.N) : (iblk1 V c 0 t : Vec F S1024x1024 .bf16) = Spec.rowBlk (aN V c) (Spec.rowOf t.val) := by
  have hi := idx1_0 t
  have ht := tlt t
  funext j
  unfold iblk1 Spec.rowBlk
  rw [View.read_apply]
  show V c main_v3 _ = V c main_v3 _
  congr 1
  funext a
  apply Fin.ext
  match a with
  | ⟨0, _⟩ => show win1_0.index t 0 * 1024 + 1 * (j 0).val = (t.val / 8 % 8) * 1024 + (j 0).val; rw [hi.1]; omega
  | ⟨1, _⟩ => show win1_0.index t 1 * 1024 + 1 * (j 1).val = (j 1).val; rw [hi.2]; omega

/-- Window 1's block at point `t` is row block `t % 8` of the normalised array. -/
theorem iblk1_1 (c : Dev nD) (t : Fin cfg1.N) : (iblk1 V c 1 t : Vec F S1024x1024 .bf16) = Spec.rowBlk (aN V c) (Spec.colOf t.val) := by
  have hi := idx1_1 t
  have ht := tlt t
  funext j
  unfold iblk1 Spec.rowBlk
  rw [View.read_apply]
  show V c main_v3 _ = V c main_v3 _
  congr 1
  funext a
  apply Fin.ext
  match a with
  | ⟨0, _⟩ => show win1_1.index t 0 * 1024 + 1 * (j 0).val = (t.val % 8) * 1024 + (j 0).val; rw [hi.1]; omega
  | ⟨1, _⟩ => show win1_1.index t 1 * 1024 + 1 * (j 1).val = (j 1).val; rw [hi.2]; omega

/-- Window 2's block at point `t` is row block `t / 8` of the labels' column. -/
theorem iblk1_2 (c : Dev nD) (t : Fin cfg1.N) : (iblk1 V c 2 t : Vec F S1024x1 .i32) = Spec.colBlk (aL4 V c) (Spec.rowOf t.val) := by
  have hi := idx1_2 t
  have ht := tlt t
  funext j
  unfold iblk1 Spec.colBlk
  rw [View.read_apply]
  show V c main_v4 _ = V c main_v4 _
  congr 1
  funext a
  apply Fin.ext
  match a with
  | ⟨0, _⟩ => show win1_2.index t 0 * 1024 + 1 * (j 0).val = (t.val / 8 % 8) * 1024 + (j 0).val; rw [hi.1]; omega
  | ⟨1, _⟩ => show win1_2.index t 1 * 1 + 1 * (j 1).val = (j 1).val; rw [hi.2]; omega

/-- Window 3's block at point `t` is column block `t % 8` of the labels' row. -/
theorem iblk1_3 (c : Dev nD) (t : Fin cfg1.N) : (iblk1 V c 3 t : Vec F S1x1024 .i32) = Spec.lineBlk (aL5 V c) (Spec.colOf t.val) := by
  have hi := idx1_3 t
  have ht := tlt t
  funext j
  unfold iblk1 Spec.lineBlk
  rw [View.read_apply]
  show V c main_v5 _ = V c main_v5 _
  congr 1
  funext a
  apply Fin.ext
  match a with
  | ⟨0, _⟩ => show win1_3.index t 0 * 1 + 1 * (j 0).val = (j 0).val; rw [hi.1]; omega
  | ⟨1, _⟩ => show win1_3.index t 1 * 1024 + 1 * (j 1).val = (t.val % 8) * 1024 + (j 1).val; rw [hi.2]; omega

/-- Window 4's block at point `t` is row block `t / 8` of the cluster ids' column. -/
theorem iblk1_4 (c : Dev nD) (t : Fin cfg1.N) : (iblk1 V c 4 t : Vec F S1024x1 .i32) = Spec.colBlk (aC6 V c) (Spec.rowOf t.val) := by
  have hi := idx1_4 t
  have ht := tlt t
  funext j
  unfold iblk1 Spec.colBlk
  rw [View.read_apply]
  show V c main_v6 _ = V c main_v6 _
  congr 1
  funext a
  apply Fin.ext
  match a with
  | ⟨0, _⟩ => show win1_4.index t 0 * 1024 + 1 * (j 0).val = (t.val / 8 % 8) * 1024 + (j 0).val; rw [hi.1]; omega
  | ⟨1, _⟩ => show win1_4.index t 1 * 1 + 1 * (j 1).val = (j 1).val; rw [hi.2]; omega

/-- Window 5's block at point `t` is column block `t % 8` of the cluster ids' row. -/
theorem iblk1_5 (c : Dev nD) (t : Fin cfg1.N) : (iblk1 V c 5 t : Vec F S1x1024 .i32) = Spec.lineBlk (aC7 V c) (Spec.colOf t.val) := by
  have hi := idx1_5 t
  have ht := tlt t
  funext j
  unfold iblk1 Spec.lineBlk
  rw [View.read_apply]
  show V c main_v7 _ = V c main_v7 _
  congr 1
  funext a
  apply Fin.ext
  match a with
  | ⟨0, _⟩ => show win1_5.index t 0 * 1 + 1 * (j 0).val = (j 0).val; rw [hi.1]; omega
  | ⟨1, _⟩ => show win1_5.index t 1 * 1024 + 1 * (j 1).val = (t.val % 8) * 1024 + (j 1).val; rw [hi.2]; omega

/-! ## The accumulators' recursion at a point -/

/-- The accumulators after point `n` are the point's step on the zero columns at column block 0 and on the
    accumulators after the point before elsewhere. -/
theorem scrAfter_eq (n : Vec F S8192x1024 .bf16) (l4 : Vec F S8192x1 .i32) (l5 : Vec F S1x8192 .i32)
    (c6 : Vec F S8192x1 .i32) (c7 : Vec F S1x8192 .i32) (k : ℕ) :
    Spec.scrAfter n l4 l5 c6 c7 k
      = Spec.stepAt n l4 l5 c6 c7 k (if k % 8 = 0 then Spec.scrZero else Spec.scrAfter n l4 l5 c6 c7 (k - 1)) := by
  cases k with
  | zero => rfl
  | succ k => rfl

/-- A point of the grid is the point its number names. -/
theorem pt_val (t : Fin cfg1.N) : Spec.pt t.val = t := Fin.ext (Nat.mod_eq_of_lt (tlt t))

/-- At column block 0 the accumulators are the point's step on the zero columns. -/
theorem scr_reset (c : Dev nD) (t : Fin cfg1.N) (h : t.val % 8 = 0) :
    scr V c t.val = Spec.scrStep (grid1.coords t) (Spec.rowBlk (aN V c) (Spec.rowOf t.val)) (Spec.rowBlk (aN V c) (Spec.colOf t.val))
      (Spec.colBlk (aL4 V c) (Spec.rowOf t.val)) (Spec.lineBlk (aL5 V c) (Spec.colOf t.val))
      (Spec.colBlk (aC6 V c) (Spec.rowOf t.val)) (Spec.lineBlk (aC7 V c) (Spec.colOf t.val)) Spec.scrZero := by
  show Spec.scrAfter (aN V c) (aL4 V c) (aL5 V c) (aC6 V c) (aC7 V c) t.val = _
  rw [scrAfter_eq, if_pos h]
  unfold Spec.stepAt
  rw [pt_val]

/-- At every other column block they are the point's step on the accumulators after the point before. -/
theorem scr_step (c : Dev nD) (t : Fin cfg1.N) (h : t.val % 8 ≠ 0) :
    scr V c t.val = Spec.scrStep (grid1.coords t) (Spec.rowBlk (aN V c) (Spec.rowOf t.val)) (Spec.rowBlk (aN V c) (Spec.colOf t.val))
      (Spec.colBlk (aL4 V c) (Spec.rowOf t.val)) (Spec.lineBlk (aL5 V c) (Spec.colOf t.val))
      (Spec.colBlk (aC6 V c) (Spec.rowOf t.val)) (Spec.lineBlk (aC7 V c) (Spec.colOf t.val)) (scr V c (t.val - 1)) := by
  show Spec.scrAfter (aN V c) (aL4 V c) (aL5 V c) (aC6 V c) (aC7 V c) t.val = _
  rw [scrAfter_eq, if_neg h]
  unfold Spec.stepAt
  rw [pt_val]

end Cert.KernelIdeal.R1

end
-- ==== Proof.Reg1.lean ====
/-
  The pairwise kernel of the program (the second of its two pipelined calls), at the contents `V` the
  TensorCore's buffers hold when the call is entered.

  The call walks the 8 × 8 grid of (row block i, column block j) of the 8192 normalised rows, point t = 8 i + j.
  At a point it is handed row block i and row block j of the normalised array (two windows on ONE array, each
  holding half of it), the row and column copies of the labels and of the cluster ids, and it carries four
  per-row accumulator columns (1024 × 1) in scratch buffers across the points:

  * at column block 0 the accumulators are reset to zero;
  * at every point each accumulator takes its tile's row sums (the masked (1 - sim)², the positive count, the
    masked max(sim - 0.3, 0)², the negative count);
  * at column block 7 the one-hot of the row block's cluster ids is contracted with the four accumulators into
    the 4 × 16 slab i of the result, which is written back at that point only; at every other point the result's
    staging buffer is left as it was found.

  So after point t the accumulators hold `Spec.scrAfter … t`, and the result array ends holding
  `Spec.statsArr` of the five input arrays, which are never written.
-/
import proofs.«400463_j51427938402771_2_alg».proof.Proof.Gen.KernelIdeal.Launch
import proofs.«400463_j51427938402771_2_alg».proof.Proof.Gen.KernelIdeal.Skeleton
import proofs.«400463_j51427938402771_2_alg».proof.Proof.Gen.KernelIdeal.Points
import proofs.«400463_j51427938402771_2_alg».proof.Proof.Reg1Kern
import proofs.«400463_j51427938402771_2_alg».proof.Proof.Reg1Before
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant at the call's entry and exit -/

theorem N1_last : (Fin.last cfg1.N).val = 63 + 1 := by rw [Fin.val_last]; exact N_1

theorem Phi1_zero (c : Dev nD) : (dat1 V c).Φ 0 = iprop(otherRest c ∗ (∃ r, prngReg c r) ∗ scrAny c) := rfl
theorem Phi1_last (c : Dev nD) : (dat1 V c).Φ (Fin.last cfg1.N) = iprop(otherRest c ∗ (∃ r, prngReg c r) ∗ scrAtP c (scr V c 63)) := by
  dsimp only [dat1]; rw [N1_last]; rfl

/-- What the launch hands the call is the invariant before the first point. -/
theorem hin1 (c : Dev nD) : iprop((∃ r, prngReg c r) ∗ Pipeline.scopedRest (Ix := Unit) (Name := ℕ) (U := UR sig nD τ) (Lvl := ℕ) (Val := Elt F) spec1 c) ⊢ ((dat1 V c).Φ 0 : sProp 𝕄) := by
  rw [Phi1_zero, scopedRest1_eq]; unfold otherRest scrAny; simp only [owns_whole]
  iintro ⟨Hg, A0, A1, B0, B1, S0, S1, S2, S3⟩
  isplitl [A0 A1 B0 B1]
  · isplitl [A0]; · iexact A0
    isplitl [A1]; · iexact A1
    isplitl [B0]; · iexact B0
    iexact B1
  isplitl [Hg]; · iexact Hg
  isplitl [S0]; · iexact S0
  isplitl [S1]; · iexact S1
  isplitl [S2]; · iexact S2
  iexact S3

/-- After the last point the invariant gives back what the launch handed: the accumulators' contents are forgotten. -/
theorem hout1 (c : Dev nD) : ((dat1 V c).Φ (Fin.last cfg1.N) : sProp 𝕄) ⊢ iprop((∃ r, prngReg c r) ∗ Pipeline.scopedRest (Ix := Unit) (Name := ℕ) (U := UR sig nD τ) (Lvl := ℕ) (Val := Elt F) spec1 c) := by
  rw [Phi1_last, scopedRest1_eq]; unfold otherRest scrAtP; simp only [owns_whole]
  iintro ⟨⟨A0, A1, B0, B1⟩, Hg, S0, S1, S2, S3⟩
  isplitl [Hg]; · iexact Hg
  isplitl [A0]; · iexact A0
  isplitl [A1]; · iexact A1
  isplitl [B0]; · iexact B0
  isplitl [B1]; · iexact B1
  isplitl [S0]; · iexists _; iexact S0
  isplitl [S1]; · iexists _; iexact S1
  isplitl [S2]; · iexists _; iexact S2
  iexists _; iexact S3

/-! ## The invariant, point by point -/

theorem PhiS_succ (c : Dev nD) (n : ℕ) : PhiS V c (n + 1) = iprop(otherRest c ∗ (∃ r, prngReg c r) ∗ scrAtP c (scr V c n)) := rfl

theorem PhiS_pos (c : Dev nD) (n : ℕ) (h : n ≠ 0) : PhiS V c n = iprop(otherRest c ∗ (∃ r, prngReg c r) ∗ scrAtP c (scr V c (n - 1))) := by
  cases n with
  | zero => exact absurd rfl h
  | succ n => rfl

/-- Before any point the accumulators hold something. -/
theorem PhiS_any (c : Dev nD) (n : ℕ) : PhiS V c n ⊢ (iprop(otherRest c ∗ (∃ r, prngReg c r) ∗ scrAny c) : sProp 𝕄) := by
  cases n with
  | zero => exact .rfl
  | succ n =>
    rw [PhiS_succ]; unfold scrAtP scrAny
    iintro ⟨Hr, Hg, S0, S1, S2, S3⟩
    isplitl [Hr]; · iexact Hr
    isplitl [Hg]; · iexact Hg
    isplitl [S0]; · iexists _; iexact S0
    isplitl [S1]; · iexists _; iexact S1
    isplitl [S2]; · iexists _; iexact S2
    iexists _; iexact S3

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4000000 in
/-- The body at any point: the inputs' buffers hold their blocks; the column block says which control case the
    point is in; the invariant hands the body the accumulators at what the point before left (at anything where
    they are reset) and takes them back at this point's; at column block 7 the result's buffer takes the slab,
    elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi1_castSucc, Phi1_succ, leaves1_0, leaves1_1, leaves1_2, leaves1_3, leaves1_4, leaves1_5,
    after1_0, after1_1, after1_2, after1_3, after1_4, after1_5, PhiS_succ]
  rw [iblk1_0 V c t, iblk1_1 V c t, iblk1_2 V c t, iblk1_3 V c t, iblk1_4 V c t, iblk1_5 V c t]
  have ht := tlt t
  by_cases h0 : t.val % 8 = 0
  · have hc1 : ¬cond1_1 (grid1.coords t) := fun h => by have := (hcond1_1 t).mp h; omega
    rw [leaves1_6_idle V c t hc1, scr_reset V c t h0]
    iintro ⟨HΦ, Ho, ⟨%d0, H0⟩, ⟨%d1, H1⟩, ⟨%d2, H2⟩, ⟨%d3, H3⟩, ⟨%d4, H4⟩, ⟨%d5, H5⟩, H6⟩
    ihave HΦ' := (PhiS_any V c t.val) $$ HΦ
    unfold scrAny scrAtP
    icases HΦ' with ⟨Hr, Hg, S0, S1, S2, S3⟩
    iapply (kernelA c Set.univ (grid1.coords t) _ _ _ _ _ _ _ _ _ _ _ _ _ _ _ _ _ _ _ _ _ _ ((hcond1_0 t).mpr h0) hc1 _ _ _ _ _ _ _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iintro ⟨H0, H1, H2, H3, H4, H5, S0, S1, S2, S3⟩
    isplitl [Hr Hg S0 S1 S2 S3]
    · isplitl [Hr]; · iexact Hr
      isplitl [Hg]; · iexact Hg
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h7 : t.val % 8 = 7
    · have hc0 : ¬cond1_0 (grid1.coords t) := fun h => h0 ((hcond1_0 t).mp h)
      have hc1 : cond1_1 (grid1.coords t) := (hcond1_1 t).mpr h7
      rw [leaves1_6_live V c t hc1, after1_6, PhiS_pos V c t.val (by omega)]
      unfold outAt
      rw [scr_step V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      unfold scrAtP
      icases HΦ with ⟨Hr, Hg, S0, S1, S2, S3⟩
      iapply (kernelC c Set.univ (grid1.coords t) _ _ _ _ _ _ _ _ _ _ _ _ _ _ _ _ _ _ _ _ _ _ hc0 hc1 _ _ _ _ _ _ (scr V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [S0]; · iexact S0
      isplitl [S1]; · iexact S1
      isplitl [S2]; · iexact S2
      isplitl [S3]; · iexact S3
      iintro ⟨H0, H1, H2, H3, H4, H5, H6, S0, S1, S2, S3⟩
      isplitl [Hr Hg S0 S1 S2 S3]
      · isplitl [Hr]; · iexact Hr
        isplitl [Hg]; · iexact Hg
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond1_0 (grid1.coords t) := fun h => h0 ((hcond1_0 t).mp h)
      have hc1 : ¬cond1_1 (grid1.coords t) := fun h => h7 ((hcond1_1 t).mp h)
      rw [leaves1_6_idle V c t hc1, PhiS_pos V c t.val (by omega), scr_step V c t h0]
      iintro ⟨HΦ, Ho, ⟨%d0, H0⟩, ⟨%d1, H1⟩, ⟨%d2, H2⟩, ⟨%d3, H3⟩, ⟨%d4, H4⟩, ⟨%d5, H5⟩, H6⟩
      unfold scrAtP
      icases HΦ with ⟨Hr, Hg, S0, S1, S2, S3⟩
      iapply (kernelB c Set.univ (grid1.coords t) _ _ _ _ _ _ _ _ _ _ _ _ _ _ _ _ _ _ _ _ _ _ hc0 hc1 _ _ _ _ _ _ (scr V c (t.val - 1)) _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [Hr Hg S0 S1 S2 S3]
      · isplitl [Hr]; · iexact Hr
        isplitl [Hg]; · iexact Hg
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Launch.lean ====
/-
  The launch of the kernel program: its entry function as eleven pieces in order — a stretch of host operations,
  the normalising kernel, a stretch, the pairwise kernel, and seven more stretches — run from any memory with every
  counter at zero. Between two pieces a TensorCore holds every unscoped buffer whole at the contents the fold of
  Fold.lean names for that boundary. A stretch of host operations moves the contents to the stretch's result on them.
  A kernel region takes its windows' arrays out of the held buffers, runs its pipeline on them, and puts them back:
  the inputs unchanged, the result's buffer at the whole-array function the region computes.

  The pairwise kernel reads ONE array (the normalised rows) through two windows, a row block and a column block. The
  buffer behind it is held whole at the full share; at the region's entry that share is cut in two halves, one per
  window, and at the exit the halves are joined again: both windows only read, so both hold the same contents.

  At the end every unscoped buffer of every TensorCore holds what the fold says after the last stretch.
-/
import proofs.«400463_j51427938402771_2_alg».proof.Proof.Gen.KernelIdeal.Launch
import proofs.«400463_j51427938402771_2_alg».proof.Proof.Gen.KernelIdeal.Regions
import proofs.«400463_j51427938402771_2_alg».proof.Proof.Fold
import proofs.«400463_j51427938402771_2_alg».proof.Proof.Reg0
import proofs.«400463_j51427938402771_2_alg».proof.Proof.Reg1Dat
import proofs.«400463_j51427938402771_2_alg».proof.Proof.Reg1Arr
import proofs.«400463_j51427938402771_2_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Fold

/-! ## The contents at the two regions' entries, read at the TensorCore's references -/

/-- What the normalising kernel is entered from. -/
abbrev V1 : (c : Dev nD) → (b : Ref sig .tc) → Buf (Elt F) ((c : Thread nD τ).loc b) := fun c b => W1 m c b
/-- What it leaves. -/
abbrev V2 : (c : Dev nD) → (b : Ref sig .tc) → Buf (Elt F) ((c : Thread nD τ).loc b) := fun c b => W2 m c b
/-- What the pairwise kernel is entered from. -/
abbrev V3 : (c : Dev nD) → (b : Ref sig .tc) → Buf (Elt F) ((c : Thread nD τ).loc b) := fun c b => W3 m c b
/-- What it leaves. -/
abbrev V4 : (c : Dev nD) → (b : Ref sig .tc) → Buf (Elt F) ((c : Thread nD τ).loc b) := fun c b => W4 m c b

/-! ## The proof data family and the thread state -/

/-- No pipeline prefetches a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
/-- A stretch of host operations as a piece: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W11 m c) ∗ ∃ r, prngReg c r)

/-! ## The fold at the two regions' exits -/

/-- After the normalising kernel the result's buffer holds the normalised rows, -/
theorem V2_v3 (c : Dev nD) : V2 m c main_v3 = out0 m c := Function.update_self ..
/-- and every other buffer what it held at the kernel's entry. -/
theorem V2_of_ne (c : Dev nD) (b : Ref sig .tc) (hb : b ≠ main_v3) : V2 m c b = V1 m c b :=
  Function.update_of_ne (StableHlo.devRef_ne_of_ne hb : (Proc.devRef .tc b : DevRef τ sig) ≠ Proc.devRef .tc main_v3) _ _
/-- After the pairwise kernel the result's buffer holds the cluster statistics, -/
theorem V4_v8 (c : Dev nD) : V4 m c main_v8 = out1 m c := Function.update_self ..
/-- and every other buffer what it held at the kernel's entry. -/
theorem V4_of_ne (c : Dev nD) (b : Ref sig .tc) (hb : b ≠ main_v8) : V4 m c b = V3 m c b :=
  Function.update_of_ne (StableHlo.devRef_ne_of_ne hb : (Proc.devRef .tc b : DevRef τ sig) ≠ Proc.devRef .tc main_v8) _ _

/-- At the normalising kernel's exit each of its two arrays holds what the pipeline leaves: the input as entered, the
    result the normalised rows; -/
theorem hF0 (c : Dev nD) : ∀ w : Fin cfg0.W, (R0.dat0 (V1 m) c).arrAt w cfg0.N = V2 m c (Pipeline.arrRef spec0 w)
  | ⟨0, _⟩ => (R0.arr0_in (V1 m) c).trans (V2_of_ne m c main_v0 (by decide)).symm
  | ⟨1, _⟩ => (R0.arr0_out (V1 m) c).trans (V2_v3 m c).symm
/-- every other buffer holds what it held at entry. -/
theorem hrest0 (c : Dev nD) : ∀ b, b ∉ Finset.univ.image (Pipeline.arrRef spec0) → V2 m c b = V1 m c b :=
  fun b hb => V2_of_ne m c b fun e => hb (Finset.mem_image.mpr ⟨1, Finset.mem_univ _, e.symm⟩)

/-! ## The pairwise kernel's arrays against the buffers behind them

Seven windows on six buffers: the normalised rows are read through a row-block window at the left half of the
buffer's full share and through a column-block window at the right half; each other window holds its own buffer
at the full share. -/

section Shared

variable (V : (c : Dev nD) → (b : Ref sig .tc) → Buf (Elt F) ((c : Thread nD τ).loc b))

/-- The seven windows' arrays at contents `G`, one by one. -/
theorem arrays1_eq (c : Dev nD) (G : (w : Fin cfg1.W) → Buf (Elt F) ((cfg1.win w).arr.view.loc (c : Thread nD τ))) :
    ((R1.dat1 V c).arrays G : sProp 𝕄) = iprop(
      (((c : Thread nD τ).loc main_v3) ↦{fullShare.left} G 0) ∗ (((c : Thread nD τ).loc main_v3) ↦{fullShare.right} G 1)
      ∗ (((c : Thread nD τ).loc main_v4) ↦{fullShare} G 2) ∗ (((c : Thread nD τ).loc main_v5) ↦{fullShare} G 3)
      ∗ (((c : Thread nD τ).loc main_v6) ↦{fullShare} G 4) ∗ (((c : Thread nD τ).loc main_v7) ↦{fullShare} G 5)
      ∗ (((c : Thread nD τ).loc main_v8) ↦{fullShare} G 6)) := by
  unfold Pipeline.Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

/-- The six buffers behind them, each whole at the full share at contents `V'`, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_v3) ↦{fullShare} V' main_v3) ∗ (((c : Thread nD τ).loc main_v4) ↦{fullShare} V' main_v4)
      ∗ (((c : Thread nD τ).loc main_v5) ↦{fullShare} V' main_v5) ∗ (((c : Thread nD τ).loc main_v6) ↦{fullShare} V' main_v6)
      ∗ (((c : Thread nD τ).loc main_v7) ↦{fullShare} V' main_v7) ∗ (((c : Thread nD τ).loc main_v8) ↦{fullShare} V' main_v8)) := by
  unfold Pipeline.arrBufs
  exact bigSep_eq_bigSepL_of_eq [main_v3, main_v4, main_v5, main_v6, main_v7, main_v8] (by decide) (by decide) _

/-- ENTRY: the six buffers at `V'` make the seven arrays at contents read off `V'`: the full share of the
    normalised rows' buffer is cut into its two halves. -/
theorem arrays1_of_arrBufs (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (R1.dat1 V c).arrays G := by
  rw [arrBufs1_eq, arrays1_eq, hG 0, hG 1, hG 2, hG 3, hG 4, hG 5, hG 6]
  iintro ⟨H3, H4, H5, H6, H7, H8⟩
  have hcut : ((((c : Thread nD τ).loc main_v3) ↦{fullShare} V' main_v3 : sProp 𝕄))
      ⊢ iprop((((c : Thread nD τ).loc main_v3) ↦{fullShare.left} V' main_v3) ∗ (((c : Thread nD τ).loc main_v3) ↦{fullShare.right} V' main_v3)) :=
    (pointsTo_share (PosShare.mem_left_op_right fullShare)).1
  ihave H3' := hcut $$ H3
  icases H3' with ⟨H3l, H3r⟩
  isplitl [H3l]; · iexact H3l
  isplitl [H3r]; · iexact H3r
  isplitl [H4]; · iexact H4
  isplitl [H5]; · iexact H5
  isplitl [H6]; · iexact H6
  isplitl [H7]; · iexact H7
  iexact H8

/-- EXIT: the seven arrays at contents read off `V'` make the six buffers at `V'`: the two halves, holding the same
    contents, are joined. -/
theorem arrBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((R1.dat1 V c).arrays G : sProp 𝕄) ⊢ Pipeline.arrBufs (Ix := Unit) (Name := ℕ) (U := UR sig nD τ) (Lvl := ℕ) spec1 c V' := by
  rw [arrBufs1_eq, arrays1_eq, hG 0, hG 1, hG 2, hG 3, hG 4, hG 5, hG 6]
  iintro ⟨H3l, H3r, H4, H5, H6, H7, H8⟩
  isplitl [H3l H3r]
  · iapply (pointsTo_share (PosShare.mem_left_op_right fullShare)).2
    isplitl [H3l]; · iexact H3l
    iexact H3r
  isplitl [H4]; · iexact H4
  isplitl [H5]; · iexact H5
  isplitl [H6]; · iexact H6
  isplitl [H7]; · iexact H7
  iexact H8

end Shared

/-- At the pairwise kernel's entry each window's array is read off the entry contents; -/
theorem hG1_in (c : Dev nD) (w : Fin cfg1.W) : (R1.dat1 (V3 m) c).arrAt w 0 = V3 m c (Pipeline.arrRef spec1 w) :=
  R1.A1 (V3 m) c w
/-- at its exit the six inputs hold what they held and the result the cluster statistics. -/
theorem hG1_out (c : Dev nD) : ∀ w : Fin cfg1.W, (R1.dat1 (V3 m) c).arrAt w cfg1.N = V4 m c (Pipeline.arrRef spec1 w)
  | ⟨0, _⟩ => (R1.arr1_in (V3 m) c 0 (by decide)).trans (V4_of_ne m c main_v3 (by decide)).symm
  | ⟨1, _⟩ => (R1.arr1_in (V3 m) c 1 (by decide)).trans (V4_of_ne m c main_v3 (by decide)).symm
  | ⟨2, _⟩ => (R1.arr1_in (V3 m) c 2 (by decide)).trans (V4_of_ne m c main_v4 (by decide)).symm
  | ⟨3, _⟩ => (R1.arr1_in (V3 m) c 3 (by decide)).trans (V4_of_ne m c main_v5 (by decide)).symm
  | ⟨4, _⟩ => (R1.arr1_in (V3 m) c 4 (by decide)).trans (V4_of_ne m c main_v6 (by decide)).symm
  | ⟨5, _⟩ => (R1.arr1_in (V3 m) c 5 (by decide)).trans (V4_of_ne m c main_v7 (by decide)).symm
  | ⟨6, _⟩ => (R1.arr1_out (V3 m) c).trans (V4_v8 m c).symm
/-- Off the pairwise kernel's arrays the contents do not change. -/
theorem hrest1 (c : Dev nD) : ∀ b, b ∉ Finset.univ.image (Pipeline.arrRef spec1) → V4 m c b = V3 m c b :=
  fun b hb => V4_of_ne m c b fun e => hb (Finset.mem_image.mpr ⟨6, Finset.mem_univ _, e.symm⟩)

/-! ## The regions as pieces -/

set_option backward.isDefEq.respectTransparency.types false in
/-- The normalising kernel: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise kernel: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs c (V3 m c) : sProp 𝕄)
        ⊢ iprop((pdats m 1 c).arrays ((pdats m 1 c).arrAt · 0) ∗ Pipeline.unscopedRest (Ix := Unit) (Name := ℕ) (U := UR sig nD τ) (Lvl := ℕ) spec1 c (V3 m c)) := by
      rw [Pipeline.unscopedBufs_split₀ (Pipeline.pin (pcfgs (F := F)) adm) 1 winFacts₀1.arr_unscoped c (V3 m c)]
      exact sep_mono (arrays1_of_arrBufs (V3 m) c (V3 m c) _ (hG1_in m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat1 (V3 m) c).Φ 0 from rfl]
    iintro ⟨Hp, -, Hr⟩
    iapply (R1.hin1 (V3 m) c)
    isplitl [Hp]; · iexact Hp
    iexact Hr
  hout c := by
    rw [Pipeline.ownSems0_none]
    refine (R1.hout1 (V3 m) c).trans ?_
    iintro ⟨Hp, Hr⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (unscopedBufs c (V4 m c) : sProp 𝕄) := by
      rw [Pipeline.unscopedBufs_split₀ (Pipeline.pin (pcfgs (F := F)) adm) 1 winFacts₀1.arr_unscoped c (V4 m c)]
      refine sep_mono (arrBufs_of_arrays1 (V3 m) c (V4 m c) _ (hG1_out m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as pieces, and the launch -/

/-- The eleven pieces in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .host (hseg hostOps2_5 hostOps2_5_sub hostOps2_5_fresh (W9 m)),
    .host (hseg hostOps2_6 hostOps2_6_sub hostOps2_6_fresh (W10 m)) ]

/-- The entry function IS the run of the pieces: both are the chain of the same eleven fragments. -/
theorem main_run (c : Dev nD) : main (F := F) c = Pipeline.Seg.run (segs m) := by
  rewrite [main_chain c, Pipeline.Seg.run_eq_chain,
    show (segs m).map Pipeline.Seg.prog = [
      StableHlo.seq hostOps0,
      Prog.lift (.customCall (Pipeline.entry 0) ()),
      StableHlo.seq hostOps1,
      Prog.lift (.customCall (Pipeline.entry 1) ()),
      StableHlo.seq hostOps2,
      StableHlo.seq hostOps2_1,
      StableHlo.seq hostOps2_2,
      StableHlo.seq hostOps2_3,
      StableHlo.seq hostOps2_4,
      StableHlo.seq hostOps2_5,
      StableHlo.seq hostOps2_6 ] from rfl]
  rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of the entry function on the TensorCores
    terminates, and in every final state each unscoped buffer of each TensorCore holds the fold's last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Main

end
-- ==== Proof.HostArgs.lean ====
/-
  The arguments of @main are never written. A stretch of host operations changes only the buffers of its own results,
  and each of the two kernels changes only the buffer of its result; the three argument buffers are none of these, so
  at the return each still holds what it held at launch. Also: a TensorCore reference that is not scoped is one of the
  unscoped buffers the run accounts for, which is how the result and the three arguments are read at the return.
-/
import proofs.«400463_j51427938402771_2_alg».proof.Proof.Fold
import proofs.«400463_j51427938402771_2_alg».proof.Proof.Gen.KernelIdeal.Regions

noncomputable section

namespace Cert.KernelIdeal.HostArgs

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- A reference that no stretch writes and that is the result of neither kernel holds at the return what it held
    at launch. -/
theorem W11_of_untouched (c : Dev nD) (r : Ref sig .tc)
    (h0 : r ∉ hostOps0_W) (h3 : r ≠ main_v3) (h1 : r ∉ hostOps1_W) (h8 : r ≠ main_v8)
    (h2 : r ∉ hostOps2_W) (h21 : r ∉ hostOps2_1_W) (h22 : r ∉ hostOps2_2_W) (h23 : r ∉ hostOps2_3_W)
    (h24 : r ∉ hostOps2_4_W) (h25 : r ∉ hostOps2_5_W) (h26 : r ∉ hostOps2_6_W) :
    Fold.W11 m c r = m ((c : Thread nD τ).loc r) :=
  (StableHlo.after_of_writes_sub hostOps2_6 _ hostOps2_6_writes h26).trans <|
  (StableHlo.after_of_writes_sub hostOps2_5 _ hostOps2_5_writes h25).trans <|
  (StableHlo.after_of_writes_sub hostOps2_4 _ hostOps2_4_writes h24).trans <|
  (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (Function.update_of_ne (StableHlo.devRef_ne_of_ne h8 : (Proc.devRef .tc r : DevRef τ sig) ≠ Proc.devRef .tc main_v8) _ _).trans <|
  (StableHlo.after_of_writes_sub hostOps1 _ hostOps1_writes h1).trans <|
  (Function.update_of_ne (StableHlo.devRef_ne_of_ne h3 : (Proc.devRef .tc r : DevRef τ sig) ≠ Proc.devRef .tc main_v3) _ _).trans <|
  (StableHlo.after_of_writes_sub hostOps0 _ hostOps0_writes h0)

/-- The features reach the return as launched. -/
theorem W11_arg0 (c : Dev nD) : Fold.W11 m c main_arg0 = m ((c : Thread nD τ).loc main_arg0) :=
  W11_of_untouched m c main_arg0 (by decide) (by decide) (by decide) (by decide) (by decide) (by decide) (by decide)
    (by decide) (by decide) (by decide) (by decide)
/-- The labels reach the return as launched. -/
theorem W11_arg1 (c : Dev nD) : Fold.W11 m c main_arg1 = m ((c : Thread nD τ).loc main_arg1) :=
  W11_of_untouched m c main_arg1 (by decide) (by decide) (by decide) (by decide) (by decide) (by decide) (by decide)
    (by decide) (by decide) (by decide) (by decide)
/-- The cluster ids reach the return as launched. -/
theorem W11_arg2 (c : Dev nD) : Fold.W11 m c main_arg2 = m ((c : Thread nD τ).loc main_arg2) :=
  W11_of_untouched m c main_arg2 (by decide) (by decide) (by decide) (by decide) (by decide) (by decide) (by decide)
    (by decide) (by decide) (by decide) (by decide)

/-- A TensorCore reference that is not scoped is one of the unscoped buffers. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem mem_uc_v48 : (Proc.devRef .tc main_v48 : DevRef τ sig) ∈ Pipeline.ucRefs τ sig := mem_uc main_v48 (by decide)
theorem mem_uc_arg0 : (Proc.devRef .tc main_arg0 : DevRef τ sig) ∈ Pipeline.ucRefs τ sig := mem_uc main_arg0 (by decide)
theorem mem_uc_arg1 : (Proc.devRef .tc main_arg1 : DevRef τ sig) ∈ Pipeline.ucRefs τ sig := mem_uc main_arg1 (by decide)
theorem mem_uc_arg2 : (Proc.devRef .tc main_arg2 : DevRef τ sig) ∈ Pipeline.ucRefs τ sig := mem_uc main_arg2 (by decide)

end Cert.KernelIdeal.HostArgs

end
-- ==== Proof.TailFn.lean ====
/-
  The host operations that follow the pairwise kernel, as one function of the kernel's 8 × 4 × 16 result and of
  the flat cluster ids: the eight slabs are summed, the four rows of the 4 × 16 sum are the per-cluster positive
  sum, positive count, negative sum and negative count; a cluster's mean loss is its sum over `max count 1` where
  the count is positive and `0` elsewhere; the clusters present are counted by an integer scatter-add of ones at
  the ids clipped below at zero; the result is the sum of the sixteen clusters' two mean losses over
  `max (number of clusters present) 1`.
-/
import proofs.«400463_j51427938402771_2_alg».proof.Proof.Gen.KernelIdeal.Launch

noncomputable section

namespace Cert.KernelIdeal.Tail

open Idealize.ShloMosaic Cert.KernelIdeal Cert.KernelIdeal.Gen

variable {F : FTy → Type} [FloatOps F]

/-- A float scalar word spread over the sixteen clusters. -/
abbrev splat16 (w : BitVec 32) : FVec F S16 .f32 := broadcastInDim S16 ![] bcast_S_S16 (constant (F := F) S_ .f32 w)

/-- Row `q` of the 4 × 16 sum of the slabs, as a vector over the clusters. -/
def statRow (v9 : FVec F S4x16 .f32) (q : Fin 4) : FVec F S16 .f32 :=
  match q with
  | 0 => shapeCast S16 (extractStridedSlice S1x16 ![0, 0] v9 slices_S4x16_S1x16_0_0) shapeCasts_S1x16_S16
  | 1 => shapeCast S16 (extractStridedSlice S1x16 ![1, 0] v9 slices_S4x16_S1x16_1_0) shapeCasts_S1x16_S16
  | 2 => shapeCast S16 (extractStridedSlice S1x16 ![2, 0] v9 slices_S4x16_S1x16_2_0) shapeCasts_S1x16_S16
  | 3 => shapeCast S16 (extractStridedSlice S1x16 ![3, 0] v9 slices_S4x16_S1x16_3_0) shapeCasts_S1x16_S16

/-- The clusters' mean loss from a vector of sums and a vector of counts. -/
def meanLoss (sum cnt : FVec F S16 .f32) : FVec F S16 .f32 :=
  select (cmpf .ogt cnt (splat16 0x00000000#32)) (Host.divf sum (maximumf cnt (splat16 0x3F800000#32))) (splat16 0x00000000#32)

/-- How many members each cluster has among the ids clipped below at zero: an integer scatter-add of ones. -/
def clusterCounts (cl : IVec S8192 32) : IVec S16 32 :=
  let v31 : IVec S8192 32 := maxsi (broadcastInDim S8192 ![] bcast_S_S8192 (constantI S_ 32 0#32)) cl
  let v33 : IVec S8192 1 := cmpi .slt v31 (broadcastInDim S8192 ![] bcast_S_S8192 (constantI S_ 32 0#32))
  let v35 : IVec S8192 32 := addi v31 (broadcastInDim S8192 ![] bcast_S_S8192 (constantI S_ 32 16#32))
  let v36 : IVec S8192 32 := select v33 v35 v31
  Host.scatter scatter_S16_S8192x1_S8192_n_0_0_1 IntOp.addi (broadcastInDim S16 ![] bcast_S_S16 (constantI S_ 32 0#32))
    (broadcastInDim S8192x1 ![0] bcast_S8192_S8192x1_0 v36) (broadcastInDim S8192 ![] bcast_S_S8192 (constantI S_ 32 1#32))

/-- The number of clusters present, at least one, as a float scalar. -/
def presentF (cl : IVec S8192 32) : FVec F S_ .f32 :=
  maximumf
    (sitofp (F := F) .f32
      (Host.reduce IntOp.addi
        (extui 32 (cmpi .sgt (clusterCounts cl) (broadcastInDim S16 ![] bcast_S_S16 (constantI S_ 32 0#32))) natLt_1_32)
        (constantI S_ 32 0#32) reducesTo_S16_S_d0 h_S_))
    (constant (F := F) S_ .f32 0x3F800000#32)

/-- The whole tail. -/
def tailFn (st : FVec F S8x4x16 .f32) (cl : IVec S8192 32) : FVec F S_ .f32 :=
  let v9 : FVec F S4x16 .f32 := Host.reduceAdd st (constant (F := F) S_ .f32 0x00000000#32) reducesTo_S8x4x16_S4x16_d0 h_S_
  Host.divf
    (Host.reduceAdd (addf (meanLoss (statRow v9 0) (statRow v9 1)) (meanLoss (statRow v9 2) (statRow v9 3)))
      (constant (F := F) S_ .f32 0x00000000#32) reducesTo_S16_S_d0 h_S_)
    (presentF cl)

end Cert.KernelIdeal.Tail

end
-- ==== Proof.MathSpec.lean ====
/-
  The loss both programs compute, written once over plain index types and the extended reals.

  `n r d` is the (already normalised) feature `d` of sample `r`; `lr r`, `lc s` are the label of a sample as a row and
  as a column of the pair matrix, `cr r`, `cc s` its cluster id likewise (the programs hand the same vector in both
  roles; the two are kept apart here because the kernels read them through different arrays).
  A pair `(r, s)` is POSITIVE when the clusters agree, the labels agree and `r ≠ s`; NEGATIVE when the clusters agree
  and the labels differ. Per sample the four row statistics are the sums over `s` of `(1 - sim)²` and of `1` on the
  positive pairs and of `max (sim - β) 0 ²` and of `1` on the negative pairs.
-/
import Idealize.ShloMosaic.PureOps.Ideal

noncomputable section

namespace Cert.Math

open Idealize.ShloMosaic

/-- The three float literals of the programs, as the extended reals their words denote. -/
def eps : EReal := Ideal.ofBits .f32 0x2B8CBCCC#32
def beta : EReal := Ideal.ofBits .f32 0x3E99999A#32
def one : EReal := Ideal.ofBits .f32 0x3F800000#32
def zero : EReal := Ideal.ofBits .f32 0x00000000#32

abbrev R := Fin 8192
abbrev D := Fin 1024

/-- Sample `r` of the flat batch is sample `lo r` of batch entry `hi r`. -/
abbrev hi (r : R) : Fin 8 := ⟨r.val / 1024, by have := r.isLt; omega⟩
abbrev lo (r : R) : Fin 1024 := ⟨r.val % 1024, Nat.mod_lt _ (by decide)⟩

/-- A row's Euclidean norm, clamped below by `eps`. -/
def nrm (x : R → D → EReal) (r : R) : EReal := max (Ideal.sqrt (∑ d : D, x r d * x r d)) eps

/-- The normalised features. -/
def nx (x : R → D → EReal) (r : R) (d : D) : EReal := Ideal.div (x r d) (nrm x r)

section Pairs

variable (n : R → D → EReal) (lr lc cr cc : R → BitVec 32)

/-- Cosine similarity of two samples. -/
def sim (r s : R) : EReal := ∑ d : D, n r d * n s d

def posM (r s : R) : Prop := cr r = cc s ∧ lr r = lc s ∧ r ≠ s
def negM (r s : R) : Prop := cr r = cc s ∧ lr r ≠ lc s

instance (r s : R) : Decidable (posM lr lc cr cc r s) := by unfold posM; infer_instance
instance (r s : R) : Decidable (negM lr lc cr cc r s) := by unfold negM; infer_instance

/-- The four per-pair terms: positive-pair loss, positive-pair count, negative-pair loss, negative-pair count. -/
def term (q : Fin 4) (r s : R) : EReal :=
  match q with
  | 0 => if posM lr lc cr cc r s then (one - sim n r s) * (one - sim n r s) else zero
  | 1 => if posM lr lc cr cc r s then 1 else 0
  | 2 => if negM lr lc cr cc r s then max (sim n r s - beta) zero * max (sim n r s - beta) zero else zero
  | 3 => if negM lr lc cr cc r s then 1 else 0

/-- A sample's four row statistics. -/
def rowStat (q : Fin 4) (r : R) : EReal := ∑ s : R, term n lr lc cr cc q r s

/-- The statistics summed over the samples of cluster `k`. -/
def stat (q : Fin 4) (k : Fin 16) : EReal := ∑ r : R, if (cr r).toInt = (k.val : ℤ) then rowStat n lr lc cr cc q r else 0

end Pairs

/-- A cluster's mean loss from its sum and its count: the sum over `max count 1` where the count is positive, else 0. -/
def lossOf (sum cnt : EReal) : EReal := if zero < cnt then Ideal.div sum (max cnt one) else zero

/-- How many of the 16 clusters have a member. -/
def nPresent (c : R → BitVec 32) : ℕ := (Finset.univ.filter fun k : Fin 16 => ∃ r : R, (c r).toInt = (k.val : ℤ)).card

/-- The loss: the clusters' positive and negative mean losses summed, over the number of clusters present (at least 1). -/
def result (n : R → D → EReal) (lab clu : R → BitVec 32) : EReal :=
  Ideal.div (∑ k : Fin 16, (lossOf (stat n lab lab clu clu 0 k) (stat n lab lab clu clu 1 k)
      + lossOf (stat n lab lab clu clu 2 k) (stat n lab lab clu clu 3 k)))
    (max (((nPresent clu : ℕ) : ℝ) : EReal) one)

end Cert.Math

end
-- ==== Proof.HostRead.lean ====
/-
  What the host operations of @main hold, read through the fold of the buffers' contents.

  * The three reshapes before the normalising kernel flatten the batch: row `r` of the flat arrays is sample
    `r % 1024` of batch entry `r / 1024`, because a reshape keeps the row-major position and
    `(r / 1024) * 1024 + r % 1024 = r`.
  * The normalising kernel's result is still in its buffer when the pairwise kernel starts: the four reshapes in
    between write other buffers. Those four turn the flat labels and the flat cluster ids into a column
    (`8192 × 1`) and a row (`1 × 8192`) each, and entry `r` of either is entry `r` of the flat vector.
  * The seven stretches after the pairwise kernel compute, from its `8 × 4 × 16` result and from the flat cluster
    ids, the scalar loss: the slabs' sum, the per-cluster mean losses, the number of clusters present and the
    quotient. Each stretch is read as a function of the contents before it, and the seven readings compose to the
    tail written as one function.
-/
import proofs.«400463_j51427938402771_2_alg».proof.Proof.Fold
import proofs.«400463_j51427938402771_2_alg».proof.Proof.TailFn
import proofs.«400463_j51427938402771_2_alg».proof.Proof.MathSpec
import proofs.«400463_j51427938402771_2_alg».proof.Proof.Gen.KernelIdeal.Regions
import Idealize.ShloMosaic.Lib.ValueIdx
import Idealize.ShloMosaic.Lib.ValueLayout
import Idealize.ShloMosaic.Lib.Pipeline.Value

noncomputable section

namespace Cert.KernelIdeal.Host

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (c : Dev nD)

/-! ## One stretch at a time

Each reading is a function of the contents `W` before the stretch, whatever they are. -/

section Stretches

variable (W : Valuation τ sig (Elt F))

/-- The sum of the eight slabs. -/
abbrev slabSum (st : FVec F S8x4x16 .f32) : FVec F S4x16 .f32 :=
  Host.reduceAdd st (constant (F := F) S_ .f32 0x00000000#32) reducesTo_S8x4x16_S4x16_d0 h_S_

/-- A reference a stretch does not write keeps its contents (one line per stretch). -/
theorem keep0 (r : Ref sig .tc) (h : r ∉ hostOps0_W) : StableHlo.after hostOps0 W r = W r :=
  StableHlo.after_of_writes_sub hostOps0 W hostOps0_writes h
theorem keep1 (r : Ref sig .tc) (h : r ∉ hostOps1_W) : StableHlo.after hostOps1 W r = W r :=
  StableHlo.after_of_writes_sub hostOps1 W hostOps1_writes h
theorem keep2 (r : Ref sig .tc) (h : r ∉ hostOps2_W) : StableHlo.after hostOps2 W r = W r :=
  StableHlo.after_of_writes_sub hostOps2 W hostOps2_writes h
theorem keep21 (r : Ref sig .tc) (h : r ∉ hostOps2_1_W) : StableHlo.after hostOps2_1 W r = W r :=
  StableHlo.after_of_writes_sub hostOps2_1 W hostOps2_1_writes h
theorem keep22 (r : Ref sig .tc) (h : r ∉ hostOps2_2_W) : StableHlo.after hostOps2_2 W r = W r :=
  StableHlo.after_of_writes_sub hostOps2_2 W hostOps2_2_writes h
theorem keep23 (r : Ref sig .tc) (h : r ∉ hostOps2_3_W) : StableHlo.after hostOps2_3 W r = W r :=
  StableHlo.after_of_writes_sub hostOps2_3 W hostOps2_3_writes h
theorem keep24 (r : Ref sig .tc) (h : r ∉ hostOps2_4_W) : StableHlo.after hostOps2_4 W r = W r :=
  StableHlo.after_of_writes_sub hostOps2_4 W hostOps2_4_writes h
theorem keep25 (r : Ref sig .tc) (h : r ∉ hostOps2_5_W) : StableHlo.after hostOps2_5 W r = W r :=
  StableHlo.after_of_writes_sub hostOps2_5 W hostOps2_5_writes h

/-! ### The reshapes -/

theorem after0_v0 : (StableHlo.after hostOps0 W main_v0 : FVec F S8192x1024 .f32)
    = shapeCast S8192x1024 (W main_arg0) shapeCasts_S8x1024x1024_S8192x1024 := by
  show StableHlo.after hostOps0 W (Proc.devRef .tc main_v0) = _
  after_results <;> rfl
theorem after0_v1 : (StableHlo.after hostOps0 W main_v1 : IVec S8192 32)
    = shapeCast S8192 (W main_arg1) shapeCasts_S8x1024_S8192 := by
  show StableHlo.after hostOps0 W (Proc.devRef .tc main_v1) = _
  after_results <;> rfl
theorem after0_v2 : (StableHlo.after hostOps0 W main_v2 : IVec S8192 32)
    = shapeCast S8192 (W main_arg2) shapeCasts_S8x1024_S8192 := by
  show StableHlo.after hostOps0 W (Proc.devRef .tc main_v2) = _
  after_results <;> rfl

theorem after1_v4 : (StableHlo.after hostOps1 W main_v4 : IVec S8192x1 32)
    = shapeCast S8192x1 (W main_v1) shapeCasts_S8192_S8192x1 := by
  show StableHlo.after hostOps1 W (Proc.devRef .tc main_v4) = _
  after_results <;> rfl
theorem after1_v5 : (StableHlo.after hostOps1 W main_v5 : IVec S1x8192 32)
    = shapeCast S1x8192 (W main_v1) shapeCasts_S8192_S1x8192 := by
  show StableHlo.after hostOps1 W (Proc.devRef .tc main_v5) = _
  after_results <;> rfl
theorem after1_v6 : (StableHlo.after hostOps1 W main_v6 : IVec S8192x1 32)
    = shapeCast S8192x1 (W main_v2) shapeCasts_S8192_S8192x1 := by
  show StableHlo.after hostOps1 W (Proc.devRef .tc main_v6) = _
  after_results <;> rfl
theorem after1_v7 : (StableHlo.after hostOps1 W main_v7 : IVec S1x8192 32)
    = shapeCast S1x8192 (W main_v2) shapeCasts_S8192_S1x8192 := by
  show StableHlo.after hostOps1 W (Proc.devRef .tc main_v7) = _
  after_results <;> rfl

/-! ### The positive half: rows 0 and 1 of the slabs' sum -/

theorem after2_v15 : (StableHlo.after hostOps2 W main_v15 : FVec F S16 .f32) = Tail.statRow (slabSum (W main_v8)) 2 := by
  show StableHlo.after hostOps2 W (Proc.devRef .tc main_v15) = _
  after_results <;> rfl
theorem after2_v17 : (StableHlo.after hostOps2 W main_v17 : FVec F S16 .f32) = Tail.statRow (slabSum (W main_v8)) 3 := by
  show StableHlo.after hostOps2 W (Proc.devRef .tc main_v17) = _
  after_results <;> rfl
theorem after2_v19 : (StableHlo.after hostOps2 W main_v19 : IVec S16 1)
    = cmpf .ogt (Tail.statRow (slabSum (W main_v8)) 1) (Tail.splat16 0x00000000#32) := by
  show StableHlo.after hostOps2 W (Proc.devRef .tc main_v19) = _
  after_results <;> rfl
theorem after2_v22 : (StableHlo.after hostOps2 W main_v22 : FVec F S16 .f32)
    = Host.divf (Tail.statRow (slabSum (W main_v8)) 0)
        (maximumf (Tail.statRow (slabSum (W main_v8)) 1) (Tail.splat16 0x3F800000#32)) := by
  show StableHlo.after hostOps2 W (Proc.devRef .tc main_v22) = _
  after_results <;> rfl
theorem after2_cst2 : (StableHlo.after hostOps2 W main_cst_2 : FVec F S_ .f32) = constant (F := F) S_ .f32 0x00000000#32 := by
  show StableHlo.after hostOps2 W (Proc.devRef .tc main_cst_2) = _
  after_results <;> rfl

theorem after21_v23 : (StableHlo.after hostOps2_1 W main_v23 : FVec F S16 .f32)
    = select (W main_v19) (W main_v22) (broadcastInDim S16 ![] bcast_S_S16 (W main_cst_2)) := by
  show StableHlo.after hostOps2_1 W (Proc.devRef .tc main_v23) = _
  after_results <;> rfl

/-! ### The negative half: rows 2 and 3 -/

theorem after22_v25 : (StableHlo.after hostOps2_2 W main_v25 : IVec S16 1)
    = cmpf .ogt (W main_v17) (Tail.splat16 (F := F) 0x00000000#32) := by
  show StableHlo.after hostOps2_2 W (Proc.devRef .tc main_v25) = _
  after_results <;> rfl
theorem after22_v28 : (StableHlo.after hostOps2_2 W main_v28 : FVec F S16 .f32)
    = Host.divf (W main_v15) (maximumf (W main_v17) (Tail.splat16 0x3F800000#32)) := by
  show StableHlo.after hostOps2_2 W (Proc.devRef .tc main_v28) = _
  after_results <;> rfl
theorem after22_cst5 : (StableHlo.after hostOps2_2 W main_cst_5 : FVec F S_ .f32) = constant (F := F) S_ .f32 0x00000000#32 := by
  show StableHlo.after hostOps2_2 W (Proc.devRef .tc main_cst_5) = _
  after_results <;> rfl

theorem after23_v29 : (StableHlo.after hostOps2_3 W main_v29 : FVec F S16 .f32)
    = select (W main_v25) (W main_v28) (broadcastInDim S16 ![] bcast_S_S16 (W main_cst_5)) := by
  show StableHlo.after hostOps2_3 W (Proc.devRef .tc main_v29) = _
  after_results <;> rfl

/-! ### The count of the clusters present -/

theorem after24_v30 : (StableHlo.after hostOps2_4 W main_v30 : IVec S16 32)
    = broadcastInDim S16 ![] bcast_S_S16 (constantI S_ 32 0#32) := by
  show StableHlo.after hostOps2_4 W (Proc.devRef .tc main_v30) = _
  after_results <;> rfl
theorem after24_c6 : (StableHlo.after hostOps2_4 W main_c_6 : IVec S_ 32) = constantI S_ 32 0#32 := by
  show StableHlo.after hostOps2_4 W (Proc.devRef .tc main_c_6) = _
  after_results <;> rfl

theorem after25_v31 : (StableHlo.after hostOps2_5 W main_v31 : IVec S8192 32)
    = maxsi (broadcastInDim S8192 ![] bcast_S_S8192 (W main_c_6)) (W main_v2) := by
  show StableHlo.after hostOps2_5 W (Proc.devRef .tc main_v31) = _
  after_results <;> rfl

/-- The last stretch, from the clipped ids `v31`, the zero counts `v30` and the two halves' mean losses. -/
def last (v31 : IVec S8192 32) (v30 : IVec S16 32) (v23 v29 : FVec F S16 .f32) : FVec F S_ .f32 :=
  Host.divf
    (Host.reduceAdd (addf v23 v29) (constant (F := F) S_ .f32 0x00000000#32) reducesTo_S16_S_d0 h_S_)
    (maximumf
      (sitofp (F := F) .f32
        (Host.reduce IntOp.addi
          (extui 32
            (cmpi .sgt
              (Host.scatter scatter_S16_S8192x1_S8192_n_0_0_1 IntOp.addi v30
                (broadcastInDim S8192x1 ![0] bcast_S8192_S8192x1_0
                  (select (cmpi .slt v31 (broadcastInDim S8192 ![] bcast_S_S8192 (constantI S_ 32 0#32)))
                    (addi v31 (broadcastInDim S8192 ![] bcast_S_S8192 (constantI S_ 32 16#32))) v31))
                (broadcastInDim S8192 ![] bcast_S_S8192 (constantI S_ 32 1#32)))
              (broadcastInDim S16 ![] bcast_S_S16 (constantI S_ 32 0#32)))
            natLt_1_32)
          (constantI S_ 32 0#32) reducesTo_S16_S_d0 h_S_))
      (constant (F := F) S_ .f32 0x3F800000#32))

theorem after26_v48 : (StableHlo.after hostOps2_6 W main_v48 : FVec F S_ .f32)
    = last (W main_v31) (W main_v30) (W main_v23) (W main_v29) := by
  show StableHlo.after hostOps2_6 W (Proc.devRef .tc main_v48) = _
  after_results_simp
  all_goals rfl

end Stretches

/-! ## The two kernels' results replace one buffer each -/

theorem W2_of (r : Ref sig .tc) (h : r ≠ main_v3) : Fold.W2 m c r = Fold.W1 m c r :=
  Function.update_of_ne (StableHlo.devRef_ne_of_ne h : (Proc.devRef .tc r : DevRef τ sig) ≠ Proc.devRef .tc main_v3) _ _
theorem W4_of (r : Ref sig .tc) (h : r ≠ main_v8) : Fold.W4 m c r = Fold.W3 m c r :=
  Function.update_of_ne (StableHlo.devRef_ne_of_ne h : (Proc.devRef .tc r : DevRef τ sig) ≠ Proc.devRef .tc main_v8) _ _

/-! ## The flattened arguments -/

/-- Entry `(r, d)` of the batch cast to `8192 × 1024` is entry `(r / 1024, r % 1024, d)` of the batch. -/
theorem flat3_apply {α : Type} (x : S8x1024x1024.Idx → α) (r : Fin 8192) (d : Fin 1024) :
    shapeCast S8192x1024 x shapeCasts_S8x1024x1024_S8192x1024 (ix2 r d) = x (ix3 (Cert.Math.hi r) (Cert.Math.lo r) d) :=
  shapeCast_apply _ _ _ _ (by
    rw [Shape.rowMajor_val_three, Shape.rowMajor_val_two]
    show (r.val / 1024 * 1024 + r.val % 1024) * 1024 + d.val = r.val * 1024 + d.val
    omega)
/-- Entry `r` of an `8 × 1024` array cast to a vector is entry `(r / 1024, r % 1024)` of the array. -/
theorem flat2_apply {α : Type} (x : S8x1024.Idx → α) (r : Fin 8192) :
    shapeCast S8192 x shapeCasts_S8x1024_S8192 (ix1 r) = x (ix2 (Cert.Math.hi r) (Cert.Math.lo r)) :=
  shapeCast_apply _ _ _ _ (by
    rw [Shape.rowMajor_val_two, Shape.rowMajor_val_one]
    show r.val / 1024 * 1024 + r.val % 1024 = r.val
    omega)

theorem W1_v0_apply (r : Fin 8192) (d : Fin 1024) :
    Fold.W1 m c main_v0 (ix2 r d) = m ((c : Thread nD τ).loc main_arg0) (ix3 (Cert.Math.hi r) (Cert.Math.lo r) d) :=
  (congrFun (after0_v0 (Fold.W0 m c)) _).trans (flat3_apply _ r d)

theorem W1_v1_apply (r : Fin 8192) :
    Fold.W1 m c main_v1 (ix1 r) = m ((c : Thread nD τ).loc main_arg1) (ix2 (Cert.Math.hi r) (Cert.Math.lo r)) :=
  (congrFun (after0_v1 (Fold.W0 m c)) _).trans (flat2_apply _ r)

theorem W1_v2_apply (r : Fin 8192) :
    Fold.W1 m c main_v2 (ix1 r) = m ((c : Thread nD τ).loc main_arg2) (ix2 (Cert.Math.hi r) (Cert.Math.lo r)) :=
  (congrFun (after0_v2 (Fold.W0 m c)) _).trans (flat2_apply _ r)

/-! ## Between the two kernels -/

theorem W3_v3 : Fold.W3 m c main_v3 = Fold.out0 m c :=
  (keep1 (Fold.W2 m c) main_v3 (by decide)).trans (Function.update_self ..)

/-- Entry `(r, 0)` of a vector cast to a column is entry `r` of the vector. -/
theorem col_apply {α : Type} (x : S8192.Idx → α) (r : Fin 8192) :
    shapeCast S8192x1 x shapeCasts_S8192_S8192x1 (ix2 r (0 : Fin 1)) = x (ix1 r) :=
  shapeCast_apply _ _ _ _ (by
    rw [Shape.rowMajor_val_two, Shape.rowMajor_val_one]
    show r.val = r.val * 1 + 0
    omega)
/-- Entry `(0, s)` of a vector cast to a row is entry `s` of the vector. -/
theorem row_apply {α : Type} (x : S8192.Idx → α) (s : Fin 8192) :
    shapeCast S1x8192 x shapeCasts_S8192_S1x8192 (ix2 (0 : Fin 1) s) = x (ix1 s) :=
  shapeCast_apply _ _ _ _ (by
    rw [Shape.rowMajor_val_two, Shape.rowMajor_val_one]
    show s.val = 0 * 8192 + s.val
    omega)

theorem W3_v4_apply (r : Fin 8192) : Fold.W3 m c main_v4 (ix2 r (0 : Fin 1)) = Fold.W1 m c main_v1 (ix1 r) :=
  (congrFun (after1_v4 (Fold.W2 m c)) _).trans <| (col_apply _ r).trans (congrFun (W2_of m c main_v1 (by decide)) _)

theorem W3_v5_apply (s : Fin 8192) : Fold.W3 m c main_v5 (ix2 (0 : Fin 1) s) = Fold.W1 m c main_v1 (ix1 s) :=
  (congrFun (after1_v5 (Fold.W2 m c)) _).trans <| (row_apply _ s).trans (congrFun (W2_of m c main_v1 (by decide)) _)

theorem W3_v6_apply (r : Fin 8192) : Fold.W3 m c main_v6 (ix2 r (0 : Fin 1)) = Fold.W1 m c main_v2 (ix1 r) :=
  (congrFun (after1_v6 (Fold.W2 m c)) _).trans <| (col_apply _ r).trans (congrFun (W2_of m c main_v2 (by decide)) _)

theorem W3_v7_apply (s : Fin 8192) : Fold.W3 m c main_v7 (ix2 (0 : Fin 1) s) = Fold.W1 m c main_v2 (ix1 s) :=
  (congrFun (after1_v7 (Fold.W2 m c)) _).trans <| (row_apply _ s).trans (congrFun (W2_of m c main_v2 (by decide)) _)

/-! ## After the pairwise kernel

The contents of the few buffers the tail reads, boundary by boundary, in terms of the pairwise kernel's result and of
the flat cluster ids. -/

theorem W11_v48 : Fold.W11 m c main_v48 = Tail.tailFn (Fold.out1 m c) (Fold.W1 m c main_v2) := by
  -- at the pairwise kernel's exit
  have h8 : Fold.W4 m c main_v8 = Fold.out1 m c := Function.update_self ..
  have e4_2 : Fold.W4 m c main_v2 = Fold.W1 m c main_v2 :=
    (W4_of m c main_v2 (by decide)).trans <| (keep1 _ main_v2 (by decide)).trans (W2_of m c main_v2 (by decide))
  -- after the slabs are summed and the positive half's quotient is formed
  have e5_15 : (Fold.W5 m c main_v15 : FVec F S16 .f32) = Tail.statRow (slabSum (Fold.out1 m c)) 2 :=
    (after2_v15 (Fold.W4 m c)).trans (by rw [h8])
  have e5_17 : (Fold.W5 m c main_v17 : FVec F S16 .f32) = Tail.statRow (slabSum (Fold.out1 m c)) 3 :=
    (after2_v17 (Fold.W4 m c)).trans (by rw [h8])
  have e5_19 : (Fold.W5 m c main_v19 : IVec S16 1)
      = cmpf .ogt (Tail.statRow (slabSum (Fold.out1 m c)) 1) (Tail.splat16 0x00000000#32) :=
    (after2_v19 (Fold.W4 m c)).trans (by rw [h8])
  have e5_22 : (Fold.W5 m c main_v22 : FVec F S16 .f32)
      = Host.divf (Tail.statRow (slabSum (Fold.out1 m c)) 0)
          (maximumf (Tail.statRow (slabSum (Fold.out1 m c)) 1) (Tail.splat16 0x3F800000#32)) :=
    (after2_v22 (Fold.W4 m c)).trans (by rw [h8])
  have e5_c2 : (Fold.W5 m c main_cst_2 : FVec F S_ .f32) = constant (F := F) S_ .f32 0x00000000#32 :=
    after2_cst2 (Fold.W4 m c)
  have e5_2 : Fold.W5 m c main_v2 = Fold.W1 m c main_v2 := (keep2 _ main_v2 (by decide)).trans e4_2
  -- the positive half's mean loss
  have e6_23 : (Fold.W6 m c main_v23 : FVec F S16 .f32)
      = Tail.meanLoss (Tail.statRow (slabSum (Fold.out1 m c)) 0) (Tail.statRow (slabSum (Fold.out1 m c)) 1) :=
    (after21_v23 (Fold.W5 m c)).trans (by rw [e5_19, e5_22, e5_c2]; rfl)
  have e6_15 : (Fold.W6 m c main_v15 : FVec F S16 .f32) = Tail.statRow (slabSum (Fold.out1 m c)) 2 := (keep21 (Fold.W5 m c) main_v15 (by decide)).trans e5_15
  have e6_17 : (Fold.W6 m c main_v17 : FVec F S16 .f32) = Tail.statRow (slabSum (Fold.out1 m c)) 3 := (keep21 (Fold.W5 m c) main_v17 (by decide)).trans e5_17
  have e6_2 : Fold.W6 m c main_v2 = Fold.W1 m c main_v2 := (keep21 (Fold.W5 m c) main_v2 (by decide)).trans e5_2
  -- the negative half's quotient
  have e7_25 : (Fold.W7 m c main_v25 : IVec S16 1)
      = cmpf .ogt (Tail.statRow (slabSum (Fold.out1 m c)) 3) (Tail.splat16 0x00000000#32) :=
    (after22_v25 (Fold.W6 m c)).trans (by rw [e6_17])
  have e7_28 : (Fold.W7 m c main_v28 : FVec F S16 .f32)
      = Host.divf (Tail.statRow (slabSum (Fold.out1 m c)) 2)
          (maximumf (Tail.statRow (slabSum (Fold.out1 m c)) 3) (Tail.splat16 0x3F800000#32)) :=
    (after22_v28 (Fold.W6 m c)).trans (by rw [e6_15, e6_17])
  have e7_c5 : (Fold.W7 m c main_cst_5 : FVec F S_ .f32) = constant (F := F) S_ .f32 0x00000000#32 :=
    after22_cst5 (Fold.W6 m c)
  have e7_23 : (Fold.W7 m c main_v23 : FVec F S16 .f32) = Tail.meanLoss (Tail.statRow (slabSum (Fold.out1 m c)) 0) (Tail.statRow (slabSum (Fold.out1 m c)) 1) := (keep22 (Fold.W6 m c) main_v23 (by decide)).trans e6_23
  have e7_2 : Fold.W7 m c main_v2 = Fold.W1 m c main_v2 := (keep22 (Fold.W6 m c) main_v2 (by decide)).trans e6_2
  -- the negative half's mean loss
  have e8_29 : (Fold.W8 m c main_v29 : FVec F S16 .f32)
      = Tail.meanLoss (Tail.statRow (slabSum (Fold.out1 m c)) 2) (Tail.statRow (slabSum (Fold.out1 m c)) 3) :=
    (after23_v29 (Fold.W7 m c)).trans (by rw [e7_25, e7_28, e7_c5]; rfl)
  have e8_23 : (Fold.W8 m c main_v23 : FVec F S16 .f32) = Tail.meanLoss (Tail.statRow (slabSum (Fold.out1 m c)) 0) (Tail.statRow (slabSum (Fold.out1 m c)) 1) := (keep23 (Fold.W7 m c) main_v23 (by decide)).trans e7_23
  have e8_2 : Fold.W8 m c main_v2 = Fold.W1 m c main_v2 := (keep23 (Fold.W7 m c) main_v2 (by decide)).trans e7_2
  -- the zero counts and the clipping bound
  have e9_30 : (Fold.W9 m c main_v30 : IVec S16 32) = broadcastInDim S16 ![] bcast_S_S16 (constantI S_ 32 0#32) :=
    after24_v30 (Fold.W8 m c)
  have e9_c6 : (Fold.W9 m c main_c_6 : IVec S_ 32) = constantI S_ 32 0#32 := after24_c6 (Fold.W8 m c)
  have e9_23 : (Fold.W9 m c main_v23 : FVec F S16 .f32) = Tail.meanLoss (Tail.statRow (slabSum (Fold.out1 m c)) 0) (Tail.statRow (slabSum (Fold.out1 m c)) 1) := (keep24 (Fold.W8 m c) main_v23 (by decide)).trans e8_23
  have e9_29 : (Fold.W9 m c main_v29 : FVec F S16 .f32) = Tail.meanLoss (Tail.statRow (slabSum (Fold.out1 m c)) 2) (Tail.statRow (slabSum (Fold.out1 m c)) 3) := (keep24 (Fold.W8 m c) main_v29 (by decide)).trans e8_29
  have e9_2 : Fold.W9 m c main_v2 = Fold.W1 m c main_v2 := (keep24 (Fold.W8 m c) main_v2 (by decide)).trans e8_2
  -- the ids clipped below at zero
  have e10_31 : (Fold.W10 m c main_v31 : IVec S8192 32)
      = maxsi (broadcastInDim S8192 ![] bcast_S_S8192 (constantI S_ 32 0#32)) (Fold.W1 m c main_v2) :=
    (after25_v31 (Fold.W9 m c)).trans (by rw [e9_c6, e9_2])
  have e10_30 : (Fold.W10 m c main_v30 : IVec S16 32) = broadcastInDim S16 ![] bcast_S_S16 (constantI S_ 32 0#32) := (keep25 (Fold.W9 m c) main_v30 (by decide)).trans e9_30
  have e10_23 : (Fold.W10 m c main_v23 : FVec F S16 .f32) = Tail.meanLoss (Tail.statRow (slabSum (Fold.out1 m c)) 0) (Tail.statRow (slabSum (Fold.out1 m c)) 1) := (keep25 (Fold.W9 m c) main_v23 (by decide)).trans e9_23
  have e10_29 : (Fold.W10 m c main_v29 : FVec F S16 .f32) = Tail.meanLoss (Tail.statRow (slabSum (Fold.out1 m c)) 2) (Tail.statRow (slabSum (Fold.out1 m c)) 3) := (keep25 (Fold.W9 m c) main_v29 (by decide)).trans e9_29
  -- the last stretch
  exact (after26_v48 (Fold.W10 m c)).trans (by rw [e10_31, e10_30, e10_23, e10_29]; rfl)

end Cert.KernelIdeal.Host

end
-- ==== Proof.TailVal.lean ====
/-
  The value of the host tail at the ideal instance.

  The eight 4 × 16 slabs are summed entrywise; rows 0 and 1 of the sum are a cluster's positive sum and count, rows 2
  and 3 its negative sum and count, and a cluster's mean loss is `lossOf sum count`. The integer side: with every id
  non-negative the clip at zero and the wrap of negative ids are the identity, the scatter-add of ones leaves at
  cluster `k` the number of samples whose id is `k` (at most 8192, so the 32-bit sum does not wrap), that number is
  positive exactly when the cluster has a member, and the sum of the sixteen 0/1 flags is the number of clusters
  present. The tail is the sum of the clusters' two mean losses over `max present 1`.
-/
import proofs.«400463_j51427938402771_2_alg».proof.Proof.TailFn
import proofs.«400463_j51427938402771_2_alg».proof.Proof.MathSpec
import Idealize.ShloMosaic.Lib.ValueIdx
import Idealize.ShloMosaic.Lib.IdealHost
import Idealize.ShloMosaic.Lib.Pipeline.Value
import Idealize.ShloMosaic.Lib.WordSum
import Idealize.ShloMosaic.Lib.ValueIdxRank1
import Idealize.ShloMosaic.Lib.StableHlo.Predicate

noncomputable section

namespace Cert.KernelIdeal.TailV

open Idealize.ShloMosaic Idealize.ShloMosaic.ValueIdx Cert.KernelIdeal Cert.KernelIdeal.Gen

/-- Summing the eight slabs drops the first axis of 8 × 4 × 16. -/
theorem red8 : S8x4x16.Reduces [0] S4x16 := by decide

/-- Entry `(q, k)` of the sum with slab `i` put back is entry `(i, q, k)`. -/
theorem lift8 (q : Fin 4) (k : Fin 16) (i : Fin 8) : red8.lift (ix2 q k) i = ix3 i q k := by
  funext c; match c with | ⟨0, _⟩ => rfl | ⟨1, _⟩ => rfl | ⟨2, _⟩ => rfl

/-- Row `q` of a 4 × 16 array, cut out as a 1 × 16 block and flattened, reads the array at `(q, k)`. -/
theorem slice_row (v9 : FVec Ideal S4x16 .f32) (q : Fin 4) (h : S4x16.Slices ![q.val, 0] S1x16) (k : Fin 16) :
    shapeCast S16 (extractStridedSlice S1x16 ![q.val, 0] v9 h) shapeCasts_S1x16_S16 (ix1 k) = v9 (ix2 q k) := by
  rw [shapeCast_dropUnit_apply ![16]]
  exact extractStridedSlice_apply _ _ _ _ (ix2 q k) (fun a => by match a with | ⟨0, _⟩ => rfl | ⟨1, _⟩ => show k.val = 0 + k.val; omega)

/-- Each of the four statistic rows reads the 4 × 16 sum at its row. -/
theorem statRow_apply (v9 : FVec Ideal S4x16 .f32) (q : Fin 4) (k : Fin 16) :
    Tail.statRow (F := Ideal) v9 q (ix1 k) = v9 (ix2 q k) := by
  match q with
  | ⟨0, _⟩ => exact slice_row v9 0 _ k
  | ⟨1, _⟩ => exact slice_row v9 1 _ k
  | ⟨2, _⟩ => exact slice_row v9 2 _ k
  | ⟨3, _⟩ => exact slice_row v9 3 _ k

/-- The sum of the slabs from zero, entry by entry. -/
theorem slabSum_apply (st : FVec Ideal S8x4x16 .f32) (q : Fin 4) (k : Fin 16) :
    Host.reduceAdd st (constant (F := Ideal) S_ .f32 0x00000000#32) reducesTo_S8x4x16_S4x16_d0 h_S_ (ix2 q k)
      = ∑ i : Fin 8, st (ix3 i q k) := by
  rw [hostReduceAdd_apply, Ideal.hostReduceAdd_single _ red8, constant_apply, Ideal.ofBits_zero_f32, zero_add]
  exact Finset.sum_congr rfl fun i _ => congrArg st (lift8 q k i)

/-- A scalar word spread over the clusters reads the word's value everywhere. -/
theorem splat16_apply (w : BitVec 32) (j : S16.Idx) : Tail.splat16 (F := Ideal) w j = Ideal.ofBits .f32 w := rfl

/-- A cluster's mean loss: the sum over `max count 1` where the count is positive, else zero. -/
theorem meanLoss_apply (sum cnt : FVec Ideal S16 .f32) (k : Fin 16) :
    Tail.meanLoss (F := Ideal) sum cnt (ix1 k) = Cert.Math.lossOf (sum (ix1 k)) (cnt (ix1 k)) := by
  unfold Tail.meanLoss Cert.Math.lossOf
  rw [select_apply, cmpf_apply, hostDivf_apply, maximumf_apply, splat16_apply, splat16_apply]
  show Scalar.select (Ideal.cmp .ogt _ _) _ _ = _
  unfold Ideal.cmp Cert.Math.zero Cert.Math.one
  by_cases h : Ideal.ofBits .f32 0x00000000#32 < cnt (ix1 k)
  · rw [if_pos h]; simp only [h, decide_true, BitVec.ofBool_true]; exact select_one _ _
  · rw [if_neg h]; simp only [h, decide_false, BitVec.ofBool_false]; exact select_zero _ _

/-- The sum over the sixteen clusters from zero. -/
theorem lossSum_apply (x : FVec Ideal S16 .f32) :
    Host.reduceAdd x (constant (F := Ideal) S_ .f32 0x00000000#32) reducesTo_S16_S_d0 h_S_ ix0 = ∑ k : Fin 16, x (ix1 k) := by
  rw [hostReduceAdd_apply, Ideal.hostReduceAdd_total _ (fun b => b.elim0), constant_apply, Ideal.ofBits_zero_f32, zero_add]
  exact (Equiv.sum_comp idxEquiv1.symm x).symm

open Idealize.ShloMosaic.StableHlo.Predicate (toInt_ofNat_small toInt_eq_toNat_of_lt toNat_fold_addi toNat_setWidth_bit)

/-- The flat array of 8192 ids has 8192 elements. -/
theorem numel8192 : S8192.numel = 8192 := by simp [Shape.numel]

/-- Where update `j` of the scatter lands: at its id, read signed, when that is one of the sixteen clusters. -/
theorem resultIdx_iff' (idx : IVec S8192x1 32) (j : S8192.Idx) (i : S16.Idx) :
    scatter_S16_S8192x1_S8192_n_0_0_1.resultIdx? j idx = some i ↔ (idx (ix2 (j 0) 0)).toInt = ((i 0).val : ℤ) := by
  have hs : ∀ a, scatter_S16_S8192x1_S8192_n_0_0_1.start j idx a = (idx (ix2 (j 0) 0)).toInt := by
    intro a
    have ha : a = 0 := Subsingleton.elim _ _
    subst ha
    unfold ScatterDims.start
    rw [dif_pos (by decide)]
    congr 2
    funext b; match b with | ⟨0, _⟩ => rfl | ⟨1, _⟩ => rfl
  have hw : ∀ a, scatter_S16_S8192x1_S8192_n_0_0_1.window j a = 0 := by
    intro a
    have ha : a = 0 := Subsingleton.elim _ _
    subst ha
    unfold ScatterDims.window
    rw [dif_neg (by decide)]
  have hi := (i 0).isLt
  unfold ScatterDims.resultIdx?
  split
  · rename_i h
    have h0 := h 0
    rw [hs, hw] at h0
    constructor
    · intro e
      have e1 := congrArg Fin.val (congrFun (Option.some.inj e) 0)
      change (scatter_S16_S8192x1_S8192_n_0_0_1.start j idx 0 + (scatter_S16_S8192x1_S8192_n_0_0_1.window j 0 : ℤ)).toNat = (i 0).val at e1
      rw [hs, hw] at e1
      omega
    · intro e
      congr 1
      funext a
      have ha : a = 0 := Subsingleton.elim _ _
      subst ha
      apply Fin.ext
      show (scatter_S16_S8192x1_S8192_n_0_0_1.start j idx 0 + (scatter_S16_S8192x1_S8192_n_0_0_1.window j 0 : ℤ)).toNat = (i 0).val
      rw [hs, hw]
      omega
  · rename_i h
    constructor
    · intro e; cases e
    · intro e
      exfalso
      apply h
      intro a
      have ha : a = 0 := Subsingleton.elim _ _
      subst ha
      rw [hs, hw]
      show 0 ≤ _ ∧ _ < ((16 : ℕ) : ℤ)
      change (i 0).val < 16 at hi
      omega

/-- The same at sample `r` and cluster `k`. -/
theorem resultIdx_iff (idx : IVec S8192x1 32) (r : Fin 8192) (k : Fin 16) :
    scatter_S16_S8192x1_S8192_n_0_0_1.resultIdx? (ix1 r) idx = some (ix1 k) ↔ (idx (ix2 r 0)).toInt = (k.val : ℤ) :=
  resultIdx_iff' idx (ix1 r) (ix1 k)

/-- The scatter-add of ones leaves at a cluster its start plus the number of updates that land there: by induction
    over the updates, in the order they are taken. -/
theorem scatter_ones (idx : IVec S8192x1 32) (upd : S8192.Idx → BitVec 32) (hupd : ∀ j, upd j = 1#32)
    (x : S16.Idx → BitVec 32) (i' : S16.Idx) :
    Host.scatter scatter_S16_S8192x1_S8192_n_0_0_1 IntOp.addi x idx upd i'
      = x i' + BitVec.ofNat 32 ((List.finRange S8192.numel).countP fun n =>
          scatter_S16_S8192x1_S8192_n_0_0_1.resultIdx? (S8192.rowMajor.symm n) idx = some i') := by
  unfold Host.scatter
  generalize List.finRange S8192.numel = l
  induction l generalizing x with
  | nil => simp
  | cons n l ih =>
    rw [List.foldl_cons, ih, List.countP_cons]
    cases hg : scatter_S16_S8192x1_S8192_n_0_0_1.resultIdx? (S8192.rowMajor.symm n) idx with
    | none => simp
    | some i =>
      by_cases h : i' = i
      · subst h
        simp only [if_true, decide_true, IntOp.addi, hupd]
        rw [BitVec.add_assoc]
        congr 1
        apply BitVec.eq_of_toNat_eq
        simp [BitVec.toNat_add, BitVec.toNat_ofNat]
        omega
      · have h' : ¬ i = i' := fun e => h e.symm
        simp [h, h']

/-- With every id non-negative the clip below at zero and the wrap of negative ids change nothing. -/
theorem ids_clipped (cl : IVec S8192 32) (hcl : ∀ r : Fin 8192, 0 ≤ (cl (ix1 r)).toInt) (j : S8192.Idx) :
    select (cmpi .slt (maxsi (broadcastInDim S8192 ![] bcast_S_S8192 (constantI S_ 32 0#32)) cl)
          (broadcastInDim S8192 ![] bcast_S_S8192 (constantI S_ 32 0#32)))
        (addi (maxsi (broadcastInDim S8192 ![] bcast_S_S8192 (constantI S_ 32 0#32)) cl)
          (broadcastInDim S8192 ![] bcast_S_S8192 (constantI S_ 32 16#32)))
        (maxsi (broadcastInDim S8192 ![] bcast_S_S8192 (constantI S_ 32 0#32)) cl) j = cl j := by
  have hj : 0 ≤ (cl j).toInt := by rw [eq_ix1 j]; exact hcl _
  have hlt : (cl j).slt 0#32 = false := by
    simp only [BitVec.slt, decide_eq_false_iff_not, not_lt]; exact hj
  have hm : maxsi (broadcastInDim S8192 ![] bcast_S_S8192 (constantI S_ 32 0#32)) cl j = cl j := by
    show IntOp.maxsi 0#32 (cl j) = cl j
    unfold IntOp.maxsi; rw [hlt]; rfl
  rw [select_apply]
  show Scalar.select (IntOp.cmpi .slt (maxsi _ cl j) 0#32) _ (maxsi _ cl j) = _
  rw [hm]
  show Scalar.select (BitVec.ofBool ((cl j).slt 0#32)) _ _ = _
  rw [hlt]; exact select_zero _ _

/-- The ids as an 8192 × 1 column read the id. -/
theorem col_apply (v : IVec S8192 32) (r : Fin 8192) :
    broadcastInDim S8192x1 ![0] bcast_S8192_S8192x1_0 v (ix2 r 0) = v (ix1 r) := by
  refine broadcastInDim_apply _ _ _ _ (ix1 r) (fun a => ?_)
  have ha : a = 0 := Subsingleton.elim _ _
  subst ha
  rw [if_neg (by decide)]
  rfl

/-- A cluster's member count: the number `c` of samples carrying its id, as a word. -/
theorem clusterCounts_apply (cl : IVec S8192 32) (hcl : ∀ r : Fin 8192, 0 ≤ (cl (ix1 r)).toInt) (k : Fin 16) :
    ∃ c : ℕ, c ≤ 8192 ∧ (0 < c ↔ ∃ r : Fin 8192, (cl (ix1 r)).toInt = (k.val : ℤ)) ∧
      Tail.clusterCounts cl (ix1 k) = BitVec.ofNat 32 c := by
  have hv : (select (cmpi .slt (maxsi (broadcastInDim S8192 ![] bcast_S_S8192 (constantI S_ 32 0#32)) cl)
          (broadcastInDim S8192 ![] bcast_S_S8192 (constantI S_ 32 0#32)))
        (addi (maxsi (broadcastInDim S8192 ![] bcast_S_S8192 (constantI S_ 32 0#32)) cl)
          (broadcastInDim S8192 ![] bcast_S_S8192 (constantI S_ 32 16#32)))
        (maxsi (broadcastInDim S8192 ![] bcast_S_S8192 (constantI S_ 32 0#32)) cl)) = cl := funext (ids_clipped cl hcl)
  refine ⟨(List.finRange S8192.numel).countP fun n =>
      scatter_S16_S8192x1_S8192_n_0_0_1.resultIdx? (S8192.rowMajor.symm n)
        (broadcastInDim S8192x1 ![0] bcast_S8192_S8192x1_0 cl) = some (ix1 k), ?_, ?_, ?_⟩
  · refine (List.countP_le_length).trans ?_
    rw [List.length_finRange, numel8192]
  · rw [List.countP_pos_iff]
    constructor
    · rintro ⟨n, -, hn⟩
      obtain ⟨r, hr⟩ : ∃ r, S8192.rowMajor.symm n = ix1 r := ⟨_, eq_ix1 _⟩
      rw [decide_eq_true_eq, hr, resultIdx_iff, col_apply] at hn
      exact ⟨r, hn⟩
    · rintro ⟨r, hr⟩
      refine ⟨S8192.rowMajor (ix1 r), List.mem_finRange _, ?_⟩
      rw [decide_eq_true_eq, Equiv.symm_apply_apply, resultIdx_iff, col_apply]
      exact hr
  · unfold Tail.clusterCounts
    simp only []
    rw [hv]
    rw [scatter_ones _ (broadcastInDim S8192 ![] bcast_S_S8192 (constantI S_ 32 1#32)) (fun _ => rfl)]
    exact BitVec.zero_add _

/-- The number of clusters present, at least one, as the tail computes it. -/
theorem presentF_apply (cl : IVec S8192 32) (hcl : ∀ r : Fin 8192, 0 ≤ (cl (ix1 r)).toInt) :
    Tail.presentF (F := Ideal) cl ix0
      = max (((Cert.Math.nPresent (fun r => cl (ix1 r)) : ℕ) : ℝ) : EReal) Cert.Math.one := by
  have hfl : ∀ k : Fin 16,
      cmpi .sgt (Tail.clusterCounts cl) (broadcastInDim S16 ![] bcast_S_S16 (constantI S_ 32 0#32)) (ix1 k) = 1#1
        ↔ ∃ r : Fin 8192, (cl (ix1 r)).toInt = (k.val : ℤ) := by
    intro k
    obtain ⟨c, hc, hpos, he⟩ := clusterCounts_apply cl hcl k
    show IntOp.cmpi .sgt (Tail.clusterCounts cl (ix1 k)) 0#32 = 1#1 ↔ _
    rw [he, ← hpos]
    unfold IntOp.cmpi
    rw [Idealize.ShloMosaic.StableHlo.Predicate.ofBool_eq_one_iff]
    simp only [BitVec.slt, decide_eq_true_eq]
    rw [toInt_ofNat_small c (by omega)]
    simp
  unfold Tail.presentF
  generalize cmpi .sgt (Tail.clusterCounts cl) (broadcastInDim S16 ![] bcast_S_S16 (constantI S_ 32 0#32)) = fl at hfl ⊢
  have hsum : ∑ i : S16.Idx, (extui 32 fl natLt_1_32 i).toNat = Cert.Math.nPresent (fun r => cl (ix1 r)) := by
    rw [← Equiv.sum_comp idxEquiv1.symm, Cert.Math.nPresent, Finset.card_filter]
    refine Finset.sum_congr rfl fun k _ => ?_
    show ((fl (ix1 k)).setWidth 32).toNat = _
    rw [toNat_setWidth_bit]
    by_cases hp : ∃ r : Fin 8192, (cl (ix1 r)).toInt = (k.val : ℤ)
    · rw [if_pos ((hfl k).2 hp), if_pos hp]
    · rw [if_neg (fun h => hp ((hfl k).1 h)), if_neg hp]
  have hle : Cert.Math.nPresent (fun r => cl (ix1 r)) ≤ 16 := by
    unfold Cert.Math.nPresent
    exact (Finset.card_le_univ _).trans (by simp)
  have hw : (Host.reduce IntOp.addi (extui 32 fl natLt_1_32) (constantI S_ 32 0#32) reducesTo_S16_S_d0 h_S_ ix0).toNat
      = Cert.Math.nPresent (fun r => cl (ix1 r)) := by
    classical
    rw [Host.reduce_eq_fold, Finset.filter_true_of_mem (fun i _ => funext fun a => a.elim0)]
    show (Finset.fold IntOp.addi 0#32 _ _).toNat = _
    rw [toNat_fold_addi _ _ (by rw [hsum]; omega), hsum]
  rw [maximumf_apply, constant_apply, sitofp_apply]
  show max (((_ : BitVec 32).toInt : ℝ) : EReal) _ = _
  rw [toInt_eq_toNat_of_lt (by rw [hw]; omega), hw, Int.cast_natCast]
  rfl

/-- The tail: the clusters' two mean losses summed, over the number of clusters present (at least one). -/
theorem tailFn_apply (st : FVec Ideal S8x4x16 .f32) (cl : IVec S8192 32)
    (hcl : ∀ r : Fin 8192, 0 ≤ (cl (ix1 r)).toInt) :
    Tail.tailFn (F := Ideal) st cl ix0
      = Ideal.div (∑ k : Fin 16, (Cert.Math.lossOf (∑ i : Fin 8, st (ix3 i (0 : Fin 4) k)) (∑ i : Fin 8, st (ix3 i (1 : Fin 4) k))
                                + Cert.Math.lossOf (∑ i : Fin 8, st (ix3 i (2 : Fin 4) k)) (∑ i : Fin 8, st (ix3 i (3 : Fin 4) k))))
          (max (((Cert.Math.nPresent (fun r => cl (ix1 r)) : ℕ) : ℝ) : EReal) Cert.Math.one) := by
  unfold Tail.tailFn
  show Host.divf _ _ ix0 = _
  rw [hostDivf_apply, lossSum_apply, presentF_apply cl hcl]
  congr 1
  refine Finset.sum_congr rfl fun k _ => ?_
  rw [addf_apply, meanLoss_apply, meanLoss_apply, statRow_apply, statRow_apply, statRow_apply, statRow_apply,
    slabSum_apply, slabSum_apply, slabSum_apply, slabSum_apply]

end Cert.KernelIdeal.TailV
end
-- ==== Proof.TileVal.lean ====
/-
  The pairwise kernel's arithmetic read at an index, at the ideal instance (floats are extended reals).

  For one grid point the body forms the similarity tile of two blocks of 1024 normalised rows (a contraction over
  the 1024 features), the positive and negative pair masks from the row and column copies of the labels and
  cluster ids and the global row / column numbers, and adds to each of four per-row accumulators the row sums of
  the masked tile terms. At a row block's last grid point the one-hot of the block's cluster ids against
  `0 … 15` is contracted with the four accumulators.
-/
import proofs.«400463_j51427938402771_2_alg».proof.Proof.Spec
import proofs.«400463_j51427938402771_2_alg».proof.Proof.MathSpec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.KernelVsHost

noncomputable section

namespace Cert.KernelIdeal.Tile

open Idealize.ShloMosaic Idealize.ShloMosaic.ValueIdx Cert.KernelIdeal Cert.KernelIdeal.Gen

/-- The similarity of row `a` of the first block and row `b` of the second. -/
def simT (nI nJ : Vec Ideal S1024x1024 .bf16) (a b : Fin 1024) : EReal :=
  ∑ d : Fin 1024, nI (ix2 a d) * nJ (ix2 b d)

/-- The pair `(a, b)` of the tile at grid coordinates `co` is positive: same cluster, same label, and not the same
    sample (global row `1024 · co 0 + a`, global column `1024 · co 1 + b`). -/
def posT (co : grid1.Coords) (lr : Vec Ideal S1024x1 .i32) (lc : Vec Ideal S1x1024 .i32) (cr : Vec Ideal S1024x1 .i32)
    (cc : Vec Ideal S1x1024 .i32) (a b : Fin 1024) : Prop :=
  cr (ix2 a (0 : Fin 1)) = cc (ix2 (0 : Fin 1) b) ∧ lr (ix2 a (0 : Fin 1)) = lc (ix2 (0 : Fin 1) b)
    ∧ (co 0).val * 1024 + a.val ≠ (co 1).val * 1024 + b.val

/-- The pair is negative: same cluster, different label. -/
def negT (lr : Vec Ideal S1024x1 .i32) (lc : Vec Ideal S1x1024 .i32) (cr : Vec Ideal S1024x1 .i32)
    (cc : Vec Ideal S1x1024 .i32) (a b : Fin 1024) : Prop :=
  cr (ix2 a (0 : Fin 1)) = cc (ix2 (0 : Fin 1) b) ∧ lr (ix2 a (0 : Fin 1)) ≠ lc (ix2 (0 : Fin 1) b)

instance (co : grid1.Coords) (lr : Vec Ideal S1024x1 .i32) (lc : Vec Ideal S1x1024 .i32) (cr : Vec Ideal S1024x1 .i32)
    (cc : Vec Ideal S1x1024 .i32) (a b : Fin 1024) : Decidable (posT co lr lc cr cc a b) := by unfold posT; infer_instance
instance (lr : Vec Ideal S1024x1 .i32) (lc : Vec Ideal S1x1024 .i32) (cr : Vec Ideal S1024x1 .i32)
    (cc : Vec Ideal S1x1024 .i32) (a b : Fin 1024) : Decidable (negT lr lc cr cc a b) := by unfold negT; infer_instance

/-! ## Words and layout reads the masks need -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An equality test of two words is the bit of their equality. -/
theorem cmpi_eq_ite {w : Nat} (x y : BitVec w) : IntOp.cmpi .eq x y = if x = y then 1#1 else 0#1 := by
  by_cases h : x = y
  · rw [if_pos h]; exact StableHlo.Predicate.cmpi_eq_iff.mpr h
  · rw [if_neg h]; exact eq_zero_of_ne_one fun h' => h (StableHlo.Predicate.cmpi_eq_iff.mp h')

/-- Small naturals are equal as 32-bit words only when equal. -/
theorem ofNat32_inj {m n : Nat} (hm : m < 2 ^ 32) (hn : n < 2 ^ 32) : BitVec.ofNat 32 m = BitVec.ofNat 32 n ↔ m = n := by
  constructor
  · intro h
    have h' := congrArg BitVec.toNat h
    rw [BitVec.toNat_ofNat, BitVec.toNat_ofNat, Nat.mod_eq_of_lt hm, Nat.mod_eq_of_lt hn] at h'
    exact h'
  · rintro rfl; rfl

/-- The equality test of two small naturals held as words is the bit of their equality. -/
theorem cmpi_ofNat32_ite {m n : Nat} (hm : m < 2 ^ 32) (hn : n < 2 ^ 32) :
    IntOp.cmpi .eq (BitVec.ofNat 32 m) (BitVec.ofNat 32 n) = if m = n then 1#1 else 0#1 := by
  rw [cmpi_eq_ite]
  by_cases h : m = n
  · rw [if_pos h, if_pos (congrArg _ h)]
  · rw [if_neg h, if_neg fun h' => h ((ofNat32_inj hm hn).mp h')]

/-- The global number of a row (or column) of a tile: the grid coordinate times 1024 plus the position inside the
    tile, computed in 32-bit words without wrapping. -/
theorem lineWord (g : Nat) (a : Nat) :
    IntOp.addi (Scalar.muli (BitVec.ofNat 32 g) 1024#32) (BitVec.ofNat 32 a) = BitVec.ofNat 32 (g * 1024 + a) := by
  show BitVec.ofNat 32 g * BitVec.ofNat 32 1024 + BitVec.ofNat 32 a = _
  rw [← BitVec.ofNat_mul, ← BitVec.ofNat_add]

/-- The cluster test of a pair at an index. -/
theorem pay8_apply (cr : Vec Ideal S1024x1 .i32) (cc : Vec Ideal S1x1024 .i32) (a b : Fin 1024) :
    k1_pay8 (F := Ideal) cr cc (ix2 a b) = if cr (ix2 a (0 : Fin 1)) = cc (ix2 (0 : Fin 1) b) then 1#1 else 0#1 := by
  unfold k1_pay8
  rw [shapeCast_self, shapeCast_self]
  show IntOp.cmpi .eq (broadcastTo S1024x1024 cr broadcasts_S1024x1_S1024x1024 (ix2 a b))
      (broadcastTo S1024x1024 cc broadcasts_S1x1024_S1024x1024 (ix2 a b)) = _
  rw [broadcastTo_a1_ab_apply, broadcastTo_1b_ab_apply, cmpi_eq_ite]

/-- The label test of a pair at an index. -/
theorem pay9_apply (lr : Vec Ideal S1024x1 .i32) (lc : Vec Ideal S1x1024 .i32) (a b : Fin 1024) :
    k1_pay9 (F := Ideal) lr lc (ix2 a b) = if lr (ix2 a (0 : Fin 1)) = lc (ix2 (0 : Fin 1) b) then 1#1 else 0#1 := by
  unfold k1_pay9
  rw [shapeCast_self, shapeCast_self]
  show IntOp.cmpi .eq (broadcastTo S1024x1024 lr broadcasts_S1024x1_S1024x1024 (ix2 a b))
      (broadcastTo S1024x1024 lc broadcasts_S1x1024_S1024x1024 (ix2 a b)) = _
  rw [broadcastTo_a1_ab_apply, broadcastTo_1b_ab_apply, cmpi_eq_ite]

/-- The tile product's operand indices, axis by axis: the first operand is read at (row of the output, contraction
    position), the second at (column of the output, contraction position). -/
theorem lhs7_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs7_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs7_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs7_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix product of the two blocks, the second one transposed, onto a zero accumulator: the similarity tile. -/
theorem pay7_apply (nI nJ : Vec Ideal S1024x1024 .bf16) (a b : Fin 1024) :
    k1_pay7 (F := Ideal) nI nJ (ix2 a b) = simT nI nJ a b := by
  unfold k1_pay7 simT
  rw [shapeCast_self, shapeCast_self]
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 a b) ((ValueIdx.contrEquiv1 dot_S1024x1024_S1024x1024_S1024x1024_1_1_0_0_n_n 1024 rfl rfl).symm k) = ix2 a k := funext fun c => Fin.ext (by
    match c with
    | ⟨0, _⟩ => exact lhs7_0 _ _
    | ⟨1, _⟩ => exact (lhs7_1 _ _).trans hk)
  have er : dot_S1024x1024_S1024x1024_S1024x1024_1_1_0_0_n_n.rhsIdx (ix2 a b) ((ValueIdx.contrEquiv1 dot_S1024x1024_S1024x1024_S1024x1024_1_1_0_0_n_n 1024 rfl rfl).symm k) = ix2 b k := funext fun c => Fin.ext (by
    match c with
    | ⟨0, _⟩ => exact rhs7_0 _ _
    | ⟨1, _⟩ => exact (rhs7_1 _ _).trans hk)
  rw [el, er]

/-- The positive mask at an index. -/
theorem pay10_apply (co : grid1.Coords) (lr : Vec Ideal S1024x1 .i32) (lc : Vec Ideal S1x1024 .i32) (cr : Vec Ideal S1024x1 .i32)
    (cc : Vec Ideal S1x1024 .i32) (a b : Fin 1024) :
    k1_pay10 (F := Ideal) co lr lc cr cc (ix2 a b) = if posT co lr lc cr cc a b then 1#1 else 0#1 := by
  have h0 : (co 0).val < 8 := (co 0).isLt
  have h1 : (co 1).val < 8 := (co 1).isLt
  have ha : a.val < 1024 := a.isLt
  have hb : b.val < 1024 := b.isLt
  unfold k1_pay10
  show IntOp.andi (IntOp.andi (k1_pay8 (F := Ideal) cr cc (ix2 a b)) (k1_pay9 (F := Ideal) lr lc (ix2 a b)))
      (IntOp.xori (IntOp.cmpi .eq
          (IntOp.addi (Scalar.muli (BitVec.ofNat 32 (co 0).val) 1024#32) (iota .tc S1024x1024 32 [0] iota_S1024x1024_d0_w32 (ix2 a b)))
          (IntOp.addi (Scalar.muli (BitVec.ofNat 32 (co 1).val) 1024#32) (iota .tc S1024x1024 32 [1] iota_S1024x1024_d1_w32 (ix2 a b))))
        1#1) = _
  rw [pay8_apply, pay9_apply, iota_single_apply, iota_single_apply]
  show IntOp.andi (IntOp.andi _ _) (IntOp.xori (IntOp.cmpi .eq
      (IntOp.addi (Scalar.muli (BitVec.ofNat 32 (co 0).val) 1024#32) (BitVec.ofNat 32 a.val))
      (IntOp.addi (Scalar.muli (BitVec.ofNat 32 (co 1).val) 1024#32) (BitVec.ofNat 32 b.val))) 1#1) = _
  rw [lineWord, lineWord, cmpi_ofNat32_ite (by omega) (by omega)]
  unfold posT
  by_cases e1 : cr (ix2 a (0 : Fin 1)) = cc (ix2 (0 : Fin 1) b) <;> by_cases e2 : lr (ix2 a (0 : Fin 1)) = lc (ix2 (0 : Fin 1) b)
    <;> by_cases e3 : (co 0).val * 1024 + a.val = (co 1).val * 1024 + b.val
    <;> simp only [e1, e2, e3, if_true, if_false, ne_eq, not_true_eq_false, not_false_eq_true, and_true, and_false, true_and, false_and]
    <;> decide

/-- The negative mask at an index. -/
theorem pay11_apply (lr : Vec Ideal S1024x1 .i32) (lc : Vec Ideal S1x1024 .i32) (cr : Vec Ideal S1024x1 .i32)
    (cc : Vec Ideal S1x1024 .i32) (a b : Fin 1024) :
    k1_pay11 (F := Ideal) lr lc cr cc (ix2 a b) = if negT lr lc cr cc a b then 1#1 else 0#1 := by
  unfold k1_pay11
  show IntOp.andi (k1_pay8 (F := Ideal) cr cc (ix2 a b)) (IntOp.xori (k1_pay9 (F := Ideal) lr lc (ix2 a b)) 1#1) = _
  rw [pay8_apply, pay9_apply]
  unfold negT
  by_cases e1 : cr (ix2 a (0 : Fin 1)) = cc (ix2 (0 : Fin 1) b) <;> by_cases e2 : lr (ix2 a (0 : Fin 1)) = lc (ix2 (0 : Fin 1) b)
    <;> simp only [e1, e2, if_true, if_false, ne_eq, not_true_eq_false, not_false_eq_true, and_true, and_false, true_and, false_and]
    <;> decide

/-! ## A row sum added to a column -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a tile along its second axis, read at row `y`: the sum of the row's 1024 entries. -/
theorem rowSum_apply (src : FVec Ideal S1024x1024 .f32) (y : Fin 1024) :
    multiReduction (F := Ideal) .add [1] S1024 src 0x00000000#32 reduces_S1024x1024_S1024 (.inl rfl) rfl (ix1 y)
      = ∑ b : Fin 1024, src (ix2 y b) := by
  refine (Ideal.multiReduction_add_single src 0x00000000#32 reduces_S1024x1024_S1024 (.inl rfl) rfl (ix1 y)).trans ?_
  show ∑ k : Fin 1024, src (reduces_S1024x1024_S1024.lift (ix1 y) k) = _
  refine Finset.sum_congr rfl fun k _ => congrArg src ?_
  funext c
  match c with
  | ⟨0, _⟩ => rfl
  | ⟨1, _⟩ => rfl

/-- An accumulator column plus the row sums of a tile, at row `y`. -/
theorem colAcc_apply (p : FVec Ideal S1024x1 .f32) (src : FVec Ideal S1024x1024 .f32) (y : Fin 1024) :
    shapeCast S1024x1 (addf p (shapeCast S1024x1
        (multiReduction (F := Ideal) .add [1] S1024 src 0x00000000#32 reduces_S1024x1024_S1024 (.inl rfl) rfl)
        shapeCasts_S1024_S1024x1)) shapeCasts_S1024x1_S1024x1 (ix2 y (0 : Fin 1))
      = p (ix2 y (0 : Fin 1)) + ∑ b : Fin 1024, src (ix2 y b) := by
  rw [shapeCast_self]
  show p (ix2 y (0 : Fin 1)) + shapeCast S1024x1 _ shapeCasts_S1024_S1024x1 (ix2 y (0 : Fin 1)) = _
  rw [shapeCast_a_a1_apply, rowSum_apply]

/-- A mask bit widened to a word and converted to a float is one where the bit is set and zero elsewhere. -/
theorem sitofp_bit (c : BitVec 1) :
    (FloatOps.sitofp .f32 (c.setWidth 32) : Ideal .f32) = if c = 1#1 then (1 : EReal) else 0 := by
  rcases BitVec.eq_zero_or_eq_one c with rfl | rfl
  · rw [if_neg (by decide)]
    show (((((0#1 : BitVec 1).setWidth 32).toInt : ℤ) : ℝ) : EReal) = 0
    rw [show ((0#1 : BitVec 1).setWidth 32).toInt = 0 from by decide]
    norm_cast
  · rw [if_pos rfl]
    show (((((1#1 : BitVec 1).setWidth 32).toInt : ℤ) : ℝ) : EReal) = 1
    rw [show ((1#1 : BitVec 1).setWidth 32).toInt = 1 from by decide]
    norm_cast

/-- The first accumulator's step: the row sum of `(1 - sim)²` over the positive pairs of the tile is added. -/
theorem pay13_apply (v7 : FVec Ideal S1024x1024 .f32) (v33 : IVec S1024x1024 1) (p : Vec Ideal S1024x1 .f32) (y : Fin 1024) :
    k1_pay13 (F := Ideal) v7 v33 (k1_pay12 (F := Ideal)) p (ix2 y (0 : Fin 1))
      = p (ix2 y (0 : Fin 1)) + ∑ b : Fin 1024, (if v33 (ix2 y b) = 1#1 then (Cert.Math.one - v7 (ix2 y b)) * (Cert.Math.one - v7 (ix2 y b)) else 0) := by
  unfold k1_pay13 k1_pay12
  refine (colAcc_apply p _ y).trans ?_
  refine congrArg (p (ix2 y (0 : Fin 1)) + ·) (Finset.sum_congr rfl fun b _ => ?_)
  show Scalar.select (v33 (ix2 y b))
      ((Ideal.ofBits .f32 0x3F800000#32 - v7 (ix2 y b)) * (Ideal.ofBits .f32 0x3F800000#32 - v7 (ix2 y b)))
      (Ideal.ofBits .f32 0x00000000#32) = _
  rw [Ideal.ofBits_zero_f32]
  rfl

/-- The second accumulator's step: the number of positive pairs in the row of the tile is added. -/
theorem pay14_apply (v33 : IVec S1024x1024 1) (p : Vec Ideal S1024x1 .f32) (y : Fin 1024) :
    k1_pay14 (F := Ideal) v33 p (ix2 y (0 : Fin 1))
      = p (ix2 y (0 : Fin 1)) + ∑ b : Fin 1024, (if v33 (ix2 y b) = 1#1 then (1 : EReal) else 0) := by
  unfold k1_pay14
  refine (colAcc_apply p _ y).trans ?_
  refine congrArg (p (ix2 y (0 : Fin 1)) + ·) (Finset.sum_congr rfl fun b _ => ?_)
  exact sitofp_bit (v33 (ix2 y b))

/-- The third accumulator's step: the row sum of `max (sim - β) 0 ²` over the negative pairs is added. -/
theorem pay15_apply (v7 : FVec Ideal S1024x1024 .f32) (v35 : IVec S1024x1024 1) (p : Vec Ideal S1024x1 .f32) (y : Fin 1024) :
    k1_pay15 (F := Ideal) v7 v35 p (ix2 y (0 : Fin 1))
      = p (ix2 y (0 : Fin 1)) + ∑ b : Fin 1024, (if v35 (ix2 y b) = 1#1
          then max (v7 (ix2 y b) - Cert.Math.beta) 0 * max (v7 (ix2 y b) - Cert.Math.beta) 0 else 0) := by
  unfold k1_pay15
  refine (colAcc_apply p _ y).trans ?_
  refine congrArg (p (ix2 y (0 : Fin 1)) + ·) (Finset.sum_congr rfl fun b _ => ?_)
  show Scalar.select (v35 (ix2 y b))
      (max (v7 (ix2 y b) - Ideal.ofBits .f32 0x3E99999A#32) (Ideal.ofBits .f32 0x00000000#32)
        * max (v7 (ix2 y b) - Ideal.ofBits .f32 0x3E99999A#32) (Ideal.ofBits .f32 0x00000000#32))
      (Ideal.ofBits .f32 0x00000000#32) = _
  rw [Ideal.ofBits_zero_f32]
  rfl

/-- The fourth accumulator's step: the number of negative pairs in the row of the tile is added. -/
theorem pay1_apply (v35 : IVec S1024x1024 1) (p : Vec Ideal S1024x1 .f32) (y : Fin 1024) :
    k1_pay1 (F := Ideal) p (k1_pay16 v35) (ix2 y (0 : Fin 1))
      = p (ix2 y (0 : Fin 1)) + ∑ b : Fin 1024, (if v35 (ix2 y b) = 1#1 then (1 : EReal) else 0) := by
  unfold k1_pay1 k1_pay16
  refine (colAcc_apply p _ y).trans ?_
  refine congrArg (p (ix2 y (0 : Fin 1)) + ·) (Finset.sum_congr rfl fun b _ => ?_)
  exact sitofp_bit (v35 (ix2 y b))

/-- The reset values of the four accumulators are zero. -/
theorem pay3_apply (y : S1024x1.Idx) : k1_pay3 (F := Ideal) y = 0 := by
  unfold k1_pay3
  rw [shapeCast_self]
  exact Ideal.ofBits_zero_f32
theorem pay4_apply (y : S1024x1.Idx) : k1_pay4 (F := Ideal) y = 0 := by
  unfold k1_pay4
  rw [shapeCast_self]
  exact Ideal.ofBits_zero_f32
theorem pay5_apply (y : S1024x1.Idx) : k1_pay5 (F := Ideal) y = 0 := by
  unfold k1_pay5
  rw [shapeCast_self]
  exact Ideal.ofBits_zero_f32
theorem pay6_apply (y : S1024x1.Idx) : k1_pay6 (F := Ideal) y = 0 := by
  unfold k1_pay6
  rw [shapeCast_self]
  exact Ideal.ofBits_zero_f32

/-! ## The last grid point's contraction -/

/-- The contraction's operand indices, axis by axis: the one-hot (transposed) is read at (cluster, row), the four
    columns side by side at (row, accumulator). -/
theorem lhs2_0 (i : S16x4.Idx) (q : dot_S16x1024_S1024x4_S16x4_1_0_0_1_n_n.contr.Idx) :
    (dot_S16x1024_S1024x4_S16x4_1_0_0_1_n_n.lhsIdx i q 0).val = (i 0).val := by
  unfold DotDims.lhsIdx
  rw [dif_neg (show ¬(0 : Fin S16x1024.rank) ∈ dot_S16x1024_S1024x4_S16x4_1_0_0_1_n_n.lhsBatch by decide), dif_pos (show (0 : Fin S16x1024.rank) ∈ dot_S16x1024_S1024x4_S16x4_1_0_0_1_n_n.lhsNonContracting by decide)]
  rfl
theorem lhs2_1 (i : S16x4.Idx) (q : dot_S16x1024_S1024x4_S16x4_1_0_0_1_n_n.contr.Idx) :
    (dot_S16x1024_S1024x4_S16x4_1_0_0_1_n_n.lhsIdx i q 1).val = (q ⟨0, by decide⟩).val :=
  dot_S16x1024_S1024x4_S16x4_1_0_0_1_n_n.lhsIdx_val_of_single rfl i q
theorem rhs2_0 (i : S16x4.Idx) (q : dot_S16x1024_S1024x4_S16x4_1_0_0_1_n_n.contr.Idx) :
    (dot_S16x1024_S1024x4_S16x4_1_0_0_1_n_n.rhsIdx i q 0).val = (q ⟨0, by decide⟩).val :=
  dot_S16x1024_S1024x4_S16x4_1_0_0_1_n_n.rhsIdx_val_of_single rfl i q
theorem rhs2_1 (i : S16x4.Idx) (q : dot_S16x1024_S1024x4_S16x4_1_0_0_1_n_n.contr.Idx) :
    (dot_S16x1024_S1024x4_S16x4_1_0_0_1_n_n.rhsIdx i q 1).val = (i 1).val := by
  unfold DotDims.rhsIdx
  rw [dif_neg (show ¬(1 : Fin S1024x4.rank) ∈ dot_S16x1024_S1024x4_S16x4_1_0_0_1_n_n.rhsBatch by decide), dif_pos (show (1 : Fin S1024x4.rank) ∈ dot_S16x1024_S1024x4_S16x4_1_0_0_1_n_n.rhsNonContracting by decide)]
  rfl

/-- The one-hot of the block's cluster ids against `0 … 15`, as floats, at (row, cluster). -/
theorem onehot_apply (c : Vec Ideal S1024x1 .i32) (y : Fin 1024) (k : Fin 16) :
    (sitofp .f32 (extui 32 (cmpi .eq
        (broadcastTo S1024x16 (shapeCast S1024x1 c shapeCasts_S1024x1_S1024x1) broadcasts_S1024x1_S1024x16)
        (iota .tc S1024x16 32 [1] iota_S1024x16_d1_w32)) natLt_1_32) : FVec Ideal S1024x16 .f32) (ix2 y k)
      = if c (ix2 y (0 : Fin 1)) = BitVec.ofNat 32 k.val then (1 : EReal) else 0 := by
  rw [shapeCast_self]
  show FloatOps.sitofp .f32 ((IntOp.cmpi .eq (broadcastTo S1024x16 c broadcasts_S1024x1_S1024x16 (ix2 y k))
      (iota .tc S1024x16 32 [1] iota_S1024x16_d1_w32 (ix2 y k))).setWidth 32) = _
  rw [broadcastTo_a1_ab_apply, iota_single_apply, sitofp_bit, cmpi_eq_ite]
  show (if (if c (ix2 y (0 : Fin 1)) = BitVec.ofNat 32 k.val then 1#1 else 0#1) = 1#1 then (1 : EReal) else 0) = _
  by_cases h : c (ix2 y (0 : Fin 1)) = BitVec.ofNat 32 k.val
  · rw [if_pos h, if_pos h, if_pos rfl]
  · rw [if_neg h, if_neg h, if_neg (by decide)]

/-- The four accumulator columns side by side, at (row, accumulator). -/
theorem concat4_apply (s0 s1 s2 s3 : Vec Ideal S1024x1 .f32) (y : Fin 1024) (q : Fin 4) :
    concatenate S1024x4 1 [⟨S1024x1, s0⟩, ⟨S1024x1, s1⟩, ⟨S1024x1, s2⟩, ⟨S1024x1, s3⟩] concatenates_S1024x1_S1024x1_S1024x1_S1024x1_S1024x4_d1 (ix2 y q)
      = (![s0, s1, s2, s3] q) (ix2 y (0 : Fin 1)) :=
  concatenate_ofFn_unit_apply (t := S1024x4) (s₁ := S1024x1) (1 : Fin S1024x4.rank) (N := 4)
    (fun n => ![s0, s1, s2, s3] n) concatenates_S1024x1_S1024x1_S1024x1_S1024x1_S1024x4_d1 rfl rfl (ix2 y q) q rfl (ix2 y (0 : Fin 1))
    (fun b hb => match b, hb with
      | ⟨0, _⟩, _ => rfl
      | ⟨1, _⟩, hb => absurd rfl hb)

/-- The last grid point's contraction: entry `(q, k)` of the slab is the sum of accumulator `q` over the rows of
    the block whose cluster id is `k`. -/
theorem pay2_apply (c : Vec Ideal S1024x1 .i32) (s0 s1 s2 s3 : Vec Ideal S1024x1 .f32) (q : Fin 4) (k : Fin 16) :
    k1_pay2 (F := Ideal) c s0 s1 s2 s3 (ix3 (0 : Fin 1) q k)
      = ∑ y : Fin 1024, (if c (ix2 y (0 : Fin 1)) = BitVec.ofNat 32 k.val then (![s0, s1, s2, s3] q) (ix2 y (0 : Fin 1)) else 0) := by
  unfold k1_pay2
  refine (shapeCast_ab_1ab_apply _ shapeCasts_S4x16_S1x4x16 (0 : Fin 1) q k).trans ?_
  refine (transpose_ix2_apply _ transposes_S16x4_p1_0_S4x16 q k).trans ?_
  refine (Ideal.matmul_constant_zero_apply dot_S16x1024_S1024x4_S16x4_1_0_0_1_n_n none _ _ (ix2 k q)).trans ?_
  rw [← Equiv.sum_comp (ValueIdx.contrEquiv1 dot_S16x1024_S1024x4_S16x4_1_0_0_1_n_n 1024 rfl rfl).symm]
  refine Finset.sum_congr rfl fun y _ => ?_
  have hk := ValueIdx.contrEquiv1_symm_val dot_S16x1024_S1024x4_S16x4_1_0_0_1_n_n 1024 rfl rfl y
  have el : dot_S16x1024_S1024x4_S16x4_1_0_0_1_n_n.lhsIdx (ix2 k q) ((ValueIdx.contrEquiv1 dot_S16x1024_S1024x4_S16x4_1_0_0_1_n_n 1024 rfl rfl).symm y) = ix2 k y := funext fun d => Fin.ext (by
    match d with
    | ⟨0, _⟩ => exact lhs2_0 _ _
    | ⟨1, _⟩ => exact (lhs2_1 _ _).trans hk)
  have er : dot_S16x1024_S1024x4_S16x4_1_0_0_1_n_n.rhsIdx (ix2 k q) ((ValueIdx.contrEquiv1 dot_S16x1024_S1024x4_S16x4_1_0_0_1_n_n 1024 rfl rfl).symm y) = ix2 y q := funext fun d => Fin.ext (by
    match d with
    | ⟨0, _⟩ => exact (rhs2_0 _ _).trans hk
    | ⟨1, _⟩ => exact rhs2_1 _ _)
  rw [el, er, transpose_ix2_apply, onehot_apply, concat4_apply]
  by_cases h : c (ix2 y (0 : Fin 1)) = BitVec.ofNat 32 k.val
  · rw [if_pos h, if_pos h, one_mul]
  · rw [if_neg h, if_neg h, zero_mul]

end Cert.KernelIdeal.Tile

end
-- ==== Proof.StatsVal.lean ====
/-
  The pairwise kernel's result as sums over the samples, at the ideal instance (floats are extended reals).

  For row block `i` the four per-row accumulators after column block `j` hold, at row `y`, the sum over the
  column blocks `0 … j` of the tile's row sums; the tile's masks and similarity at `(a, b)` are the pair masks
  and the similarity of the samples `1024 i + a` and `1024 j + b`. After column block 7 the eight partial sums
  over 1024 columns are the sum over all 8192 samples (`(j, b) ↦ 1024 j + b` is a bijection), i.e. the row
  statistic of sample `1024 i + y`; the final contraction with the one-hot of the cluster ids sums these over the
  rows of the block whose cluster id is `k`.
-/
import proofs.«400463_j51427938402771_2_alg».proof.Proof.TileVal
import proofs.«400463_j51427938402771_2_alg».proof.Proof.Spec
import proofs.«400463_j51427938402771_2_alg».proof.Proof.MathSpec

noncomputable section

namespace Cert.KernelIdeal.Stats

open Idealize.ShloMosaic Idealize.ShloMosaic.ValueIdx Cert.KernelIdeal Cert.KernelIdeal.Gen

/-- The accumulator `q` of the four. -/
def comp (q : Fin 4) (p : Spec.Scr Ideal) : Vec Ideal S1024x1 .f32 := ![p.posSum, p.posCnt, p.negSum, p.negCnt] q

/-- The 8192 samples are 8 blocks of 1024. -/
def blkEquiv : Fin 8 × Fin 1024 ≃ Fin 8192 where
  toFun p := Spec.blkRow p.1 p.2
  invFun r := (Spec.blkOf r, Spec.offOf r)
  left_inv p := by
    obtain ⟨a, b⟩ := p
    apply Prod.ext
    · apply Fin.ext; show (a.val * 1024 + b.val) / 1024 = a.val; omega
    · apply Fin.ext; show (a.val * 1024 + b.val) % 1024 = b.val; omega
  right_inv r := by
    apply Fin.ext; show r.val / 1024 * 1024 + r.val % 1024 = r.val; omega

/-- A sum over the samples is the sum over the blocks of the sums over each block. -/
theorem sum_blocks (f : Fin 8192 → EReal) : ∑ s : Fin 8192, f s = ∑ j : Fin 8, ∑ b : Fin 1024, f (Spec.blkRow j b) := by
  rw [← Equiv.sum_comp blkEquiv f, Fintype.sum_prod_type]
  rfl

/-- The coordinates of a grid point: the quotient and the remainder by 8. -/
theorem coords_val (u : Fin grid1.N) : (grid1.coords u 0).val = u.val / 8 % 8 ∧ (grid1.coords u 1).val = u.val % 8 := by
  constructor
  · rfl
  · show u.val / 1 % 8 = u.val % 8
    rw [Nat.div_one]

theorem coords_at (i j : Fin 8) :
    (grid1.coords (Spec.pt (i.val * 8 + j.val)) 0).val = i.val ∧ (grid1.coords (Spec.pt (i.val * 8 + j.val)) 1).val = j.val := by
  have h := coords_val (Spec.pt (i.val * 8 + j.val))
  have hv : (Spec.pt (i.val * 8 + j.val)).val = (i.val * 8 + j.val) % 64 := rfl
  rw [hv] at h
  constructor
  · rw [h.1]; omega
  · rw [h.2]; omega

theorem rowOf_at (i j : Fin 8) : Spec.rowOf (i.val * 8 + j.val) = i := by
  apply Fin.ext; show (i.val * 8 + j.val) / 8 % 8 = i.val; omega

theorem colOf_at (i j : Fin 8) : Spec.colOf (i.val * 8 + j.val) = j := by
  apply Fin.ext; show (i.val * 8 + j.val) % 8 = j.val; omega

/-- A one-bit flag made from a decidable condition is set exactly when the condition holds. -/
theorem ite_bit {α : Type} (P : Prop) [Decidable P] (x y : α) :
    (if (if P then (1#1 : BitVec 1) else 0#1) = 1#1 then x else y) = if P then x else y := by
  by_cases h : P
  · rw [if_pos h, if_pos h, if_pos rfl]
  · rw [if_neg h, if_neg h, if_neg (by decide)]

theorem zero_eq : Cert.Math.zero = 0 := Ideal.ofBits_zero_f32

section Pairwise

variable (n : Vec Ideal S8192x1024 .bf16) (l4 : Vec Ideal S8192x1 .i32) (l5 : Vec Ideal S1x8192 .i32)
  (c6 : Vec Ideal S8192x1 .i32) (c7 : Vec Ideal S1x8192 .i32)

/-- The pair term `q` of the samples `r`, `s`, over the arrays the kernel is handed. -/
abbrev tm (q : Fin 4) (r s : Fin 8192) : EReal :=
  Cert.Math.term (fun r d => n (ix2 r d)) (fun r => l4 (ix2 r (0 : Fin 1))) (fun s => l5 (ix2 (0 : Fin 1) s))
    (fun r => c6 (ix2 r (0 : Fin 1))) (fun s => c7 (ix2 (0 : Fin 1) s)) q r s

/-- The tile's positive mask at `(a, b)` is the positive-pair condition of the samples `1024 i + a`, `1024 j + b`. -/
theorem posT_iff (i j : Fin 8) (a b : Fin 1024) :
    Tile.posT (grid1.coords (Spec.pt (i.val * 8 + j.val))) (Spec.colBlk l4 i) (Spec.lineBlk l5 j) (Spec.colBlk c6 i)
        (Spec.lineBlk c7 j) a b
      ↔ Cert.Math.posM (fun r => l4 (ix2 r (0 : Fin 1))) (fun s => l5 (ix2 (0 : Fin 1) s))
          (fun r => c6 (ix2 r (0 : Fin 1))) (fun s => c7 (ix2 (0 : Fin 1) s)) (Spec.blkRow i a) (Spec.blkRow j b) := by
  obtain ⟨h0, h1⟩ := coords_at i j
  unfold Tile.posT Cert.Math.posM
  rw [h0, h1]
  exact and_congr Iff.rfl (and_congr Iff.rfl (not_congr (Fin.ext_iff (a := Spec.blkRow i a) (b := Spec.blkRow j b)).symm))

/-- The tile's negative mask likewise. -/
theorem negT_iff (i j : Fin 8) (a b : Fin 1024) :
    Tile.negT (Spec.colBlk l4 i) (Spec.lineBlk l5 j) (Spec.colBlk c6 i) (Spec.lineBlk c7 j) a b
      ↔ Cert.Math.negM (fun r => l4 (ix2 r (0 : Fin 1))) (fun s => l5 (ix2 (0 : Fin 1) s))
          (fun r => c6 (ix2 r (0 : Fin 1))) (fun s => c7 (ix2 (0 : Fin 1) s)) (Spec.blkRow i a) (Spec.blkRow j b) := Iff.rfl

/-- The tile's similarity at `(a, b)` is the similarity of the samples `1024 i + a`, `1024 j + b`. -/
theorem simT_eq (i j : Fin 8) (a b : Fin 1024) :
    Tile.simT (Spec.rowBlk n i) (Spec.rowBlk n j) a b
      = Cert.Math.sim (fun r d => n (ix2 r d)) (Spec.blkRow i a) (Spec.blkRow j b) := rfl

theorem step0 (i j : Fin 8) (p : Spec.Scr Ideal) (y : Fin 1024) :
    (Spec.stepAt n l4 l5 c6 c7 (i.val * 8 + j.val) p).posSum (ix2 y (0 : Fin 1))
      = p.posSum (ix2 y (0 : Fin 1)) + ∑ b : Fin 1024, tm n l4 l5 c6 c7 0 (Spec.blkRow i y) (Spec.blkRow j b) := by
  unfold Spec.stepAt
  rw [rowOf_at, colOf_at]
  unfold Spec.scrStep
  refine (Tile.pay13_apply _ _ _ y).trans ?_
  congr 1
  refine Finset.sum_congr rfl fun b _ => ?_
  rw [Tile.pay10_apply, Tile.pay7_apply, ite_bit, simT_eq]
  exact if_congr (posT_iff l4 l5 c6 c7 i j y b) rfl zero_eq.symm

theorem step1 (i j : Fin 8) (p : Spec.Scr Ideal) (y : Fin 1024) :
    (Spec.stepAt n l4 l5 c6 c7 (i.val * 8 + j.val) p).posCnt (ix2 y (0 : Fin 1))
      = p.posCnt (ix2 y (0 : Fin 1)) + ∑ b : Fin 1024, tm n l4 l5 c6 c7 1 (Spec.blkRow i y) (Spec.blkRow j b) := by
  unfold Spec.stepAt
  rw [rowOf_at, colOf_at]
  unfold Spec.scrStep
  refine (Tile.pay14_apply _ _ y).trans ?_
  congr 1
  refine Finset.sum_congr rfl fun b _ => ?_
  rw [Tile.pay10_apply, ite_bit]
  exact if_congr (posT_iff l4 l5 c6 c7 i j y b) rfl rfl

theorem step2 (i j : Fin 8) (p : Spec.Scr Ideal) (y : Fin 1024) :
    (Spec.stepAt n l4 l5 c6 c7 (i.val * 8 + j.val) p).negSum (ix2 y (0 : Fin 1))
      = p.negSum (ix2 y (0 : Fin 1)) + ∑ b : Fin 1024, tm n l4 l5 c6 c7 2 (Spec.blkRow i y) (Spec.blkRow j b) := by
  unfold Spec.stepAt
  rw [rowOf_at, colOf_at]
  unfold Spec.scrStep
  refine (Tile.pay15_apply _ _ _ y).trans ?_
  congr 1
  refine Finset.sum_congr rfl fun b _ => ?_
  rw [Tile.pay11_apply, Tile.pay7_apply, ite_bit, simT_eq, ← zero_eq]
  exact if_congr (negT_iff l4 l5 c6 c7 i j y b) rfl rfl

theorem step3 (i j : Fin 8) (p : Spec.Scr Ideal) (y : Fin 1024) :
    (Spec.stepAt n l4 l5 c6 c7 (i.val * 8 + j.val) p).negCnt (ix2 y (0 : Fin 1))
      = p.negCnt (ix2 y (0 : Fin 1)) + ∑ b : Fin 1024, tm n l4 l5 c6 c7 3 (Spec.blkRow i y) (Spec.blkRow j b) := by
  unfold Spec.stepAt
  rw [rowOf_at, colOf_at]
  unfold Spec.scrStep
  refine (Tile.pay1_apply _ _ y).trans ?_
  congr 1
  refine Finset.sum_congr rfl fun b _ => ?_
  rw [Tile.pay11_apply, ite_bit]
  exact if_congr (negT_iff l4 l5 c6 c7 i j y b) rfl rfl

end Pairwise

section Accumulate

variable (n : Vec Ideal S8192x1024 .bf16) (l4 : Vec Ideal S8192x1 .i32) (l5 : Vec Ideal S1x8192 .i32)
  (c6 : Vec Ideal S8192x1 .i32) (c7 : Vec Ideal S1x8192 .i32)

/-- One grid point's step on accumulator `q`: the tile's row sum of the pair terms is added. -/
theorem step_apply (i j : Fin 8) (p : Spec.Scr Ideal) (q : Fin 4) (y : Fin 1024) :
    comp q (Spec.stepAt n l4 l5 c6 c7 (i.val * 8 + j.val) p) (ix2 y (0 : Fin 1))
      = comp q p (ix2 y (0 : Fin 1)) + ∑ b : Fin 1024, tm n l4 l5 c6 c7 q (Spec.blkRow i y) (Spec.blkRow j b) := by
  fin_cases q
  · exact step0 n l4 l5 c6 c7 i j p y
  · exact step1 n l4 l5 c6 c7 i j p y
  · exact step2 n l4 l5 c6 c7 i j p y
  · exact step3 n l4 l5 c6 c7 i j p y

/-- The reset accumulators are zero. -/
theorem comp_zero (q : Fin 4) (y : Fin 1024) : comp q (Spec.scrZero (F := Ideal)) (ix2 y (0 : Fin 1)) = 0 := by
  fin_cases q
  · exact Tile.pay3_apply (ix2 y (0 : Fin 1))
  · exact Tile.pay4_apply (ix2 y (0 : Fin 1))
  · exact Tile.pay5_apply (ix2 y (0 : Fin 1))
  · exact Tile.pay6_apply (ix2 y (0 : Fin 1))

/-- At a first column block the accumulators start again from zero. -/
theorem scrAfter_reset (t : ℕ) (h : t % 8 = 0) :
    Spec.scrAfter n l4 l5 c6 c7 t = Spec.stepAt n l4 l5 c6 c7 t Spec.scrZero := by
  cases t with
  | zero => rfl
  | succ t =>
    show Spec.stepAt n l4 l5 c6 c7 (t + 1) (if (t + 1) % 8 = 0 then Spec.scrZero else Spec.scrAfter n l4 l5 c6 c7 t) = _
    rw [if_pos h]

/-- At any other column block they carry on from the point before. -/
theorem scrAfter_succ (t : ℕ) (h : (t + 1) % 8 ≠ 0) :
    Spec.scrAfter n l4 l5 c6 c7 (t + 1) = Spec.stepAt n l4 l5 c6 c7 (t + 1) (Spec.scrAfter n l4 l5 c6 c7 t) := by
  show Spec.stepAt n l4 l5 c6 c7 (t + 1) (if (t + 1) % 8 = 0 then Spec.scrZero else Spec.scrAfter n l4 l5 c6 c7 t) = _
  rw [if_neg h]

/-- After column block `j` of row block `i`, accumulator `q` at row `y` is the sum over the column blocks `0 … j` of the
    pair terms of sample `1024 i + y` against the block's samples. -/
theorem acc_apply (i : Fin 8) (q : Fin 4) (y : Fin 1024) :
    ∀ j : ℕ, j < 8 → comp q (Spec.scrAfter n l4 l5 c6 c7 (i.val * 8 + j)) (ix2 y (0 : Fin 1))
      = ∑ jj ∈ Finset.range (j + 1), ∑ b : Fin 1024,
          tm n l4 l5 c6 c7 q (Spec.blkRow i y) (Spec.blkRow (Spec.colOf jj) b) := by
  intro j
  induction j with
  | zero =>
    intro hj
    rw [scrAfter_reset n l4 l5 c6 c7 (i.val * 8 + 0) (by omega)]
    refine (step_apply n l4 l5 c6 c7 i ⟨0, by omega⟩ _ q y).trans ?_
    rw [comp_zero, zero_add, Finset.sum_range_one]
    rfl
  | succ j ih =>
    intro hj
    have e : i.val * 8 + (j + 1) = (i.val * 8 + j) + 1 := rfl
    rw [e, scrAfter_succ n l4 l5 c6 c7 (i.val * 8 + j) (by omega), ← e]
    refine (step_apply n l4 l5 c6 c7 i ⟨j + 1, hj⟩ _ q y).trans ?_
    have hc : Spec.colOf (j + 1) = ⟨j + 1, hj⟩ := Fin.ext (Nat.mod_eq_of_lt hj)
    rw [ih (by omega), Finset.sum_range_succ _ (j + 1), hc]

end Accumulate

/-- Entry `(i, q, k)` of the pairwise kernel's result: the row statistic `q` summed over the samples of row block
    `i` whose cluster id is `k`. -/
theorem statsArr_apply (n : Vec Ideal S8192x1024 .bf16) (l4 : Vec Ideal S8192x1 .i32) (l5 : Vec Ideal S1x8192 .i32)
    (c6 : Vec Ideal S8192x1 .i32) (c7 : Vec Ideal S1x8192 .i32) (i : Fin 8) (q : Fin 4) (k : Fin 16) :
    Spec.statsArr n l4 l5 c6 c7 (ix3 i q k)
      = ∑ y : Fin 1024, (if c6 (ix2 (Spec.blkRow i y) (0 : Fin 1)) = BitVec.ofNat 32 k.val
          then Cert.Math.rowStat (fun r d => n (ix2 r d)) (fun r => l4 (ix2 r (0 : Fin 1))) (fun s => l5 (ix2 (0 : Fin 1) s))
            (fun r => c6 (ix2 r (0 : Fin 1))) (fun s => c7 (ix2 (0 : Fin 1) s)) q (Spec.blkRow i y) else 0) := by
  show Spec.statsBlk n l4 l5 c6 c7 i (ix3 (0 : Fin 1) q k) = _
  unfold Spec.statsBlk
  refine (Tile.pay2_apply _ _ _ _ _ q k).trans ?_
  refine Finset.sum_congr rfl fun y _ => ?_
  refine if_congr Iff.rfl ?_ rfl
  show comp q (Spec.scrAfter n l4 l5 c6 c7 (i.val * 8 + 7)) (ix2 y (0 : Fin 1)) = _
  rw [acc_apply n l4 l5 c6 c7 i q y 7 (by decide)]
  show ∑ jj ∈ Finset.range 8, _ = _
  unfold Cert.Math.rowStat
  rw [sum_blocks, Finset.sum_range]
  refine Finset.sum_congr rfl fun jj _ => ?_
  have hc : Spec.colOf jj.val = jj := Fin.ext (Nat.mod_eq_of_lt jj.isLt)
  rw [hc]

end Cert.KernelIdeal.Stats

end
-- ==== Proof.NormVal.lean ====
/-
  The normalising kernel at an index.

  For an 8192 × 1024 array x the kernel's result at row r, column d is x r d divided by the row's Euclidean norm
  clamped below by eps: x r d / max (sqrt (∑ d', x r d' · x r d')) eps. The kernel computes it block by block (rows
  1024 i .. 1024 i + 1023 in block i): in a block, the square of each entry, the sum of a row's squares along the
  lane axis (from a zero accumulator, which drops out), that sum kept as a one-column array, its square root, the
  maximum with the constant eps, the column spread back over the 1024 lanes, the quotient, and a change of float
  format that is the identity over the extended reals. Row y of block i is row 1024 i + y, and every row r is row
  r mod 1024 of block r div 1024.
-/
import proofs.«400463_j51427938402771_2_alg».proof.Proof.Spec
import proofs.«400463_j51427938402771_2_alg».proof.Proof.MathSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Norm

open Idealize.ShloMosaic Idealize.ShloMosaic.ValueIdx Cert.KernelIdeal Cert.KernelIdeal.Gen

/-- A vector of 1024 entries kept as a 1024 × 1 column reads, at row p, the vector's entry p. -/
theorem col_of_vec {α : Type} (v : S1024.Idx → α) (h : S1024.ShapeCasts S1024x1) (p : Fin 1024) (z : Fin 1) :
    shapeCast S1024x1 v h (ix2 p z) = v (ix1 p) := by
  refine shapeCast_apply v h (ix2 p z) (ix1 p) ?_
  rw [Shape.rowMajor_val_one, Shape.rowMajor_val_two]
  show p.val = p.val * 1 + z.val
  have := z.isLt
  omega

/-- A 1024 × 1 column spread over 1024 lanes reads, at (p, q), the column's row p. -/
theorem spread_col {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) ?_
  intro a
  match a with
  | ⟨0, _⟩ => rfl
  | ⟨1, _⟩ => rfl

/-- The lane sum of a 1024 × 1024 block at row p is the sum over the lanes of the block's row p. -/
theorem lane_sum (src : FVec Ideal S1024x1024 .f32) (h : S1024x1024.Reduces [1] S1024) (hφ : FKind.Formats FTy.f32)
    (hacc : (0x00000000#32 : BitVec 32) = 0x00000000#32) (p : Fin 1024) :
    multiReduction (F := Ideal) .add [1] S1024 src 0x00000000#32 h hφ hacc (ix1 p) = ∑ k : Fin 1024, src (ix2 p k) := by
  refine (Ideal.multiReduction_add_single src _ h hφ hacc (ix1 p)).trans ?_
  refine Finset.sum_congr rfl fun k _ => congrArg src ?_
  funext c
  match c with
  | ⟨0, _⟩ => exact Fin.ext rfl
  | ⟨1, _⟩ => exact Fin.ext rfl

/-- The square root of an array, entry by entry. -/
theorem sqrt_apply {s : Shape} {φ : FTy} (a : FVec Ideal s φ) (i : s.Idx) : sqrt a i = Ideal.sqrt (a i) := rfl

/-- The block kernel at an index: the entry over its row's clamped norm. -/
theorem pay_apply (v0 : Vec Ideal S1024x1024 .f32) (p q : Fin 1024) :
    k0_pay1 v0 (ix2 p q)
      = Ideal.div (v0 (ix2 p q)) (max (Ideal.sqrt (∑ k : Fin 1024, v0 (ix2 p k) * v0 (ix2 p k))) Cert.Math.eps) := by
  unfold k0_pay1
  rw [shapeCast_self]
  show Ideal.div (v0 (ix2 p q)) (broadcastTo S1024x1024 _ _ (ix2 p q)) = _
  rw [spread_col]
  rw [maximumf_apply, sqrt_apply, col_of_vec, lane_sum]
  rfl

/-- The normalising kernel's result at row r, column d is the normalised feature. -/
theorem normArr_apply (x : Vec Ideal S8192x1024 .f32) (r : Fin 8192) (d : Fin 1024) :
    Spec.normArr x (ix2 r d) = Cert.Math.nx (fun r d => x (ix2 r d)) r d := by
  have hr : Spec.blkRow (Spec.blkOf r) (Spec.offOf r) = r := by
    refine Fin.ext ?_
    show r.val / 1024 * 1024 + r.val % 1024 = r.val
    omega
  unfold Spec.normArr
  refine (pay_apply _ (Spec.offOf r) d).trans ?_
  unfold Cert.Math.nx Cert.Math.nrm Spec.rowBlk
  show Ideal.div (x (ix2 (Spec.blkRow (Spec.blkOf r) (Spec.offOf r)) d))
      (max (Ideal.sqrt (∑ k : Fin 1024, x (ix2 (Spec.blkRow (Spec.blkOf r) (Spec.offOf r)) k)
        * x (ix2 (Spec.blkRow (Spec.blkOf r) (Spec.offOf r)) k))) Cert.Math.eps) = _
  rw [hr]

end Cert.KernelIdeal.Norm

end
-- ==== Proof.BridgeLemmas.lean ====
/-
  Three small facts the comparison of the two programs uses.

  * Summing a function of the 8192 rows block by block (8 blocks of 1024 rows, row y of block i being row 1024 i + y)
    is summing it over all rows.
  * A 32-bit word is the word of a number k < 16 exactly when its signed value is k.
  * The precondition's second conjunct: the all-true reduction of "cluster id ≥ 0 (signed)" says every cluster id of
    the launch memory has a non-negative signed value.
-/
import proofs.«400463_j51427938402771_2_alg».proof.Defs
import proofs.«400463_j51427938402771_2_alg».proof.Proof.Gen.Pre_finite_inputs
import proofs.«400463_j51427938402771_2_alg».proof.Proof.Spec
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.ValueIdx Idealize.SL.Sem

/-- Rows as (block, place in the block): a bijection of the 8 × 1024 pairs with the 8192 rows. -/
def rowEquiv : Fin 8 × Fin 1024 ≃ Fin 8192 where
  toFun p := Cert.KernelIdeal.Spec.blkRow p.1 p.2
  invFun r := (Cert.KernelIdeal.Spec.blkOf r, Cert.KernelIdeal.Spec.offOf r)
  left_inv p := by
    obtain ⟨i, y⟩ := p
    have hi := i.isLt
    have hy := y.isLt
    refine Prod.ext (Fin.ext ?_) (Fin.ext ?_)
    · show (i.val * 1024 + y.val) / 1024 = i.val
      omega
    · show (i.val * 1024 + y.val) % 1024 = y.val
      omega
  right_inv r := by
    refine Fin.ext ?_
    show r.val / 1024 * 1024 + r.val % 1024 = r.val
    omega

/-- Eight blocks of 1024 rows exhaust the 8192 rows, each once. -/
theorem sum_blocks (f : Fin 8192 → EReal) :
    ∑ i : Fin 8, ∑ y : Fin 1024, f (Cert.KernelIdeal.Spec.blkRow i y) = ∑ r : Fin 8192, f r := by
  rw [← Fintype.sum_prod_type' (f := fun i y => f (Cert.KernelIdeal.Spec.blkRow i y))]
  exact Fintype.sum_equiv rowEquiv _ _ (fun _ => rfl)

/-- A word is the word of a number k < 16 exactly when its signed value is k. -/
theorem ofNat_iff (b : BitVec 32) (k : Fin 16) : b = BitVec.ofNat 32 k.val ↔ b.toInt = (k.val : ℤ) := by
  have hk : k.val < 2 ^ 31 := by have := k.isLt; omega
  rw [← StableHlo.Predicate.toInt_ofNat_small k.val hk]
  exact BitVec.toInt_inj.symm

instance : Subsingleton Cert.Pre_finite_inputs.S_.Idx := ⟨fun a b => funext fun d => d.elim0⟩

/-- A signed "w ≥ 0" comparison that came out true says the word's signed value is non-negative. -/
theorem sge_zero {w : BitVec 32} (h : IntOp.cmpi .sge w (0#32) = 1#1) : 0 ≤ w.toInt := by
  unfold IntOp.cmpi at h
  rw [StableHlo.Predicate.ofBool_eq_one_iff] at h
  simpa [BitVec.sle] using h

/-- Under the precondition every cluster id is non-negative as a signed word. -/
theorem pre_nonneg [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (a : Fin 8) (b : Fin 1024) :
    0 ≤ (m ((c.tc : Thread Cert.KernelIdeal.nD Cert.KernelIdeal.τ).loc Cert.KernelIdeal.main_arg2) (ix2 a b)).toInt := by
  have e := congrFun (h c) ValueIdx.ix0
  dsimp only [Cert.Pre_finite_inputs.fn] at e
  have e2 := (IntOp.andi_eq_one.1 e).2
  have e3 := Host.reduce_andi_all _ _ _ _ _ e2 (ix2 a b)
  apply sge_zero
  refine Eq.trans ?_ e3
  show _ = IntOp.cmpi .sge _ _
  congr 1

end Cert.Bridge

end
-- ==== Proof.Assemble.lean ====
/-
  The two programs compute one loss.

  The kernel program's result buffer ends at the host tail applied to the pairwise kernel's statistics of the
  normalised features; read at the ideal instance, with every cluster id non-negative (the precondition), that is
  `Cert.Math.result` of the normalised features, the labels and the cluster ids: the statistics of a row block,
  contracted against the one-hot of its cluster ids, summed over the eight row blocks, are the statistics summed over
  the samples of each cluster. The reference's result is the same `Cert.Math.result`.
-/
import proofs.«400463_j51427938402771_2_alg».proof.Proof.HostArgs
import proofs.«400463_j51427938402771_2_alg».proof.Proof.HostRead
import proofs.«400463_j51427938402771_2_alg».proof.Proof.TailVal
import proofs.«400463_j51427938402771_2_alg».proof.Proof.StatsVal
import proofs.«400463_j51427938402771_2_alg».proof.Proof.NormVal
import proofs.«400463_j51427938402771_2_alg».proof.Proof.BridgeLemmas

noncomputable section

namespace Cert.KernelIdeal.Val

open Idealize.ShloMosaic Idealize.ShloMosaic.TcCoe Idealize.ShloMosaic.ValueIdx Idealize.SL.Sem Cert.KernelIdeal Cert.KernelIdeal.Gen
open Cert.Math (hi lo)

variable [hPre_finite_inputs : Cert.Pre_finite_inputs.Facts]
variable (m : (ℓ : Loc nD τ sig) → Buf (Elt Ideal) ℓ)

/-- The flat features, labels and cluster ids of core `c`'s argument arrays. -/
def feat (c : Dev nD) (r : Fin 8192) (d : Fin 1024) : EReal := m ((c.tc : Thread nD τ).loc main_arg0) (ix3 (hi r) (lo r) d)
def lab (c : Dev nD) (r : Fin 8192) : BitVec 32 := m ((c.tc : Thread nD τ).loc main_arg1) (ix2 (hi r) (lo r))
def clu (c : Dev nD) (r : Fin 8192) : BitVec 32 := m ((c.tc : Thread nD τ).loc main_arg2) (ix2 (hi r) (lo r))

/-- The pairwise kernel's input arrays, as the fold finds them, are the normalised features and the labels and
    cluster ids in their row and column roles. -/
theorem n_eq (c : Dev nD) : (fun (r : Fin 8192) (d : Fin 1024) => Fold.W3 m c main_v3 (ix2 r d)) = Cert.Math.nx (feat m c) := by
  funext r d
  rw [Host.W3_v3]; unfold Fold.out0
  rw [Norm.normArr_apply]
  refine congrArg (fun f => Cert.Math.nx f r d) ?_
  funext r' d'; exact Host.W1_v0_apply m c r' d'

theorem l4_eq (c : Dev nD) : (fun r : Fin 8192 => Fold.W3 m c main_v4 (ix2 r (0 : Fin 1))) = lab m c := by
  funext r; rw [Host.W3_v4_apply, Host.W1_v1_apply]; rfl
theorem l5_eq (c : Dev nD) : (fun s : Fin 8192 => Fold.W3 m c main_v5 (ix2 (0 : Fin 1) s)) = lab m c := by
  funext r; rw [Host.W3_v5_apply, Host.W1_v1_apply]; rfl
theorem c6_eq (c : Dev nD) : (fun r : Fin 8192 => Fold.W3 m c main_v6 (ix2 r (0 : Fin 1))) = clu m c := by
  funext r; rw [Host.W3_v6_apply, Host.W1_v2_apply]; rfl
theorem c7_eq (c : Dev nD) : (fun s : Fin 8192 => Fold.W3 m c main_v7 (ix2 (0 : Fin 1) s)) = clu m c := by
  funext r; rw [Host.W3_v7_apply, Host.W1_v2_apply]; rfl

/-- The pairwise kernel's result and the flat cluster ids, as the host tail reads them. -/
def st1 (c : Dev nD) : FVec Ideal S8x4x16 .f32 := Fold.out1 m c
def clv (c : Dev nD) : IVec S8192 32 := Fold.W1 m c main_v2

theorem clv_eq (c : Dev nD) : (fun r : Fin 8192 => clv m c (ix1 r)) = clu m c :=
  funext fun r => Host.W1_v2_apply m c r

/-- Entry `(i, q, k)` of the pairwise kernel's result: row statistic `q` summed over the samples of row block `i`
    whose cluster id is `k`. -/
theorem st1_apply (c : Dev nD) (i : Fin 8) (q : Fin 4) (k : Fin 16) :
    st1 m c (ix3 i q k) = ∑ y : Fin 1024, (if clu m c (Spec.blkRow i y) = BitVec.ofNat 32 k.val
      then Cert.Math.rowStat (Cert.Math.nx (feat m c)) (lab m c) (lab m c) (clu m c) (clu m c) q (Spec.blkRow i y) else 0) := by
  unfold st1 Fold.out1
  refine (Stats.statsArr_apply _ _ _ _ _ i q k).trans ?_
  rw [n_eq, l4_eq, l5_eq, c6_eq, c7_eq]
  refine Finset.sum_congr rfl fun y _ => ?_
  rw [congrFun (c6_eq m c) (Spec.blkRow i y)]

/-- Statistic `q` of cluster `k`, summed over the eight slabs of the pairwise kernel's result, is the statistic
    summed over the samples of the cluster. -/
theorem stat_eq (c : Dev nD) (q : Fin 4) (k : Fin 16) :
    ∑ i : Fin 8, st1 m c (ix3 i q k)
      = Cert.Math.stat (Cert.Math.nx (feat m c)) (lab m c) (lab m c) (clu m c) (clu m c) q k := by
  simp only [st1_apply]
  rw [Cert.Bridge.sum_blocks (fun r => if clu m c r = BitVec.ofNat 32 k.val
    then Cert.Math.rowStat (Cert.Math.nx (feat m c)) (lab m c) (lab m c) (clu m c) (clu m c) q r else 0)]
  unfold Cert.Math.stat
  refine Finset.sum_congr rfl fun r _ => ?_
  exact if_congr (Cert.Bridge.ofNat_iff _ k) rfl rfl

/-- The kernel program's result, under the precondition. -/
theorem result_eq (hpre : Cert.Pre_KernelIdeal m) (c : Dev nD) :
    Fold.W11 m c main_v48 = fun _ => Cert.Math.result (Cert.Math.nx (feat m c)) (lab m c) (clu m c) := by
  funext j
  obtain rfl : j = ix0 := funext fun a => a.elim0
  have hcl : ∀ r : Fin 8192, 0 ≤ (clv m c (ix1 r)).toInt := fun r => by
    unfold clv
    rw [Host.W1_v2_apply]; exact Cert.Bridge.pre_nonneg m hpre c (hi r) (lo r)
  rw [Host.W11_v48]
  show Tail.tailFn (F := Ideal) (st1 m c) (clv m c) ix0 = _
  rw [TailV.tailFn_apply _ _ hcl, clv_eq]
  simp only [stat_eq]
  rfl

end Cert.KernelIdeal.Val

end
-- ==== Proof.RefVal.lean ====
/-
  The reference program's result is the clustered contrastive loss.

  The reference flattens the batch to 8192 samples, divides every sample by its Euclidean norm clamped below, forms
  the 8192 × 8192 matrix of cosine similarities, masks the positive pairs (same cluster, same label, off the diagonal)
  and the negative pairs (same cluster, other label; on the diagonal the labels agree, so the diagonal drops out by
  itself), sums the two pair losses and the two pair counts along every row, adds the rows of each of the 16 clusters
  together (a row goes to the cluster whose number its id is, read as a signed integer; a row whose id is no cluster's
  number goes nowhere), turns each cluster's sum and count into a mean, and divides the sum of the means by the number
  of clusters that have a member.  This module reads that value index by index and finds the loss of the
  specification: every stage is read at ONE index over variables, so the 8192 × 8192 arrays never unfold.

  The counts are integer sums of 0/1 words: a sum of at most 8192 ones does not wrap at 32 bits, so as a real it is the
  number of set entries.
-/
import proofs.«400463_j51427938402771_2_alg».proof.Proof.RefReadP
import proofs.«400463_j51427938402771_2_alg».proof.Proof.MathSpec
import Idealize.ShloMosaic.Lib.IdealHost

noncomputable section

namespace Cert.ReferenceIdeal.RefVal

open Cert.ReferenceIdeal Cert.ReferenceIdeal.Gen Idealize.ShloMosaic Idealize.ShloMosaic.ValueIdx
open Cert.ReferenceIdeal.ReadP
open Cert.Math (R D hi lo)

/-! ## The three arguments as functions of the flat sample index -/

/-- Feature `d` of flat sample `r`. -/
def X (x0 : (⟨S8x1024x1024, .f32⟩ : BufTy).Contents (Elt Ideal)) : R → D → EReal :=
  fun r d => x0 (ix3 (hi r) (lo r) d)
/-- The label (or the cluster id) of flat sample `r`. -/
def W (x : (⟨S8x1024, .i32⟩ : BufTy).Contents (Elt Ideal)) : R → BitVec 32 :=
  fun r => x (ix2 (hi r) (lo r))

theorem v0_at (x0 : (⟨S8x1024x1024, .f32⟩ : BufTy).Contents (Elt Ideal)) (r : Fin 8192) (d : Fin 1024) :
    val_main_v0 (F := Ideal) x0 (ix2 r d) = X x0 r d := by
  rw [val_main_v0_apply]
  refine congrArg x0 (funext fun a => Fin.ext ?_)
  have hr := r.isLt; have hd := d.isLt
  match a with
  | ⟨0, _⟩ => show (r.val * 1024 + d.val) / 1048576 = r.val / 1024; omega
  | ⟨1, _⟩ => show (r.val * 1024 + d.val) / 1024 % 1024 = r.val % 1024; omega
  | ⟨2, _⟩ => show (r.val * 1024 + d.val) % 1024 = d.val; omega

theorem v1_at (x1 : (⟨S8x1024, .i32⟩ : BufTy).Contents (Elt Ideal)) (r : Fin 8192) :
    val_main_v1 (F := Ideal) x1 (ix1 r) = W x1 r := by
  rw [val_main_v1_apply]
  refine congrArg x1 (funext fun a => Fin.ext ?_)
  match a with
  | ⟨0, _⟩ => rfl
  | ⟨1, _⟩ => rfl

theorem v2_at (x2 : (⟨S8x1024, .i32⟩ : BufTy).Contents (Elt Ideal)) (r : Fin 8192) :
    val_main_v2 (F := Ideal) x2 (ix1 r) = W x2 r := by
  rw [val_main_v2_apply]
  refine congrArg x2 (funext fun a => Fin.ext ?_)
  match a with
  | ⟨0, _⟩ => rfl
  | ⟨1, _⟩ => rfl

/-! ## The norm, the normalised samples, the similarity -/

theorem sq_at (x0 : (⟨S8x1024x1024, .f32⟩ : BufTy).Contents (Elt Ideal)) (r : Fin 8192) (d : Fin 1024) :
    val_main_call0_v0 (F := Ideal) x0 (ix2 r d) = X x0 r d * X x0 r d := by
  rw [val_main_call0_v0_apply, v0_at]; rfl

theorem ss_at (x0 : (⟨S8x1024x1024, .f32⟩ : BufTy).Contents (Elt Ideal)) (r : Fin 8192) :
    val_main_call0_v1 (F := Ideal) x0 (ix1 r) = ∑ d : Fin 1024, X x0 r d * X x0 r d := by
  rw [val_main_call0_v1_apply, val_main_call0_cst_apply]
  rw [show (FloatOps.ofBits .f32 0x00000000#32 : Ideal .f32) = 0 from Ideal.ofBits_zero_f32, zero_add]
  refine Finset.sum_congr rfl fun d _ => ?_
  rw [show idx_main_call0_v1 (ix1 r) d = ix2 r d from
    funext fun a => Fin.ext (by match a with | ⟨0, _⟩ => rfl | ⟨1, _⟩ => rfl)]
  exact sq_at x0 r d

theorem nrm_at (x0 : (⟨S8x1024x1024, .f32⟩ : BufTy).Contents (Elt Ideal)) (r : Fin 8192) (z : Fin 1) :
    val_main_v5 (F := Ideal) x0 (ix2 r z) = Cert.Math.nrm (X x0) r := by
  rw [val_main_v5_apply, val_main_v3_apply, val_main_call0_v2_apply, val_main_v4_apply, val_main_cst_apply]
  rw [show idx_main_call0_v2 (ix2 r z) = ix1 r from
    funext fun a => Fin.ext (by match a with | ⟨0, _⟩ => rfl)]
  rw [ss_at]
  rfl

theorem nx_at (x0 : (⟨S8x1024x1024, .f32⟩ : BufTy).Contents (Elt Ideal)) (r : Fin 8192) (d : Fin 1024) :
    val_main_v7 (F := Ideal) x0 (ix2 r d) = Cert.Math.nx (X x0) r d := by
  rw [val_main_v7_apply, v0_at, val_main_v6_apply]
  rw [show idx_main_v6 (ix2 r d) = ix2 r (0 : Fin 1) from
    funext fun a => Fin.ext (by match a with | ⟨0, _⟩ => rfl | ⟨1, _⟩ => rfl)]
  rw [nrm_at]
  rfl

theorem sim_at (x0 : (⟨S8x1024x1024, .f32⟩ : BufTy).Contents (Elt Ideal)) (r s : Fin 8192) :
    val_main_v9 (F := Ideal) x0 (ix2 r s) = Cert.Math.sim (Cert.Math.nx (X x0)) r s := by
  rw [val_main_v9_apply]
  unfold Cert.Math.sim
  refine Finset.sum_congr rfl fun k _ => ?_
  rw [show lidx_main_v9 (ix2 r s) k = ix2 r k from
    funext fun a => Fin.ext (by match a with | ⟨0, _⟩ => rfl | ⟨1, _⟩ => rfl)]
  rw [val_main_v8_apply]
  rw [show idx_main_v8 (ridx_main_v9 (ix2 r s) k) = ix2 s k from
    funext fun a => Fin.ext (by match a with | ⟨0, _⟩ => rfl | ⟨1, _⟩ => rfl)]
  rw [nx_at, nx_at]

/-! ## The masks -/

/-- The diagonal mask is set exactly on the diagonal. -/
theorem eye_at (r s : Fin 8192) : val_main_v14 (F := Ideal) (ix2 r s) = 1#1 ↔ r = s := by
  rw [val_main_v14_apply, val_main_v13_apply, val_main_v10_apply, val_main_v11_apply, val_main_v12_apply,
    val_main_c_apply, IntOp.cmpi_eq]
  show BitVec.ofNat 32 r.val + 0#32 = BitVec.ofNat 32 s.val ↔ r = s
  rw [BitVec.add_zero]
  constructor
  · intro h
    have h' := congrArg BitVec.toNat h
    simp only [BitVec.toNat_ofNat] at h'
    have hr := r.isLt; have hs := s.isLt
    exact Fin.ext (by omega)
  · rintro rfl; rfl

/-- The cluster comparison at a pair. -/
theorem clu_at (x2 : (⟨S8x1024, .i32⟩ : BufTy).Contents (Elt Ideal)) (r s : Fin 8192) :
    val_main_v19 (F := Ideal) x2 (ix2 r s) = 1#1 ↔ W x2 r = W x2 s := by
  rw [val_main_v19_apply, val_main_v17_apply, val_main_v18_apply, val_main_v15_apply, val_main_v16_apply]
  rw [show idx_main_v15 (idx_main_v17 (ix2 r s)) = ix1 r from
    funext fun a => Fin.ext (by match a with | ⟨0, _⟩ => rfl)]
  rw [show idx_main_v16 (idx_main_v18 (ix2 r s)) = ix1 s from
    funext fun a => Fin.ext (by match a with | ⟨0, _⟩ => rfl)]
  rw [v2_at, v2_at, IntOp.cmpi_eq]

/-- The label comparison at a pair. -/
theorem lab_at (x1 : (⟨S8x1024, .i32⟩ : BufTy).Contents (Elt Ideal)) (r s : Fin 8192) :
    val_main_v26 (F := Ideal) x1 (ix2 r s) = 1#1 ↔ W x1 r = W x1 s := by
  rw [val_main_v26_apply, val_main_v24_apply, val_main_v25_apply, val_main_v22_apply, val_main_v23_apply]
  rw [show idx_main_v22 (idx_main_v24 (ix2 r s)) = ix1 r from
    funext fun a => Fin.ext (by match a with | ⟨0, _⟩ => rfl)]
  rw [show idx_main_v23 (idx_main_v25 (ix2 r s)) = ix1 s from
    funext fun a => Fin.ext (by match a with | ⟨0, _⟩ => rfl)]
  rw [v1_at, v1_at, IntOp.cmpi_eq]

/-- The positive-pair mask is set exactly on the positive pairs. -/
theorem pos_at (x1 x2 : (⟨S8x1024, .i32⟩ : BufTy).Contents (Elt Ideal)) (r s : Fin 8192) :
    val_main_v27 (F := Ideal) x1 x2 (ix2 r s) = 1#1 ↔ Cert.Math.posM (W x1) (W x1) (W x2) (W x2) r s := by
  rw [val_main_v27_apply, val_main_v21_apply, val_main_v20_apply, IntOp.andi_eq_one, IntOp.andi_eq_one,
    IntOp.not_eq_one, clu_at, lab_at, eye_at]
  unfold Cert.Math.posM
  tauto

/-- The negative-pair mask is set exactly on the negative pairs: on the diagonal the labels agree, so leaving the
    diagonal out changes nothing. -/
theorem neg_at (x1 x2 : (⟨S8x1024, .i32⟩ : BufTy).Contents (Elt Ideal)) (r s : Fin 8192) :
    val_main_v29 (F := Ideal) x1 x2 (ix2 r s) = 1#1 ↔ Cert.Math.negM (W x1) (W x1) (W x2) (W x2) r s := by
  rw [val_main_v29_apply, val_main_v21_apply, val_main_v20_apply, val_main_v28_apply, IntOp.andi_eq_one,
    IntOp.andi_eq_one, IntOp.not_eq_one, IntOp.not_eq_one, clu_at, lab_at, eye_at]
  unfold Cert.Math.negM
  constructor
  · rintro ⟨⟨hc, _⟩, hl⟩; exact ⟨hc, hl⟩
  · rintro ⟨hc, hl⟩; exact ⟨⟨hc, fun e => hl (by rw [e])⟩, hl⟩

/-! ## The four per-pair terms -/

theorem term0_at (x0 : (⟨S8x1024x1024, .f32⟩ : BufTy).Contents (Elt Ideal))
    (x1 x2 : (⟨S8x1024, .i32⟩ : BufTy).Contents (Elt Ideal)) (r s : Fin 8192) :
    val_main_v33 (F := Ideal) x0 x1 x2 (ix2 r s)
      = Cert.Math.term (Cert.Math.nx (X x0)) (W x1) (W x1) (W x2) (W x2) 0 r s := by
  rw [val_main_v33_apply, val_main_v32_apply, val_main_v31_apply, val_main_v30_apply, val_main_cst_0_apply,
    val_main_call1_v1_apply, val_main_call1_v0_apply, val_main_cst_1_apply, sim_at]
  exact if_congr (pos_at x1 x2 r s) rfl rfl

theorem term2_at (x0 : (⟨S8x1024x1024, .f32⟩ : BufTy).Contents (Elt Ideal))
    (x1 x2 : (⟨S8x1024, .i32⟩ : BufTy).Contents (Elt Ideal)) (r s : Fin 8192) :
    val_main_v39 (F := Ideal) x0 x1 x2 (ix2 r s)
      = Cert.Math.term (Cert.Math.nx (X x0)) (W x1) (W x1) (W x2) (W x2) 2 r s := by
  rw [val_main_v39_apply, val_main_v38_apply, val_main_v37_apply, val_main_v35_apply, val_main_v34_apply,
    val_main_cst_2_apply, val_main_v36_apply, val_main_cst_3_apply,
    val_main_call2_v1_apply, val_main_call2_v0_apply, val_main_cst_4_apply, sim_at]
  exact if_congr (neg_at x1 x2 r s) rfl rfl

/-! ## Counting: a sum of ones, an integer fold of one-bit words -/

/-- A sum of ones over the members of a finite set that satisfy `p` is their number. -/
theorem sum_ite_one {ι : Type} [DecidableEq ι] (s : Finset ι) (p : ι → Prop) [DecidablePred p] :
    (∑ k ∈ s, if p k then (1 : EReal) else 0) = (((s.filter p).card : ℝ) : EReal) := by
  induction s using Finset.induction_on with
  | empty => simp
  | insert a s ha ih =>
    rw [Finset.sum_insert ha, ih, Finset.filter_insert]
    by_cases h : p a
    · rw [if_pos h, if_pos h, Finset.card_insert_of_notMem (fun hm => ha (Finset.mem_filter.1 hm).1),
        Nat.cast_succ, EReal.coe_add, EReal.coe_one, add_comm]
    · rw [if_neg h, if_neg h, zero_add]

/-- Adding up the one-bit words `c k`, widened to 32 bits, counts the set ones (as a 32-bit word). -/
theorem fold_addi_count {ι : Type} [DecidableEq ι] (s : Finset ι) (c : ι → BitVec 1) :
    s.fold IntOp.addi 0#32 (fun k => (c k).setWidth 32)
      = BitVec.ofNat 32 (s.filter fun k => c k = 1#1).card := by
  induction s using Finset.induction_on with
  | empty => rfl
  | insert a s ha ih =>
    rw [Finset.fold_insert ha, ih, Finset.filter_insert]
    rcases BitVec.eq_zero_or_eq_one (c a) with h | h
    · rw [if_neg (by rw [h]; decide), h]
      show (0#1).setWidth 32 + _ = _
      simp
    · rw [if_pos h, Finset.card_insert_of_notMem (fun hm => ha (Finset.mem_filter.1 hm).1), h]
      show (1#1).setWidth 32 + _ = _
      apply BitVec.eq_of_toNat_eq
      simp only [BitVec.toNat_add, BitVec.toNat_ofNat, BitVec.toNat_setWidth]
      omega

/-- A count of at most 8192, as a 32-bit word read signed, is itself. -/
theorem toInt_count (n : ℕ) (hn : n ≤ 8192) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-! ## The scatter-add of the rows into the 16 clusters -/

/-- An update lands on operand element `i` exactly when, on every axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : ℤ) := by
  unfold ScatterDims.resultIdx?
  constructor
  · intro e
    split at e
    · rename_i h
      have e' := Option.some.inj e
      intro a
      have := congrArg (fun f : s.Idx => ((f a).val : ℤ)) e'
      simp only at this
      rw [← this, Int.toNat_of_nonneg (h a).1]
    · exact absurd e (by simp)
  · intro hi
    have h : ∀ a, 0 ≤ d.start j idx a + d.window j a ∧ d.start j idx a + d.window j a < s.size a := fun a => by
      rw [hi a]; exact ⟨Int.natCast_nonneg _, by exact_mod_cast (i a).isLt⟩
    rw [dif_pos h]
    refine congrArg some (funext fun a => Fin.ext ?_)
    show (d.start j idx a + d.window j a).toNat = (i a).val
    rw [hi a]; exact Int.toNat_natCast _

/-- The start of update `j`'s window on the one operand axis is the signed id in row `j` of the index column. -/
theorem scat_start (idx : IVec S8192x1 32) (j : S8192.Idx) :
    scatter_S16_S8192x1_S8192_n_0_0_1.start j idx 0 = (idx (ix2 (j 0) (0 : Fin 1))).toInt := by
  unfold ScatterDims.start
  rw [dif_pos (show (0 : Fin S16.rank) ∈ scatter_S16_S8192x1_S8192_n_0_0_1.scatterDimsToOperandDims from
    List.mem_singleton.mpr rfl)]
  have hsi : scatter_S16_S8192x1_S8192_n_0_0_1.siIdx j
      ⟨List.idxOf (0 : Fin S16.rank) scatter_S16_S8192x1_S8192_n_0_0_1.scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- No operand axis is a window axis: the window coordinate is 0. -/
theorem scat_window (j : S8192.Idx) : scatter_S16_S8192x1_S8192_n_0_0_1.window j 0 = 0 := by
  unfold ScatterDims.window
  rw [dif_neg (by decide)]

/-- Row `j` is added to cluster `k` exactly when its id, read signed, is `k`. -/
theorem scat_hit (idx : IVec S8192x1 32) (j : S8192.Idx) (k : Fin 16) :
    scatter_S16_S8192x1_S8192_n_0_0_1.resultIdx? j idx = some (ix1 k)
      ↔ (idx (ix2 (j 0) (0 : Fin 1))).toInt = (k.val : ℤ) := by
  rw [resultIdx?_eq_some_iff]
  constructor
  · intro h
    have h0 := h 0
    rw [scat_start, scat_window] at h0
    simpa using h0
  · intro h a
    obtain rfl : a = 0 := Subsingleton.elim _ _
    rw [scat_start, scat_window]
    simpa using h

/-- The rank-1 indices of extent `n` are the numbers below `n`. -/
def idxEquiv1 {n : ℕ} : (⟨1, ![n]⟩ : Shape).Idx ≃ Fin n where
  toFun j := j 0
  invFun r := ix1 r
  left_inv j := (eq_ix1 j).symm
  right_inv _ := rfl

/-- The scatter-add at cluster `k`: the operand's element plus the rows whose id is `k`. -/
theorem scat_at (x : FVec Ideal S16 .f32) (idx : IVec S8192x1 32) (upd : FVec Ideal S8192 .f32) (k : Fin 16) :
    Host.scatterAdd (F := Ideal) scatter_S16_S8192x1_S8192_n_0_0_1 x idx upd (ix1 k)
      = x (ix1 k) + ∑ r : Fin 8192, if (idx (ix2 r (0 : Fin 1))).toInt = (k.val : ℤ) then upd (ix1 r) else 0 := by
  show Ideal.hostScatterAdd scatter_S16_S8192x1_S8192_n_0_0_1 x idx upd (ix1 k) = _
  unfold Ideal.hostScatterAdd
  refine congrArg (x (ix1 k) + ·) ?_
  rw [Finset.sum_filter, ← Equiv.sum_comp (idxEquiv1 (n := 8192)).symm]
  refine Finset.sum_congr rfl fun r _ => ?_
  exact if_congr (scat_hit idx (ix1 r) k) rfl rfl

/-! ## The four row statistics -/

theorem row0_at (x0 : (⟨S8x1024x1024, .f32⟩ : BufTy).Contents (Elt Ideal))
    (x1 x2 : (⟨S8x1024, .i32⟩ : BufTy).Contents (Elt Ideal)) (r : Fin 8192) :
    val_main_v40 (F := Ideal) x0 x1 x2 (ix1 r)
      = Cert.Math.rowStat (Cert.Math.nx (X x0)) (W x1) (W x1) (W x2) (W x2) 0 r := by
  rw [val_main_v40_apply, val_main_cst_5_apply]
  rw [show (FloatOps.ofBits .f32 0x00000000#32 : Ideal .f32) = 0 from Ideal.ofBits_zero_f32, zero_add]
  unfold Cert.Math.rowStat
  refine Finset.sum_congr rfl fun s _ => ?_
  rw [show idx_main_v40 (ix1 r) s = ix2 r s from
    funext fun a => Fin.ext (by match a with | ⟨0, _⟩ => rfl | ⟨1, _⟩ => rfl)]
  exact term0_at x0 x1 x2 r s

theorem row2_at (x0 : (⟨S8x1024x1024, .f32⟩ : BufTy).Contents (Elt Ideal))
    (x1 x2 : (⟨S8x1024, .i32⟩ : BufTy).Contents (Elt Ideal)) (r : Fin 8192) :
    val_main_v50 (F := Ideal) x0 x1 x2 (ix1 r)
      = Cert.Math.rowStat (Cert.Math.nx (X x0)) (W x1) (W x1) (W x2) (W x2) 2 r := by
  rw [val_main_v50_apply, val_main_cst_9_apply]
  rw [show (FloatOps.ofBits .f32 0x00000000#32 : Ideal .f32) = 0 from Ideal.ofBits_zero_f32, zero_add]
  unfold Cert.Math.rowStat
  refine Finset.sum_congr rfl fun s _ => ?_
  rw [show idx_main_v50 (ix1 r) s = ix2 r s from
    funext fun a => Fin.ext (by match a with | ⟨0, _⟩ => rfl | ⟨1, _⟩ => rfl)]
  exact term2_at x0 x1 x2 r s

/-- The integer row sum of a widened one-bit mask, converted to a float, is the number of set entries of the row. -/
theorem rowcount (c : IVec S8192x8192 1) (r : Fin 8192) :
    FloatOps.sitofp (F := Ideal) .f32
        (Host.reduce IntOp.addi (extui 32 c natLt_1_32) (constantI S_ 32 0#32) reducesTo_S8192x8192_S8192_d1 h_S_ (ix1 r))
      = ∑ s : Fin 8192, if c (ix2 r s) = 1#1 then (1 : EReal) else 0 := by
  rw [Host.reduce_eq_fold_single IntOp.addi _ _ reducesTo_S8192x8192_S8192_d1 (by decide) h_S_]
  have e : (extui 32 c natLt_1_32 ∘ Shape.Reduces.lift (s := S8192x8192) (a := 1) (t := S8192) (by decide) (ix1 r))
      = fun k : Fin 8192 => (c (ix2 r k)).setWidth 32 := by
    funext k
    show (c _).setWidth 32 = _
    exact congrArg (fun i => (c i).setWidth 32)
      (funext fun a => Fin.ext (by match a with | ⟨0, _⟩ => rfl | ⟨1, _⟩ => rfl))
  show FloatOps.sitofp (F := Ideal) .f32 ((Finset.univ : Finset (Fin 8192)).fold IntOp.addi 0#32 _) = _
  rw [e, fold_addi_count, sum_ite_one]
  show (((BitVec.ofNat 32 _).toInt : ℝ) : EReal) = _
  rw [toInt_count _ ((Finset.card_filter_le _ _).trans (by simp))]
  norm_cast

theorem row1_at (x1 x2 : (⟨S8x1024, .i32⟩ : BufTy).Contents (Elt Ideal)) (r : Fin 8192)
    (n : R → D → EReal) :
    val_main_v46 (F := Ideal) x1 x2 (ix1 r) = Cert.Math.rowStat n (W x1) (W x1) (W x2) (W x2) 1 r := by
  rw [val_main_v46_apply]
  unfold val_main_v45 val_main_v44 val_main_c_7
  rw [rowcount]
  unfold Cert.Math.rowStat
  refine Finset.sum_congr rfl fun s _ => ?_
  exact if_congr (pos_at x1 x2 r s) rfl rfl

theorem row3_at (x1 x2 : (⟨S8x1024, .i32⟩ : BufTy).Contents (Elt Ideal)) (r : Fin 8192)
    (n : R → D → EReal) :
    val_main_v56 (F := Ideal) x1 x2 (ix1 r) = Cert.Math.rowStat n (W x1) (W x1) (W x2) (W x2) 3 r := by
  rw [val_main_v56_apply]
  unfold val_main_v55 val_main_v54 val_main_c_11
  rw [rowcount]
  unfold Cert.Math.rowStat
  refine Finset.sum_congr rfl fun s _ => ?_
  exact if_congr (neg_at x1 x2 r s) rfl rfl

/-! ## The statistics of each cluster -/

theorem ids42_at (x2 : (⟨S8x1024, .i32⟩ : BufTy).Contents (Elt Ideal)) (r : Fin 8192) :
    val_main_v42 (F := Ideal) x2 (ix2 r (0 : Fin 1)) = W x2 r := by
  rw [val_main_v42_apply, show idx_main_v42 (ix2 r (0 : Fin 1)) = ix1 r from
    funext fun a => Fin.ext (by match a with | ⟨0, _⟩ => rfl), v2_at]
theorem ids48_at (x2 : (⟨S8x1024, .i32⟩ : BufTy).Contents (Elt Ideal)) (r : Fin 8192) :
    val_main_v48 (F := Ideal) x2 (ix2 r (0 : Fin 1)) = W x2 r := by
  rw [val_main_v48_apply, show idx_main_v48 (ix2 r (0 : Fin 1)) = ix1 r from
    funext fun a => Fin.ext (by match a with | ⟨0, _⟩ => rfl), v2_at]
theorem ids52_at (x2 : (⟨S8x1024, .i32⟩ : BufTy).Contents (Elt Ideal)) (r : Fin 8192) :
    val_main_v52 (F := Ideal) x2 (ix2 r (0 : Fin 1)) = W x2 r := by
  rw [val_main_v52_apply, show idx_main_v52 (ix2 r (0 : Fin 1)) = ix1 r from
    funext fun a => Fin.ext (by match a with | ⟨0, _⟩ => rfl), v2_at]
theorem ids58_at (x2 : (⟨S8x1024, .i32⟩ : BufTy).Contents (Elt Ideal)) (r : Fin 8192) :
    val_main_v58 (F := Ideal) x2 (ix2 r (0 : Fin 1)) = W x2 r := by
  rw [val_main_v58_apply, show idx_main_v58 (ix2 r (0 : Fin 1)) = ix1 r from
    funext fun a => Fin.ext (by match a with | ⟨0, _⟩ => rfl), v2_at]
theorem ids74_at (x2 : (⟨S8x1024, .i32⟩ : BufTy).Contents (Elt Ideal)) (r : Fin 8192) :
    val_main_v74 (F := Ideal) x2 (ix2 r (0 : Fin 1)) = W x2 r := by
  rw [val_main_v74_apply, show idx_main_v74 (ix2 r (0 : Fin 1)) = ix1 r from
    funext fun a => Fin.ext (by match a with | ⟨0, _⟩ => rfl), v2_at]

theorem zero_word : (FloatOps.ofBits .f32 0x00000000#32 : Ideal .f32) = 0 := Ideal.ofBits_zero_f32
theorem one_word : (FloatOps.ofBits .f32 0x3F800000#32 : Ideal .f32) = 1 := Ideal.ofBits_one_f32

theorem stat0_at (x0 : (⟨S8x1024x1024, .f32⟩ : BufTy).Contents (Elt Ideal))
    (x1 x2 : (⟨S8x1024, .i32⟩ : BufTy).Contents (Elt Ideal)) (k : Fin 16) :
    val_main_v43 (F := Ideal) x0 x1 x2 (ix1 k)
      = Cert.Math.stat (Cert.Math.nx (X x0)) (W x1) (W x1) (W x2) (W x2) 0 k := by
  unfold val_main_v43
  rw [scat_at, val_main_v41_apply, val_main_cst_6_apply, zero_word, zero_add]
  unfold Cert.Math.stat
  refine Finset.sum_congr rfl fun r _ => ?_
  rw [ids42_at, row0_at]

theorem stat1_at (x1 x2 : (⟨S8x1024, .i32⟩ : BufTy).Contents (Elt Ideal)) (k : Fin 16) (n : R → D → EReal) :
    val_main_v49 (F := Ideal) x1 x2 (ix1 k) = Cert.Math.stat n (W x1) (W x1) (W x2) (W x2) 1 k := by
  unfold val_main_v49
  rw [scat_at, val_main_v47_apply, val_main_cst_8_apply, zero_word, zero_add]
  unfold Cert.Math.stat
  refine Finset.sum_congr rfl fun r _ => ?_
  rw [ids48_at, row1_at x1 x2 r n]

theorem stat2_at (x0 : (⟨S8x1024x1024, .f32⟩ : BufTy).Contents (Elt Ideal))
    (x1 x2 : (⟨S8x1024, .i32⟩ : BufTy).Contents (Elt Ideal)) (k : Fin 16) :
    val_main_v53 (F := Ideal) x0 x1 x2 (ix1 k)
      = Cert.Math.stat (Cert.Math.nx (X x0)) (W x1) (W x1) (W x2) (W x2) 2 k := by
  unfold val_main_v53
  rw [scat_at, val_main_v51_apply, val_main_cst_10_apply, zero_word, zero_add]
  unfold Cert.Math.stat
  refine Finset.sum_congr rfl fun r _ => ?_
  rw [ids52_at, row2_at]

theorem stat3_at (x1 x2 : (⟨S8x1024, .i32⟩ : BufTy).Contents (Elt Ideal)) (k : Fin 16) (n : R → D → EReal) :
    val_main_v59 (F := Ideal) x1 x2 (ix1 k) = Cert.Math.stat n (W x1) (W x1) (W x2) (W x2) 3 k := by
  unfold val_main_v59
  rw [scat_at, val_main_v57_apply, val_main_cst_12_apply, zero_word, zero_add]
  unfold Cert.Math.stat
  refine Finset.sum_congr rfl fun r _ => ?_
  rw [ids58_at, row3_at x1 x2 r n]

/-! ## The mean loss of each cluster -/

/-- An ordered "greater than" is set exactly when the first operand is greater. -/
theorem cmp_ogt_eq_one (a z : EReal) : FloatOps.cmpf (F := Ideal) (φ := .f32) .ogt a z = 1#1 ↔ z < a := by
  show Ideal.cmp .ogt a z = 1#1 ↔ _
  unfold Ideal.cmp
  by_cases h : z < a <;> simp [h]

theorem select_ogt (a z A B : EReal) :
    Scalar.select (FloatOps.cmpf (F := Ideal) (φ := .f32) .ogt a z) A B = if z < a then A else B :=
  if_congr (cmp_ogt_eq_one a z) rfl rfl

theorem lossP_at (x0 : (⟨S8x1024x1024, .f32⟩ : BufTy).Contents (Elt Ideal))
    (x1 x2 : (⟨S8x1024, .i32⟩ : BufTy).Contents (Elt Ideal)) (k : Fin 16) :
    val_main_v65 (F := Ideal) x0 x1 x2 (ix1 k)
      = Cert.Math.lossOf (Cert.Math.stat (Cert.Math.nx (X x0)) (W x1) (W x1) (W x2) (W x2) 0 k)
          (Cert.Math.stat (Cert.Math.nx (X x0)) (W x1) (W x1) (W x2) (W x2) 1 k) := by
  rw [val_main_v65_apply, val_main_v61_apply, val_main_v64_apply, val_main_v63_apply, val_main_v60_apply,
    val_main_cst_13_apply, val_main_v62_apply, val_main_cst_14_apply, val_main_call3_v1_apply,
    val_main_call3_v0_apply, val_main_cst_15_apply, stat0_at, stat1_at x1 x2 k (Cert.Math.nx (X x0)), select_ogt]
  rfl

theorem lossN_at (x0 : (⟨S8x1024x1024, .f32⟩ : BufTy).Contents (Elt Ideal))
    (x1 x2 : (⟨S8x1024, .i32⟩ : BufTy).Contents (Elt Ideal)) (k : Fin 16) :
    val_main_v71 (F := Ideal) x0 x1 x2 (ix1 k)
      = Cert.Math.lossOf (Cert.Math.stat (Cert.Math.nx (X x0)) (W x1) (W x1) (W x2) (W x2) 2 k)
          (Cert.Math.stat (Cert.Math.nx (X x0)) (W x1) (W x1) (W x2) (W x2) 3 k) := by
  rw [val_main_v71_apply, val_main_v67_apply, val_main_v70_apply, val_main_v69_apply, val_main_v66_apply,
    val_main_cst_16_apply, val_main_v68_apply, val_main_cst_17_apply, val_main_call4_v1_apply,
    val_main_call4_v0_apply, val_main_cst_18_apply, stat2_at, stat3_at x1 x2 k (Cert.Math.nx (X x0)), select_ogt]
  rfl

/-! ## The number of clusters present -/

/-- The scatter-add of ones counts each cluster's members. -/
theorem members_at (x2 : (⟨S8x1024, .i32⟩ : BufTy).Contents (Elt Ideal)) (k : Fin 16) :
    val_main_v75 (F := Ideal) x2 (ix1 k)
      = ∑ r : Fin 8192, if (W x2 r).toInt = (k.val : ℤ) then (1 : EReal) else 0 := by
  unfold val_main_v75
  rw [scat_at, val_main_v73_apply, val_main_cst_20_apply, zero_word, zero_add]
  refine Finset.sum_congr rfl fun r _ => ?_
  rw [ids74_at, val_main_v72_apply, val_main_cst_19_apply, one_word]

/-- A cluster's presence bit is set exactly when it has a member. -/
theorem present_at (x2 : (⟨S8x1024, .i32⟩ : BufTy).Contents (Elt Ideal)) (k : Fin 16) :
    val_main_v77 (F := Ideal) x2 (ix1 k) = 1#1 ↔ ∃ r : R, (W x2 r).toInt = (k.val : ℤ) := by
  rw [val_main_v77_apply, members_at, val_main_v76_apply, val_main_cst_21_apply, zero_word, cmp_ogt_eq_one,
    sum_ite_one, EReal.coe_pos, Nat.cast_pos, Finset.card_pos, Finset.filter_nonempty_iff]
  simp

/-- The number of clusters present does not depend on how membership is decided. -/
theorem nPresent_eq (c : R → BitVec 32) :
    Cert.Math.nPresent c = (Finset.univ.filter fun k : Fin 16 => ∃ r : R, (c r).toInt = (k.val : ℤ)).card := by
  unfold Cert.Math.nPresent
  exact congrArg Finset.card (Finset.filter_congr_decidable _ _ _)

/-- The set presence bits are as many as the clusters present. -/
theorem present_card (x2 : (⟨S8x1024, .i32⟩ : BufTy).Contents (Elt Ideal)) :
    (Finset.univ.filter fun i : S16.Idx => val_main_v77 (F := Ideal) x2 i = 1#1).card
      = Cert.Math.nPresent (W x2) := by
  rw [nPresent_eq]
  refine Finset.card_equiv (idxEquiv1 (n := 16)) fun i => ?_
  obtain ⟨k, rfl⟩ : ∃ k, i = ix1 k := ⟨i 0, eq_ix1 i⟩
  exact ⟨fun h => Finset.mem_filter.2 ⟨Finset.mem_univ _, (present_at x2 k).1 (Finset.mem_filter.1 h).2⟩,
    fun h => Finset.mem_filter.2 ⟨Finset.mem_univ _, (present_at x2 k).2 (Finset.mem_filter.1 h).2⟩⟩

theorem nPresent_le (c : R → BitVec 32) : Cert.Math.nPresent c ≤ 8192 := by
  rw [nPresent_eq]
  exact (Finset.card_filter_le _ _).trans (by simp)

theorem npresent_at (x2 : (⟨S8x1024, .i32⟩ : BufTy).Contents (Elt Ideal)) :
    val_main_v80 (F := Ideal) x2 ix0 = (((Cert.Math.nPresent (W x2) : ℕ) : ℝ) : EReal) := by
  rw [val_main_v80_apply]
  unfold val_main_v79
  rw [Host.reduce_eq_fold IntOp.addi _ _ reducesTo_S16_S_d0 h_S_,
    Finset.filter_true_of_mem (fun i _ => funext fun a => a.elim0)]
  show FloatOps.sitofp (F := Ideal) .f32 ((Finset.univ : Finset S16.Idx).fold IntOp.addi 0#32
    (fun i => (val_main_v77 (F := Ideal) x2 i).setWidth 32)) = _
  rw [fold_addi_count, present_card]
  show (((BitVec.ofNat 32 _).toInt : ℝ) : EReal) = _
  rw [toInt_count _ (nPresent_le _), Int.cast_natCast]

/-! ## The result -/

theorem ref_apply (x0 : (⟨S8x1024x1024, .f32⟩ : BufTy).Contents (Elt Ideal))
    (x1 x2 : (⟨S8x1024, .i32⟩ : BufTy).Contents (Elt Ideal)) :
    val_main_v84 (F := Ideal) x0 x1 x2 ix0
      = Cert.Math.result (Cert.Math.nx (fun r d => x0 (ix3 (Cert.Math.hi r) (Cert.Math.lo r) d)))
          (fun r => x1 (ix2 (Cert.Math.hi r) (Cert.Math.lo r)))
          (fun r => x2 (ix2 (Cert.Math.hi r) (Cert.Math.lo r))) := by
  rw [val_main_v84_apply, val_main_v83_apply, val_main_v81_apply, val_main_cst_24_apply, val_main_cst_23_apply,
    zero_word, zero_add, npresent_at, ← Equiv.sum_comp (idxEquiv1 (n := 16)).symm]
  unfold Cert.Math.result
  refine congrArg₂ Ideal.div (Finset.sum_congr rfl fun k _ => ?_) rfl
  show val_main_v82 (F := Ideal) x0 x1 x2 (ix1 k) = _
  rw [val_main_v82_apply, lossP_at, lossN_at]
  rfl

end Cert.ReferenceIdeal.RefVal

end
-- ==== Proof.lean ====
/-
  The certificate of the contrastive-loss kernel against its jnp reference, under the precondition that the features
  are finite and every cluster id is non-negative.

  The kernel program is a row-normalising kernel, a pairwise kernel over an 8 × 8 grid of blocks of 1024 samples,
  and a host tail. Its run, at any float instance, ends with every buffer at a fold of the launch contents in which
  the two kernels' results are whole-array functions of their inputs; the three argument arrays are untouched
  (the frames). At the ideal instance the result buffer holds the loss `Cert.Math.result` of the normalised
  features, the labels and the cluster ids, and so does the reference's: the per-cluster statistics, which the
  kernel gathers block by block through a one-hot contraction and the reference through a scatter-add, are the same
  sums over the samples of each cluster. No rewrite was applied when the kernel was idealized, so there is nothing
  to preserve.
-/
import proofs.«400463_j51427938402771_2_alg».proof.Defs
import proofs.«400463_j51427938402771_2_alg».proof.Proof.Gen.Kernel
import proofs.«400463_j51427938402771_2_alg».proof.Proof.Gen.KernelIdeal
import proofs.«400463_j51427938402771_2_alg».proof.Proof.Gen.ReferenceIdeal
import proofs.«400463_j51427938402771_2_alg».proof.Proof.Gen.Pre_finite_inputs
import proofs.«400463_j51427938402771_2_alg».proof.Proof.Launch
import proofs.«400463_j51427938402771_2_alg».proof.Proof.Bits.Launch
import proofs.«400463_j51427938402771_2_alg».proof.Proof.Bits.HostArgs
import proofs.«400463_j51427938402771_2_alg».proof.Proof.Assemble
import proofs.«400463_j51427938402771_2_alg».proof.Proof.RefVal

noncomputable section

namespace Cert.Proof

open Idealize.ShloMosaic Idealize.ShloMosaic.ValueIdx Idealize.SL.Sem

/-- The word-level kernel program runs and leaves its arguments as launched. -/
theorem frame_kernel : Cert.frame_Kernel := fun m ρ _ =>
  (θ_run (Cert.Kernel.defs (F := Bits)) _ _).mono (fun r h c =>
    ⟨(h c _ Cert.Kernel.HostArgs.mem_uc_arg0).trans (Cert.Kernel.HostArgs.W11_arg0 m c),
     (h c _ Cert.Kernel.HostArgs.mem_uc_arg1).trans (Cert.Kernel.HostArgs.W11_arg1 m c),
     (h c _ Cert.Kernel.HostArgs.mem_uc_arg2).trans (Cert.Kernel.HostArgs.W11_arg2 m c)⟩)
    (Cert.Kernel.Main.run_all (F := Bits) m ρ)

/-- So does the idealized kernel program. -/
theorem frame_kernelIdeal : Cert.frame_KernelIdeal := fun m ρ _ =>
  (θ_run (Cert.KernelIdeal.defs (F := Ideal)) _ _).mono (fun r h c =>
    ⟨(h c _ Cert.KernelIdeal.HostArgs.mem_uc_arg0).trans (Cert.KernelIdeal.HostArgs.W11_arg0 m c),
     (h c _ Cert.KernelIdeal.HostArgs.mem_uc_arg1).trans (Cert.KernelIdeal.HostArgs.W11_arg1 m c),
     (h c _ Cert.KernelIdeal.HostArgs.mem_uc_arg2).trans (Cert.KernelIdeal.HostArgs.W11_arg2 m c)⟩)
    (Cert.KernelIdeal.Main.run_all (F := Ideal) m ρ)

/-- The reference is a host program: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the loss of the normalised features in their result buffer. -/
theorem algebraic : Cert.algebraic_KernelIdeal_ReferenceIdeal := by
  intro m ρ m' ρ' hpre hagree
  refine ⟨fun c => fun _ => Cert.Math.result (Cert.Math.nx (Cert.KernelIdeal.Val.feat m c)) (Cert.KernelIdeal.Val.lab m c)
    (Cert.KernelIdeal.Val.clu m c), ?_, ?_⟩
  · exact (θ_run (Cert.KernelIdeal.defs (F := Ideal)) _ _).mono (fun r h c =>
      ⟨(h c _ Cert.KernelIdeal.HostArgs.mem_uc_v48).trans (Cert.KernelIdeal.Val.result_eq m hpre c),
       (h c _ Cert.KernelIdeal.HostArgs.mem_uc_arg0).trans (Cert.KernelIdeal.HostArgs.W11_arg0 m c),
       (h c _ Cert.KernelIdeal.HostArgs.mem_uc_arg1).trans (Cert.KernelIdeal.HostArgs.W11_arg1 m c),
       (h c _ Cert.KernelIdeal.HostArgs.mem_uc_arg2).trans (Cert.KernelIdeal.HostArgs.W11_arg2 m c)⟩)
      (Cert.KernelIdeal.Main.run_all (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v84_eq]
    funext j
    obtain rfl : j = ix0 := funext fun a => a.elim0
    rw [Cert.ReferenceIdeal.RefVal.ref_apply, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
